-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v46_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v46_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S20000x256 : Shape := ⟨2, ![20000, 256]⟩
abbrev S2000x256 : Shape := ⟨2, ![2000, 256]⟩
abbrev S200000 : Shape := ⟨1, ![200000]⟩
abbrev S20000 : Shape := ⟨1, ![20000]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S2000x256 : S_.BroadcastsInDim S2000x256 (![] : Fin 0 → Fin S2000x256.rank)
  reducesTo_S2000x256_S_d0_1 : S2000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S200000 : S_.BroadcastsInDim S200000 (![] : Fin 0 → Fin S200000.rank)
  reducesTo_S200000_S_d0 : S200000.ReducesTo [0] S_
  bcast_S_S20000 : S_.BroadcastsInDim S20000 (![] : Fin 0 → Fin S20000.rank)
  reducesTo_S20000_S_d0 : S20000.ReducesTo [0] S_

variable [Facts]

def fn_part5 {F : FTy → Type} [FloatOps F] (main_arg3 : IVec S200000 32) (main_arg4 : IVec S20000 32) (main_v83 : IVec S_ 1) (main_v84 : IVec S200000 32) : IVec S_ 1 :=
  let main_v85 : IVec S200000 1 := cmpi .sge main_arg3 main_v84
  let main_c_33 : IVec S_ 1 := constantI S_ 1 1#1
  let main_v86 : IVec S_ 1 := (fun x v => Host.reduce IntOp.andi x v reducesTo_S200000_S_d0 h_S_) main_v85 main_c_33
  let main_v87 : IVec S_ 1 := andi main_v83 main_v86
  let main_c_34 : IVec S_ 32 := constantI S_ 32 0#32
  let main_v88 : IVec S20000 32 := broadcastInDim S20000 ![] bcast_S_S20000 main_c_34
  let main_v89 : IVec S20000 1 := cmpi .sge main_arg4 main_v88
  let main_c_35 : IVec S_ 1 := constantI S_ 1 1#1
  let main_v90 : IVec S_ 1 := (fun x v => Host.reduce IntOp.andi x v reducesTo_S20000_S_d0 h_S_) main_v89 main_c_35
  let main_v91 : IVec S_ 1 := andi main_v87 main_v90
  main_v91

def fn_part4 {F : FTy → Type} [FloatOps F] (main_arg3 : IVec S200000 32) (main_arg4 : IVec S20000 32) (main_arg16 : FVec F S256 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_c_32 : IVec S_ 32 := constantI S_ 32 0#32
  let main_v84 : IVec S200000 32 := broadcastInDim S200000 ![] bcast_S_S200000 main_c_32
  fn_part5 (F := F) main_arg3 main_arg4 main_v83 main_v84

def fn_part3 {F : FTy → Type} [FloatOps F] (main_arg3 : IVec S200000 32) (main_arg4 : IVec S20000 32) (main_arg13 : FVec F S256 .f32) (main_arg14 : FVec F S256 .f32) (main_arg15 : FVec F S256 .f32) (main_arg16 : FVec F S256 .f32) (main_arg17 : FVec F S256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg3 main_arg4 main_arg16 main_arg17 main_arg18 main_v63 main_v67

def fn_part2 {F : FTy → Type} [FloatOps F] (main_arg3 : IVec S200000 32) (main_arg4 : IVec S20000 32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg3 main_arg4 main_arg13 main_arg14 main_arg15 main_arg16 main_arg17 main_arg18 main_v48 main_v49 main_v50

def fn_part1 {F : FTy → Type} [FloatOps F] (main_arg3 : IVec S200000 32) (main_arg4 : IVec S20000 32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_v33

def fn {F : FTy → Type} [FloatOps F] (main_arg0 : FVec F S200000x256 .f32) (main_arg1 : FVec F S20000x256 .f32) (main_arg2 : FVec F S2000x256 .f32) (main_arg3 : IVec S200000 32) (main_arg4 : IVec S20000 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S2000x256 .f32 := Host.absf main_arg2
  let main_cst_2 : FVec F S_ .f32 := constant S_ .f32 0x7F800000#32
  let main_v10 : FVec F S2000x256 .f32 := broadcastInDim S2000x256 ![] bcast_S_S2000x256 main_cst_2
  let main_v11 : IVec S2000x256 1 := cmpf .olt main_v9 main_v10
  let main_c_3 : IVec S_ 1 := constantI S_ 1 1#1
  let main_v12 : IVec S_ 1 := (fun x v => Host.reduce IntOp.andi x v reducesTo_S2000x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_v13 main_v16
-- ==== Kernel.lean ====
abbrev S200000x256 : Shape := ⟨2, ![200000, 256]⟩
abbrev S20000x256 : Shape := ⟨2, ![20000, 256]⟩
abbrev S2000x256 : Shape := ⟨2, ![2000, 256]⟩
abbrev S200000 : Shape := ⟨1, ![200000]⟩
abbrev S20000 : Shape := ⟨1, ![20000]⟩
abbrev S256x256 : Shape := ⟨2, ![256, 256]⟩
abbrev S256 : Shape := ⟨1, ![256]⟩
abbrev S_ : Shape := ⟨0, ![]⟩
abbrev S200000x1 : Shape := ⟨2, ![200000, 1]⟩
abbrev S2000 : Shape := ⟨1, ![2000]⟩
abbrev S20000x1 : Shape := ⟨2, ![20000, 1]⟩
abbrev S1x256 : Shape := ⟨2, ![1, 256]⟩
abbrev S2000x1 : Shape := ⟨2, ![2000, 1]⟩
abbrev S4000x256 : Shape := ⟨2, ![4000, 256]⟩
abbrev S4000 : Shape := ⟨1, ![4000]⟩
abbrev S4000x1 : Shape := ⟨2, ![4000, 1]⟩
abbrev S1000x256 : Shape := ⟨2, ![1000, 256]⟩
abbrev S1000 : Shape := ⟨1, ![1000]⟩
abbrev S1000x1 : Shape := ⟨2, ![1000, 1]⟩

abbrev nBuf : Space → Nat
  | .hbm => 83
  | .vmem => 44
  | .smem => 0
  | _ => 0

abbrev bufTy : (tb : Table) → Fin (tcTables nBuf tb) → BufTy
  | .hbm, ⟨0, _⟩ => ⟨S200000x256, .f32⟩
  | .hbm, ⟨1, _⟩ => ⟨S20000x256, .f32⟩
  | .hbm, ⟨2, _⟩ => ⟨S2000x256, .f32⟩
  | .hbm, ⟨3, _⟩ => ⟨S200000, .i32⟩
  | .hbm, ⟨4, _⟩ => ⟨S20000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S200000, .f32⟩
  | .hbm, ⟨21, _⟩ => ⟨S_, .f32⟩
  | .hbm, ⟨22, _⟩ => ⟨S20000, .f32⟩
  | .hbm, ⟨23, _⟩ => ⟨S200000x1, .i32⟩
  | .hbm, ⟨24, _⟩ => ⟨S20000, .f32⟩
  | .hbm, ⟨25, _⟩ => ⟨S_, .f32⟩
  | .hbm, ⟨26, _⟩ => ⟨S20000, .f32⟩
  | .hbm, ⟨27, _⟩ => ⟨S_, .f32⟩
  | .hbm, ⟨28, _⟩ => ⟨S2000, .f32⟩
  | .hbm, ⟨29, _⟩ => ⟨S20000x1, .i32⟩
  | .hbm, ⟨30, _⟩ => ⟨S2000, .f32⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S_, .f32⟩
  | .hbm, ⟨40, _⟩ => ⟨S20000x256, .f32⟩
  | .hbm, ⟨41, _⟩ => ⟨S200000x1, .i32⟩
  | .hbm, ⟨42, _⟩ => ⟨S20000x256, .f32⟩
  | .hbm, ⟨43, _⟩ => ⟨S_, .f32⟩
  | .hbm, ⟨44, _⟩ => ⟨S20000, .f32⟩
  | .hbm, ⟨45, _⟩ => ⟨S20000, .f32⟩
  | .hbm, ⟨46, _⟩ => ⟨S20000x1, .f32⟩
  | .hbm, ⟨47, _⟩ => ⟨S20000x256, .f32⟩
  | .hbm, ⟨48, _⟩ => ⟨S20000x256, .f32⟩
  | .hbm, ⟨49, _⟩ => ⟨S20000x256, .bf16⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S20000x256, .f32⟩
  | .hbm, ⟨54, _⟩ => ⟨S20000x256, .bf16⟩
  | .hbm, ⟨55, _⟩ => ⟨S200000x1, .i32⟩
  | .hbm, ⟨56, _⟩ => ⟨S200000x256, .bf16⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S200000x256, .f32⟩
  | .hbm, ⟨61, _⟩ => ⟨S_, .f32⟩
  | .hbm, ⟨62, _⟩ => ⟨S2000x256, .f32⟩
  | .hbm, ⟨63, _⟩ => ⟨S20000x1, .i32⟩
  | .hbm, ⟨64, _⟩ => ⟨S2000x256, .f32⟩
  | .hbm, ⟨65, _⟩ => ⟨S_, .f32⟩
  | .hbm, ⟨66, _⟩ => ⟨S2000, .f32⟩
  | .hbm, ⟨67, _⟩ => ⟨S2000, .f32⟩
  | .hbm, ⟨68, _⟩ => ⟨S2000x1, .f32⟩
  | .hbm, ⟨69, _⟩ => ⟨S2000x256, .f32⟩
  | .hbm, ⟨70, _⟩ => ⟨S2000x256, .f32⟩
  | .hbm, ⟨71, _⟩ => ⟨S2000x256, .bf16⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S2000x256, .f32⟩
  | .hbm, ⟨76, _⟩ => ⟨S2000x256, .bf16⟩
  | .hbm, ⟨77, _⟩ => ⟨S20000x1, .i32⟩
  | .hbm, ⟨78, _⟩ => ⟨S20000x256, .bf16⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S20000x256, .f32⟩
  | .local _ .vmem, ⟨0, _⟩ => ⟨S2000x256, .bf16⟩
  | .local _ .vmem, ⟨1, _⟩ => ⟨S2000x256, .bf16⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S4000x256, .bf16⟩
  | .local _ .vmem, ⟨13, _⟩ => ⟨S4000x256, .bf16⟩
  | .local _ .vmem, ⟨14, _⟩ => ⟨S4000x256, .f32⟩
  | .local _ .vmem, ⟨15, _⟩ => ⟨S4000x256, .f32⟩
  | .local _ .vmem, ⟨16, _⟩ => ⟨S256x256, .bf16⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S4000x256, .f32⟩
  | .local _ .vmem, ⟨21, _⟩ => ⟨S4000x256, .f32⟩
  | .local _ .vmem, ⟨22, _⟩ => ⟨S1000x256, .bf16⟩
  | .local _ .vmem, ⟨23, _⟩ => ⟨S1000x256, .bf16⟩
  | .local _ .vmem, ⟨24, _⟩ => ⟨S1000x256, .f32⟩
  | .local _ .vmem, ⟨25, _⟩ => ⟨S1000x256, .f32⟩
  | .local _ .vmem, ⟨26, _⟩ => ⟨S256x256, .bf16⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1000x256, .f32⟩
  | .local _ .vmem, ⟨31, _⟩ => ⟨S1000x256, .f32⟩
  | .local _ .vmem, ⟨32, _⟩ => ⟨S1000x256, .bf16⟩
  | .local _ .vmem, ⟨33, _⟩ => ⟨S1000x256, .bf16⟩
  | .local _ .vmem, ⟨34, _⟩ => ⟨S2000x256, .bf16⟩
  | .local _ .vmem, ⟨35, _⟩ => ⟨S2000x256, .bf16⟩
  | .local _ .vmem, ⟨36, _⟩ => ⟨S2000x256, .f32⟩
  | .local _ .vmem, ⟨37, _⟩ => ⟨S2000x256, .f32⟩
  | .local _ .vmem, ⟨38, _⟩ => ⟨S256x256, .bf16⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev main_call0_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46_0 : Ref sig .tc := ⟨.hbm, 75, rfl⟩
abbrev main_v46_1 : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S200000 : S_.BroadcastsInDim S200000 (![] : Fin 0 → Fin S200000.rank)
  bcast_S_S20000 : S_.BroadcastsInDim S20000 (![] : Fin 0 → Fin S20000.rank)
  bcast_S200000_S200000x1_0 : S200000.BroadcastsInDim S200000x1 (![0] : Fin 1 → Fin S200000x1.rank)
  bcast_S_S2000 : S_.BroadcastsInDim S2000 (![] : Fin 0 → Fin S2000.rank)
  bcast_S20000_S20000x1_0 : S20000.BroadcastsInDim S20000x1 (![0] : Fin 1 → Fin S20000x1.rank)
  transposes_S256x256_S256x256_1_0 : S256x256.Transposes [1, 0] S256x256
  bitsLt_bf16_f32 : FTy.bits .bf16 < FTy.bits .f32
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  bcast_S_S2000x256 : S_.BroadcastsInDim S2000x256 (![] : Fin 0 → Fin S2000x256.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  packedbf16_S1000x256_S1000x256_0_0 : (Rect.unit (s := S1000x256) ![0, 0] S1000x256.size inb_S1000x256_S1000x256_0_0).PackedRows (EltTy.packing .bf16)
  scatter_S20000_S200000x1_S200000_n_0_0_1_wf : ScatterDims.WF S20000 S200000x1 S200000 [] [0] [0] 1
  scatter_S2000_S20000x1_S20000_n_0_0_1_wf : ScatterDims.WF S2000 S20000x1 S20000 [] [0] [0] 1
  scatter_S20000x256_S200000x1_S200000x256_1_0_0_1_wf : ScatterDims.WF S20000x256 S200000x1 S200000x256 [1] [0] [0] 1
  dot_S2000x256_S256x256_S2000x256_1_0_0_1_n_n_wf : DotDims.WF S2000x256 S256x256 S2000x256 [1] [0] [0] [1] [] []
  gather_S20000x256_S200000x1_S200000x256_1_0_n_n_0_1_1256_wf : GatherDims.WF S20000x256 S200000x1 S200000x256 [1] [0] [] [0] [] 1 ![1, 256]
  dot_S4000x256_S256x256_S4000x256_1_0_0_1_n_n_wf : DotDims.WF S4000x256 S256x256 S4000x256 [1] [0] [0] [1] [] []
  scatter_S2000x256_S20000x1_S20000x256_1_0_0_1_wf : ScatterDims.WF S2000x256 S20000x1 S20000x256 [1] [0] [0] 1
  dot_S1000x256_S256x256_S1000x256_1_0_0_1_n_n_wf : DotDims.WF S1000x256 S256x256 S1000x256 [1] [0] [0] [1] [] []
  gather_S2000x256_S20000x1_S20000x256_1_0_n_n_0_1_1256_wf : GatherDims.WF S2000x256 S20000x1 S20000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .bf16 = 32 ∨ (Rect.block (s := S20000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S20000x256.size a
  hwx0_7 : ∀ i : grid0.Coords, EltTy.bits .bf16 = 32 ∨ (Rect.block (s := S20000x256) S2000x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .bf16 = 32 ∨ (Rect.block (s := S200000x256) S4000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S200000x256.size a
  hwx1_1 : ∀ i : grid1.Coords, EltTy.bits .f32 = 32 ∨ (Rect.block (s := S200000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x256.size a ≤ S200000x256.size a
  hwx1_6 : ∀ i : grid1.Coords, EltTy.bits .f32 = 32 ∨ (Rect.block (s := S200000x256) S4000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S2000x256.size a
  hwx2_0 : ∀ i : grid2.Coords, EltTy.bits .bf16 = 32 ∨ (Rect.block (s := S2000x256) S1000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S2000x256.size a
  hwx2_1 : ∀ i : grid2.Coords, EltTy.bits .f32 = 32 ∨ (Rect.block (s := S2000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S2000x256.size a
  hwx2_6 : ∀ i : grid2.Coords, EltTy.bits .f32 = 32 ∨ (Rect.block (s := S2000x256) S1000x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x256.size a ≤ S2000x256.size a
  hwx2_7 : ∀ i : grid2.Coords, EltTy.bits .bf16 = 32 ∨ (Rect.block (s := S2000x256) S1000x256.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .bf16 = 32 ∨ (Rect.block (s := S20000x256) S2000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)

variable [Facts₀]

def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def scatter_S2000_S20000x1_S20000_n_0_0_1 : ScatterDims S2000 S20000x1 S20000 where
  updateWindowDims := []
  insertedWindowDims := [0]
  scatterDimsToOperandDims := [0]
  indexVectorDim := 1
  wf := scatter_S2000_S20000x1_S20000_n_0_0_1_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S2000x256_S20000x1_S20000x256_1_0_0_1 : ScatterDims S2000x256 S20000x1 S20000x256 where
  updateWindowDims := [1]
  insertedWindowDims := [0]
  scatterDimsToOperandDims := [0]
  indexVectorDim := 1
  wf := scatter_S2000x256_S20000x1_S20000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S2000x256_S20000x1_S20000x256_1_0_n_n_0_1_1256 : GatherDims S2000x256 S20000x1 S20000x256 where
  offsetDims := [1]
  collapsedSliceDims := [0]
  operandBatchingDims := []
  startIndicesBatchingDims := []
  startIndexMap := [0]
  indexVectorDim := 1
  sliceSizes := ![1, 256]
  wf := gather_S2000x256_S20000x1_S20000x256_1_0_n_n_0_1_1256_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v29) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S4000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46_0) S1000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v46_1) S1000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28_0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x256 : Shape := ⟨2, ![200000, 256]⟩
abbrev S20000x256 : Shape := ⟨2, ![20000, 256]⟩
abbrev S2000x256 : Shape := ⟨2, ![2000, 256]⟩
abbrev S200000 : Shape := ⟨1, ![200000]⟩
abbrev S20000 : Shape := ⟨1, ![20000]⟩
abbrev S256x256 : Shape := ⟨2, ![256, 256]⟩
abbrev S256 : Shape := ⟨1, ![256]⟩
abbrev S_ : Shape := ⟨0, ![]⟩
abbrev S200000x1 : Shape := ⟨2, ![200000, 1]⟩
abbrev S20000x1 : Shape := ⟨2, ![20000, 1]⟩
abbrev S1x256 : Shape := ⟨2, ![1, 256]⟩
abbrev S2000 : Shape := ⟨1, ![2000]⟩
abbrev S2000x1 : Shape := ⟨2, ![2000, 1]⟩

abbrev nBuf : Space → Nat
  | .hbm => 209
  | .vmem => 0
  | .smem => 0
  | _ => 0

abbrev hbmTy0_0 (i : Nat) : BufTy := match i % 128 with
  | 0 => ⟨S200000x256, .f32⟩
  | 1 => ⟨S20000x256, .f32⟩
  | 2 => ⟨S2000x256, .f32⟩
  | 3 => ⟨S200000, .i32⟩
  | 4 => ⟨S20000, .i32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S_, .f32⟩
  | 20 => ⟨S20000x256, .f32⟩
  | 21 => ⟨S200000x1, .i32⟩
  | 22 => ⟨S20000x256, .f32⟩
  | 23 => ⟨S_, .f32⟩
  | 24 => ⟨S200000, .f32⟩
  | 25 => ⟨S_, .f32⟩
  | 26 => ⟨S20000, .f32⟩
  | 27 => ⟨S200000x1, .i32⟩
  | 28 => ⟨S20000, .f32⟩
  | 29 => ⟨S_, .f32⟩
  | 30 => ⟨S20000, .f32⟩
  | 31 => ⟨S20000, .f32⟩
  | 32 => ⟨S20000x1, .f32⟩
  | 33 => ⟨S20000x256, .f32⟩
  | 34 => ⟨S20000x256, .f32⟩
  | 35 => ⟨S256x256, .f32⟩
  | 36 => ⟨S20000x256, .f32⟩
  | 37 => ⟨S1x256, .f32⟩
  | 38 => ⟨S20000x256, .f32⟩
  | 39 => ⟨S20000x256, .f32⟩
  | 40 => ⟨S20000x256, .f32⟩
  | 41 => ⟨S_, .f32⟩
  | 42 => ⟨S20000, .f32⟩
  | 43 => ⟨S20000x1, .f32⟩
  | 44 => ⟨S_, .f32⟩
  | 45 => ⟨S20000x1, .f32⟩
  | 46 => ⟨S20000x1, .f32⟩
  | 47 => ⟨S20000x256, .f32⟩
  | 48 => ⟨S20000x256, .f32⟩
  | 49 => ⟨S20000x256, .f32⟩
  | 50 => ⟨S_, .f32⟩
  | 51 => ⟨S20000, .f32⟩
  | 52 => ⟨S20000x1, .f32⟩
  | 53 => ⟨S_, .f32⟩
  | 54 => ⟨S20000x1, .f32⟩
  | 55 => ⟨S20000x1, .f32⟩
  | 56 => ⟨S20000x256, .f32⟩
  | 57 => ⟨S20000x256, .f32⟩
  | 58 => ⟨S_, .f32⟩
  | 59 => ⟨S20000x1, .f32⟩
  | 60 => ⟨S20000x1, .f32⟩
  | 61 => ⟨S20000x1, .f32⟩
  | 62 => ⟨S20000x256, .f32⟩
  | 63 => ⟨S20000x256, .f32⟩
  | 64 => ⟨S1x256, .f32⟩
  | 65 => ⟨S20000x256, .f32⟩
  | 66 => ⟨S20000x256, .f32⟩
  | 67 => ⟨S1x256, .f32⟩
  | 68 => ⟨S20000x256, .f32⟩
  | 69 => ⟨S20000x256, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x256, .f32⟩
  | 79 => ⟨S256x256, .f32⟩
  | 80 => ⟨S200000x256, .f32⟩
  | 81 => ⟨S1x256, .f32⟩
  | 82 => ⟨S200000x256, .f32⟩
  | 83 => ⟨S200000x256, .f32⟩
  | 84 => ⟨S200000x256, .f32⟩
  | 85 => ⟨S_, .f32⟩
  | 86 => ⟨S200000, .f32⟩
  | 87 => ⟨S200000x1, .f32⟩
  | 88 => ⟨S_, .f32⟩
  | 89 => ⟨S200000x1, .f32⟩
  | 90 => ⟨S200000x1, .f32⟩
  | 91 => ⟨S200000x256, .f32⟩
  | 92 => ⟨S200000x256, .f32⟩
  | 93 => ⟨S200000x256, .f32⟩
  | 94 => ⟨S_, .f32⟩
  | 95 => ⟨S200000, .f32⟩
  | 96 => ⟨S200000x1, .f32⟩
  | 97 => ⟨S_, .f32⟩
  | 98 => ⟨S200000x1, .f32⟩
  | 99 => ⟨S200000x1, .f32⟩
  | 100 => ⟨S200000x256, .f32⟩
  | 101 => ⟨S200000x256, .f32⟩
  | 102 => ⟨S_, .f32⟩
  | 103 => ⟨S200000x1, .f32⟩
  | 104 => ⟨S200000x1, .f32⟩
  | 105 => ⟨S200000x1, .f32⟩
  | 106 => ⟨S200000x256, .f32⟩
  | 107 => ⟨S200000x256, .f32⟩
  | 108 => ⟨S1x256, .f32⟩
  | 109 => ⟨S200000x256, .f32⟩
  | 110 => ⟨S200000x256, .f32⟩
  | 111 => ⟨S1x256, .f32⟩
  | 112 => ⟨S200000x256, .f32⟩
  | 113 => ⟨S200000x256, .f32⟩
  | 114 => ⟨S_, .f32⟩
  | 115 => ⟨S2000x256, .f32⟩
  | 116 => ⟨S20000x1, .i32⟩
  | 117 => ⟨S2000x256, .f32⟩
  | 118 => ⟨S_, .f32⟩
  | 119 => ⟨S20000, .f32⟩
  | 120 => ⟨S_, .f32⟩
  | 121 => ⟨S2000, .f32⟩
  | 122 => ⟨S20000x1, .i32⟩
  | 123 => ⟨S2000, .f32⟩
  | 124 => ⟨S_, .f32⟩
  | 125 => ⟨S2000, .f32⟩
  | 126 => ⟨S2000, .f32⟩
  | 127 => ⟨S2000x1, .f32⟩
  | _ => ⟨S200000x256, .f32⟩

abbrev hbmTy0_1 (i : Nat) : BufTy := match i % 128 with
  | 0 => ⟨S2000x256, .f32⟩
  | 1 => ⟨S2000x256, .f32⟩
  | 2 => ⟨S256x256, .f32⟩
  | 3 => ⟨S2000x256, .f32⟩
  | 4 => ⟨S1x256, .f32⟩
  | 5 => ⟨S2000x256, .f32⟩
  | 6 => ⟨S2000x256, .f32⟩
  | 7 => ⟨S2000x256, .f32⟩
  | 8 => ⟨S_, .f32⟩
  | 9 => ⟨S2000, .f32⟩
  | 10 => ⟨S2000x1, .f32⟩
  | 11 => ⟨S_, .f32⟩
  | 12 => ⟨S2000x1, .f32⟩
  | 13 => ⟨S2000x1, .f32⟩
  | 14 => ⟨S2000x256, .f32⟩
  | 15 => ⟨S2000x256, .f32⟩
  | 16 => ⟨S2000x256, .f32⟩
  | 17 => ⟨S_, .f32⟩
  | 18 => ⟨S2000, .f32⟩
  | 19 => ⟨S2000x1, .f32⟩
  | 20 => ⟨S_, .f32⟩
  | 21 => ⟨S2000x1, .f32⟩
  | 22 => ⟨S2000x1, .f32⟩
  | 23 => ⟨S2000x256, .f32⟩
  | 24 => ⟨S2000x256, .f32⟩
  | 25 => ⟨S_, .f32⟩
  | 26 => ⟨S2000x1, .f32⟩
  | 27 => ⟨S2000x1, .f32⟩
  | 28 => ⟨S2000x1, .f32⟩
  | 29 => ⟨S2000x256, .f32⟩
  | 30 => ⟨S2000x256, .f32⟩
  | 31 => ⟨S1x256, .f32⟩
  | 32 => ⟨S2000x256, .f32⟩
  | 33 => ⟨S2000x256, .f32⟩
  | 34 => ⟨S1x256, .f32⟩
  | 35 => ⟨S2000x256, .f32⟩
  | 36 => ⟨S2000x256, .f32⟩
  | 37 => ⟨S_, .i32⟩
  | 38 => ⟨S20000, .i32⟩
  | 39 => ⟨S20000, .i1⟩
  | 40 => ⟨S_, .i32⟩
  | 41 => ⟨S20000, .i32⟩
  | 42 => ⟨S20000, .i32⟩
  | 43 => ⟨S20000, .i32⟩
  | 44 => ⟨S20000x1, .i32⟩
  | 45 => ⟨S20000x256, .f32⟩
  | 46 => ⟨S256x256, .f32⟩
  | 47 => ⟨S20000x256, .f32⟩
  | 48 => ⟨S1x256, .f32⟩
  | 49 => ⟨S20000x256, .f32⟩
  | 50 => ⟨S20000x256, .f32⟩
  | 51 => ⟨S20000x256, .f32⟩
  | 52 => ⟨S_, .f32⟩
  | 53 => ⟨S20000, .f32⟩
  | 54 => ⟨S20000x1, .f32⟩
  | 55 => ⟨S_, .f32⟩
  | 56 => ⟨S20000x1, .f32⟩
  | 57 => ⟨S20000x1, .f32⟩
  | 58 => ⟨S20000x256, .f32⟩
  | 59 => ⟨S20000x256, .f32⟩
  | 60 => ⟨S20000x256, .f32⟩
  | 61 => ⟨S_, .f32⟩
  | 62 => ⟨S20000, .f32⟩
  | 63 => ⟨S20000x1, .f32⟩
  | 64 => ⟨S_, .f32⟩
  | 65 => ⟨S20000x1, .f32⟩
  | 66 => ⟨S20000x1, .f32⟩
  | 67 => ⟨S20000x256, .f32⟩
  | 68 => ⟨S20000x256, .f32⟩
  | 69 => ⟨S_, .f32⟩
  | 70 => ⟨S20000x1, .f32⟩
  | 71 => ⟨S20000x1, .f32⟩
  | 72 => ⟨S20000x1, .f32⟩
  | 73 => ⟨S20000x256, .f32⟩
  | 74 => ⟨S20000x256, .f32⟩
  | 75 => ⟨S1x256, .f32⟩
  | 76 => ⟨S20000x256, .f32⟩
  | 77 => ⟨S20000x256, .f32⟩
  | 78 => ⟨S1x256, .f32⟩
  | 79 => ⟨S20000x256, .f32⟩
  | 80 => ⟨S20000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_cst_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_20 : Ref sig .tc := ⟨.hbm, 145, rfl⟩
abbrev main_v104 : Ref sig .tc := ⟨.hbm, 146, rfl⟩
abbrev main_v105 : Ref sig .tc := ⟨.hbm, 147, rfl⟩
abbrev main_cst_21 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_23 : Ref sig .tc := ⟨.hbm, 165, rfl⟩
abbrev main_v121 : Ref sig .tc := ⟨.hbm, 166, rfl⟩
abbrev main_v122 : Ref sig .tc := ⟨.hbm, 167, rfl⟩
abbrev main_c_24 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_25 : Ref sig .tc := ⟨.hbm, 180, rfl⟩
abbrev main_v134 : Ref sig .tc := ⟨.hbm, 181, rfl⟩
abbrev main_v135 : Ref sig .tc := ⟨.hbm, 182, rfl⟩
abbrev main_cst_26 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_27 : Ref sig .tc := ⟨.hbm, 189, rfl⟩
abbrev main_v141 : Ref sig .tc := ⟨.hbm, 190, rfl⟩
abbrev main_v142 : Ref sig .tc := ⟨.hbm, 191, rfl⟩
abbrev main_cst_28 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_29 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩

abbrev nD : Nat := 1
abbrev τ : Topo := Topo.v7x

variable {F : FTy → Type} [FloatOps F]

class Facts₀ : Prop where
  bcast_S_S20000x256 : S_.BroadcastsInDim S20000x256 (![] : Fin 0 → Fin S20000x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  h_S_ : 0 < S_.numel
  bcast_S_S20000x1 : S_.BroadcastsInDim S20000x1 (![] : Fin 0 → Fin S20000x1.rank)
  bcast_S1x256_S200000x256_0_1 : S1x256.BroadcastsInDim S200000x256 (![0, 1] : Fin 2 → Fin S200000x256.rank)
  reducesTo_S200000x256_S200000_d1 : S200000x256.ReducesTo [1] S200000
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S2000x256 : S_.BroadcastsInDim S2000x256 (![] : Fin 0 → Fin S2000x256.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  bcast_S1x256_S2000x256_0_1 : S1x256.BroadcastsInDim S2000x256 (![0, 1] : Fin 2 → Fin S2000x256.rank)
  reducesTo_S2000x256_S2000_d1 : S2000x256.ReducesTo [1] S2000
  bcast_S_S2000x1 : S_.BroadcastsInDim S2000x1 (![] : Fin 0 → Fin S2000x1.rank)
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S20000x256_S256x256_S20000x256_1_0_0_1_n_n_wf : DotDims.WF S20000x256 S256x256 S20000x256 [1] [0] [0] [1] [] []
  gather_S20000x256_S200000x1_S200000x256_1_0_n_n_0_1_1256_wf : GatherDims.WF S20000x256 S200000x1 S200000x256 [1] [0] [] [0] [] 1 ![1, 256]
  dot_S200000x256_S256x256_S200000x256_1_0_0_1_n_n_wf : DotDims.WF S200000x256 S256x256 S200000x256 [1] [0] [0] [1] [] []
  scatter_S2000x256_S20000x1_S20000x256_1_0_0_1_wf : ScatterDims.WF S2000x256 S20000x1 S20000x256 [1] [0] [0] 1
  scatter_S2000_S20000x1_S20000_n_0_0_1_wf : ScatterDims.WF S2000 S20000x1 S20000 [] [0] [0] 1
  dot_S2000x256_S256x256_S2000x256_1_0_0_1_n_n_wf : DotDims.WF S2000x256 S256x256 S2000x256 [1] [0] [0] [1] [] []
  gather_S2000x256_S20000x1_S20000x256_1_0_n_n_0_1_1256_wf : GatherDims.WF S2000x256 S20000x1 S20000x256 [1] [0] [] [0] [] 1 ![1, 256]

variable [Facts₀]

def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S2000x256_S20000x1_S20000x256_1_0_0_1 : ScatterDims S2000x256 S20000x1 S20000x256 where
  updateWindowDims := [1]
  insertedWindowDims := [0]
  scatterDimsToOperandDims := [0]
  indexVectorDim := 1
  wf := scatter_S2000x256_S20000x1_S20000x256_1_0_0_1_wf
def scatter_S2000_S20000x1_S20000_n_0_0_1 : ScatterDims S2000 S20000x1 S20000 where
  updateWindowDims := []
  insertedWindowDims := [0]
  scatterDimsToOperandDims := [0]
  indexVectorDim := 1
  wf := scatter_S2000_S20000x1_S20000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S2000x256_S20000x1_S20000x256_1_0_n_n_0_1_1256 : GatherDims S2000x256 S20000x1 S20000x256 where
  offsetDims := [1]
  collapsedSliceDims := [0]
  operandBatchingDims := []
  startIndicesBatchingDims := []
  startIndexMap := [0]
  indexVectorDim := 1
  sliceSizes := ![1, 256]
  wf := gather_S2000x256_S20000x1_S20000x256_1_0_n_n_0_1_1256_wf

class Facts : Prop extends Facts₀ where

variable [Facts]
-- ==== Proof.KernelKeep.lean ====
/-
  The host stretches between the kernel's four regions, as far as they leave a buffer alone: each stretch writes
  the buffers of its own operations' results and no other, so any other buffer holds after the stretch what it held
  before it. One list of written buffers and one lemma per stretch.
-/
import proofs.«419988_j26946624815680_3_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F]

/-- The buffers the operations of stretch `hostOps0` write. -/
abbrev written0 : List (Ref sig .tc) := [main_cst, main_v0, main_cst_0, main_v1, main_v2, main_v3, main_cst_1, main_v4, main_cst_2, main_v5, main_v6, main_v7, main_v8, main_v9, main_v10, main_v11, main_v12, main_v13, main_v14, main_v15, main_cst_3, main_v16, main_v17, main_v18, main_cst_4, main_v19, main_v20, main_v21, main_v22, main_v23, main_v24, main_v25, main_v26, main_v27]
theorem writes0 : (hostOps0 : List (HloOp τ sig (Elt F))).Forall fun op => op.writes ⊆ (written0.map (Proc.devRef (τ := τ) .tc)).toFinset := by
  simp only [hostOps0, List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch `hostOps0` does not write keeps its contents through it. -/
theorem keep0 (W : Valuation τ sig (Elt F)) (r : Ref sig .tc) (h : r ∉ written0) :
    StableHlo.after hostOps0 W (Proc.devRef .tc r) = W (Proc.devRef .tc r) :=
  after_of_writes_sub hostOps0 _ writes0 h

/-- The buffers the operations of stretch `hostOps1` write. -/
abbrev written1 : List (Ref sig .tc) := [main_call0_v0, main_v29]
theorem writes1 : (hostOps1 : List (HloOp τ sig (Elt F))).Forall fun op => op.writes ⊆ (written1.map (Proc.devRef (τ := τ) .tc)).toFinset := by
  simp only [hostOps1, List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch `hostOps1` does not write keeps its contents through it. -/
theorem keep1 (W : Valuation τ sig (Elt F)) (r : Ref sig .tc) (h : r ∉ written1) :
    StableHlo.after hostOps1 W (Proc.devRef .tc r) = W (Proc.devRef .tc r) :=
  after_of_writes_sub hostOps1 _ writes1 h

/-- The buffers the operations of stretch `hostOps2` write. -/
abbrev written2 : List (Ref sig .tc) := [main_cst_5, main_v34, main_v35, main_v36, main_cst_6, main_v37, main_v38, main_v39, main_v40, main_v41, main_v42, main_v43, main_v44, main_v45]
theorem writes2 : (hostOps2 : List (HloOp τ sig (Elt F))).Forall fun op => op.writes ⊆ (written2.map (Proc.devRef (τ := τ) .tc)).toFinset := by
  simp only [hostOps2, List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch `hostOps2` does not write keeps its contents through it. -/
theorem keep2 (W : Valuation τ sig (Elt F)) (r : Ref sig .tc) (h : r ∉ written2) :
    StableHlo.after hostOps2 W (Proc.devRef .tc r) = W (Proc.devRef .tc r) :=
  after_of_writes_sub hostOps2 _ writes2 h

/-- The buffers the operations of stretch `hostOps3` write. -/
abbrev written3 : List (Ref sig .tc) := [main_call1_v0, main_v47]
theorem writes3 : (hostOps3 : List (HloOp τ sig (Elt F))).Forall fun op => op.writes ⊆ (written3.map (Proc.devRef (τ := τ) .tc)).toFinset := by
  simp only [hostOps3, List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch `hostOps3` does not write keeps its contents through it. -/
theorem keep3 (W : Valuation τ sig (Elt F)) (r : Ref sig .tc) (h : r ∉ written3) :
    StableHlo.after hostOps3 W (Proc.devRef .tc r) = W (Proc.devRef .tc r) :=
  after_of_writes_sub hostOps3 _ writes3 h

/-- The buffers the operations of stretch `hostOps1_1` write. -/
abbrev written1_1 : List (Ref sig .tc) := [main_v30, main_v31, main_v32]
theorem writes1_1 : (hostOps1_1 : List (HloOp τ sig (Elt F))).Forall fun op => op.writes ⊆ (written1_1.map (Proc.devRef (τ := τ) .tc)).toFinset := by
  simp only [hostOps1_1, List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch `hostOps1_1` does not write keeps its contents through it. -/
theorem keep1_1 (W : Valuation τ sig (Elt F)) (r : Ref sig .tc) (h : r ∉ written1_1) :
    StableHlo.after hostOps1_1 W (Proc.devRef .tc r) = W (Proc.devRef .tc r) :=
  after_of_writes_sub hostOps1_1 _ writes1_1 h

/-- The buffers the operations of stretch `hostOps3_1` write. -/
abbrev written3_1 : List (Ref sig .tc) := [main_v48, main_v49, main_v50]
theorem writes3_1 : (hostOps3_1 : List (HloOp τ sig (Elt F))).Forall fun op => op.writes ⊆ (written3_1.map (Proc.devRef (τ := τ) .tc)).toFinset := by
  simp only [hostOps3_1, List.Forall]
  repeat' apply And.intro
  all_goals
    simp only [nullary_writes, unary_writes, binary_writes, ternary_writes, quaternary_writes, reshape_writes, binaryIndexed_writes, Finset.singleton_subset_iff, List.mem_toFinset]
    exact List.mem_map_of_mem (by decide)
/-- A buffer stretch `hostOps3_1` does not write keeps its contents through it. -/
theorem keep3_1 (W : Valuation τ sig (Elt F)) (r : Ref sig .tc) (h : r ∉ written3_1) :
    StableHlo.after hostOps3_1 W (Proc.devRef .tc r) = W (Proc.devRef .tc r) :=
  after_of_writes_sub hostOps3_1 _ writes3_1 h

end Cert.KernelIdeal.Keep

end
-- ==== Proof.Spec.lean ====
/-
  One message-passing stage, as a function of rows of extended reals.

  A stage takes a message array `msg` and a state array `h`, both [M, 256], a weight `w` [256, 256],
  a bias `b` and the LayerNorm's scale `g` and shift `be`, all [256], and returns, row by row,
  the LayerNorm of `h + (msg · wᵀ + b)`: with `x` that row, `μ = (∑ x) / 256` and
  `σ² = (∑ (x - μ)²) / 256`, entry `j` is `(x j - μ) · rsqrt (σ² + ε) · g j + be j`.
  Every operation is the exact one on the extended reals; `256` and `ε` are the values of the two
  f32 words both programs carry. Row `r` of the result depends on row `r` of `msg` and `h` only.
-/
import Idealize.ShloMosaic.PureOps.Ideal
import Idealize.ShloMosaic.Lib.ValueIdx

noncomputable section

namespace Cert.Spec

open Idealize.ShloMosaic
open scoped BigOperators

/-- The divisor of both means: the f32 word of 256. -/
def c256 : EReal := Ideal.ofBits .f32 0x43800000#32
/-- The variance's offset: the f32 word nearest 1e-5, the same word in both programs. -/
def eps : EReal := Ideal.ofBits .f32 0x3727C5AC#32

/-- Entry `(r, j)` before the normalisation: `h + (msg · wᵀ + b)`, the product's row `r` against the weight's row `j`. -/
def pre {M : ℕ} (msg h : Fin M → Fin 256 → EReal) (w : Fin 256 → Fin 256 → EReal) (b : Fin 256 → EReal)
    (r : Fin M) (j : Fin 256) : EReal :=
  h r j + ((∑ k : Fin 256, msg r k * w j k) + b j)

/-- A row's mean. -/
def mean (x : Fin 256 → EReal) : EReal := Ideal.div (∑ k : Fin 256, x k) c256

/-- A row's variance about its mean. -/
def var (x : Fin 256 → EReal) : EReal := Ideal.div (∑ k : Fin 256, (x k - mean x) * (x k - mean x)) c256

/-- The LayerNorm of one row, at entry `j`. -/
def layerNorm (x g be : Fin 256 → EReal) (j : Fin 256) : EReal :=
  (x j - mean x) * Ideal.rsqrt (var x + eps) * g j + be j

/-- One stage at entry `(r, j)`. -/
def stageAt {M : ℕ} (msg h : Fin M → Fin 256 → EReal) (w : Fin 256 → Fin 256 → EReal) (b g be : Fin 256 → EReal)
    (r : Fin M) (j : Fin 256) : EReal :=
  layerNorm (pre msg h w b r) g be j

/-- A stage's row `r` is a function of row `r` of its message and state. -/
theorem stageAt_congr {M M' : ℕ} (msg h : Fin M → Fin 256 → EReal) (msg' h' : Fin M' → Fin 256 → EReal)
    (w : Fin 256 → Fin 256 → EReal) (b g be : Fin 256 → EReal) (r : Fin M) (r' : Fin M')
    (hm : ∀ k, msg r k = msg' r' k) (hh : ∀ k, h r k = h' r' k) (j : Fin 256) :
    stageAt msg h w b g be r j = stageAt msg' h' w b g be r' j := by
  have e : pre msg h w b r = pre msg' h' w b r' := by
    funext j; unfold pre; rw [hh j]; simp only [hm]
  unfold stageAt; rw [e]

end Cert.Spec

end
-- ==== Proof.PayStage.lean ====
/-
  The kernel's stage payloads read at an index.

  Each of the four kernel functions computes, on a block of rows, the LayerNorm of
  `h + (msg · w + b)`: a product with one contracted axis into a zero accumulator, a bias row and
  the state block added, then the mean and the variance of each row over its 256 entries, and the
  normalised row scaled and shifted. Read at entry `(p, j)` of the block this is `Spec.stageAt` of
  the block's rows, the weight read transposed. The change of float format that follows it is the
  identity on the extended reals.
-/
import proofs.«419988_j26946624815680_3_alg».proof.Proof.Gen.KernelIdeal.Skeleton
import proofs.«419988_j26946624815680_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.PayStage

open Idealize.ShloMosaic Idealize.ShloMosaic.ValueIdx Cert.KernelIdeal Cert.KernelIdeal.Gen
open scoped BigOperators

/-! ## Layout: the column forms of a row reduction kept as an axis of extent one -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum, mean and variance as the vector operations write them -/

section Rows
variable {a : ℕ}

/-- A `[a, b]` block summed over its second axis reads, at `p`, the sum of row `p`. -/
theorem rowSum_apply {b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ x 0x00000000#32 h hφ hacc (ix1 p) = ∑ k : Fin b, x (ix2 p k) := by
  refine (Ideal.multiReduction_add_single x _ h hφ hacc (ix1 p)).trans ?_
  refine Finset.sum_congr rfl fun k _ => congrArg x ?_
  funext c
  match c with
  | ⟨0, _⟩ => rfl
  | ⟨1, _⟩ => rfl

end Rows

/-! ## The LayerNorm of a block's rows as the vector operations write it -/

section LN
variable {a : ℕ} (x : FVec Ideal ⟨2, ![a, 256]⟩ .f32) (g be : FVec Ideal ⟨2, ![1, 256]⟩ .f32)
  (hR : (⟨2, ![a, 256]⟩ : Shape).Reduces [1] ⟨1, ![a]⟩) (hφ : FKind.Formats .f32)
  (hacc : (0x00000000#32 : BitVec 32) = FKind.add.neutral .f32 hφ)
  (hC : (⟨1, ![a]⟩ : Shape).ShapeCasts ⟨2, ![a, 1]⟩)
  (hB : (⟨2, ![a, 1]⟩ : Shape).Broadcasts ⟨2, ![a, 256]⟩)
  (hB1 : (⟨2, ![1, 256]⟩ : Shape).Broadcasts ⟨2, ![a, 256]⟩)
  (hS : (⟨2, ![1, 256]⟩ : Shape).ShapeCasts ⟨2, ![1, 256]⟩)

/-- A block's row sums, kept as a column, divided by a scalar. -/
abbrev colDiv (c : Ideal .f32) : FVec Ideal ⟨2, ![a, 1]⟩ .f32 :=
  divf (shapeCast ⟨2, ![a, 1]⟩ (multiReduction (F := Ideal) .add [1] ⟨1, ![a]⟩ x 0x00000000#32 hR hφ hacc) hC)
    (broadcast ⟨2, ![a, 1]⟩ c)

/-- It reads, at `(p, u)`, the row's sum divided by the scalar. -/
theorem colDiv_apply (c : Ideal .f32) (p : Fin a) (u : Fin 1) :
    colDiv x hR hφ hacc hC c (ix2 p u) = Ideal.div (∑ k : Fin 256, x (ix2 p k)) c := by
  show Ideal.div (shapeCast ⟨2, ![a, 1]⟩ _ hC (ix2 p u)) c = _
  rw [shapeCast_a_a1_apply, rowSum_apply]

/-- The column of row means broadcast back over the block. -/
abbrev meanB : FVec Ideal ⟨2, ![a, 256]⟩ .f32 :=
  broadcastTo ⟨2, ![a, 256]⟩ (colDiv x hR hφ hacc hC (Scalar.ofBits .f32 0x43800000#32)) hB

/-- It reads, anywhere in row `p`, that row's mean. -/
theorem meanB_apply (p : Fin a) (q : Fin 256) :
    meanB x hR hφ hacc hC hB (ix2 p q) = Spec.mean (fun k => x (ix2 p k)) := by
  refine (broadcastTo_a1_ab_apply _ hB p q).trans ?_
  exact colDiv_apply x hR hφ hacc hC _ p 0

/-- The column of reciprocal standard deviations broadcast back over the block. -/
abbrev rstdB : FVec Ideal ⟨2, ![a, 256]⟩ .f32 :=
  broadcastTo ⟨2, ![a, 256]⟩
    (rsqrt (addf
      (colDiv (mulf (subf x (meanB x hR hφ hacc hC hB)) (subf x (meanB x hR hφ hacc hC hB))) hR hφ hacc hC
        (Scalar.ofBits .f32 0x43800000#32))
      (broadcast ⟨2, ![a, 1]⟩ (Scalar.ofBits .f32 0x3727C5AC#32)))) hB

/-- It reads, anywhere in row `p`, the reciprocal square root of that row's variance plus the offset. -/
theorem rstdB_apply (p : Fin a) (q : Fin 256) :
    rstdB x hR hφ hacc hC hB (ix2 p q)
      = Ideal.rsqrt (Spec.var (fun k => x (ix2 p k)) + Spec.eps) := by
  refine (broadcastTo_a1_ab_apply _ hB p q).trans ?_
  show Ideal.rsqrt (colDiv _ hR hφ hacc hC _ (ix2 p (0 : Fin 1)) + Spec.eps) = _
  rw [colDiv_apply]
  refine congrArg (fun s => Ideal.rsqrt (Ideal.div s _ + Spec.eps)) (Finset.sum_congr rfl fun k _ => ?_)
  show (x (ix2 p k) - meanB x hR hφ hacc hC hB (ix2 p k)) * (x (ix2 p k) - meanB x hR hφ hacc hC hB (ix2 p k)) = _
  rw [meanB_apply]

/-- The normalised block, scaled by the row `g` and shifted by the row `be`. -/
abbrev lnVec : FVec Ideal ⟨2, ![a, 256]⟩ .f32 :=
  addf
    (mulf (mulf (subf x (meanB x hR hφ hacc hC hB)) (rstdB x hR hφ hacc hC hB))
      (broadcastTo ⟨2, ![a, 256]⟩ (shapeCast ⟨2, ![1, 256]⟩ g hS) hB1))
    (broadcastTo ⟨2, ![a, 256]⟩ (shapeCast ⟨2, ![1, 256]⟩ be hS) hB1)

/-- It reads, at `(p, j)`, the LayerNorm of row `p` at entry `j`. -/
theorem lnVec_apply (p : Fin a) (j : Fin 256) :
    lnVec x g be hR hφ hacc hC hB hB1 hS (ix2 p j)
      = Spec.layerNorm (fun k => x (ix2 p k)) (fun j => g (ix2 (0 : Fin 1) j)) (fun j => be (ix2 (0 : Fin 1) j)) j := by
  show (x (ix2 p j) - meanB x hR hφ hacc hC hB (ix2 p j)) * rstdB x hR hφ hacc hC hB (ix2 p j)
        * broadcastTo ⟨2, ![a, 256]⟩ (shapeCast ⟨2, ![1, 256]⟩ g hS) hB1 (ix2 p j)
      + broadcastTo ⟨2, ![a, 256]⟩ (shapeCast ⟨2, ![1, 256]⟩ be hS) hB1 (ix2 p j) = _
  rw [meanB_apply, rstdB_apply, broadcastTo_1b_ab_apply, broadcastTo_1b_ab_apply, shapeCast_self, shapeCast_self]
  rfl

end LN

/-! ## `k0_pay2`: blocks of 2000 rows -/

/-- The left operand's index of the product, on its row axis: the output's row. -/
theorem lhs_k0_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- … on its contracted axis: the contraction's coordinate. -/
theorem lhs_k0_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- The right operand's index, on its contracted axis: the contraction's coordinate. -/
theorem rhs_k0_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- … on its column axis: the output's column. -/
theorem rhs_k0_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product into the zero accumulator reads, at `(p, j)`, row `p` of the left operand against column `j` of the right. -/
theorem mm_k0 (x : FVec Ideal S2000x256 .bf16) (w : FVec Ideal S256x256 .bf16) (p : Fin 2000) (j : Fin 256) :
    matmul (F := Ideal) dot_S2000x256_S256x256_S2000x256_1_0_0_1_n_n none x w (constant (F := Ideal) S2000x256 .f32 0x00000000#32) (ix2 p j)
      = ∑ k : Fin 256, x (ix2 p k) * w (ix2 k j) := by
  refine (Ideal.matmul_constant_zero_apply dot_S2000x256_S256x256_S2000x256_1_0_0_1_n_n none x w (ix2 p j)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p j) ((contrEquiv1 dot_S2000x256_S256x256_S2000x256_1_0_0_1_n_n 256 rfl rfl).symm k) = ix2 p k :=
    funext fun c => Fin.ext (by
      match c with
      | ⟨0, _⟩ => exact lhs_k0_0 _ _
      | ⟨1, _⟩ => exact (lhs_k0_1 _ _).trans hk)
  have er : dot_S2000x256_S256x256_S2000x256_1_0_0_1_n_n.rhsIdx (ix2 p j) ((contrEquiv1 dot_S2000x256_S256x256_S2000x256_1_0_0_1_n_n 256 rfl rfl).symm k) = ix2 k j :=
    funext fun c => Fin.ext (by
      match c with
      | ⟨0, _⟩ => exact (rhs_k0_0 _ _).trans hk
      | ⟨1, _⟩ => exact rhs_k0_1 _ _)
  rw [el, er]

/-- The block before the normalisation reads, at `(p, j)`, the state plus the product plus the bias. -/
theorem pre_k0 (v0 : Vec Ideal S2000x256 .bf16) (v2 : Vec Ideal S256x256 .bf16) (v5 : Vec Ideal S1x256 .f32)
    (v9 : Vec Ideal S2000x256 .f32) (p : Fin 2000) (j : Fin 256) :
    addf (F := Ideal) v9
        (addf (matmul (F := Ideal) (φ₁ := .bf16) (φ₂ := .bf16) dot_S2000x256_S256x256_S2000x256_1_0_0_1_n_n none
            (shapeCast S2000x256 v0 shapeCasts_S2000x256_S2000x256) (shapeCast S256x256 v2 shapeCasts_S256x256_S256x256)
            (constant (F := Ideal) S2000x256 .f32 0x00000000#32))
          (broadcastTo S2000x256 (shapeCast S1x256 v5 shapeCasts_S1x256_S1x256) broadcasts_S1x256_S2000x256)) (ix2 p j)
      = Spec.pre (fun p k => v0 (ix2 p k)) (fun p k => v9 (ix2 p k)) (fun j k => v2 (ix2 k j))
          (fun j => v5 (ix2 (0 : Fin 1) j)) p j := by
  rw [shapeCast_self, shapeCast_self, shapeCast_self]
  show v9 (ix2 p j) + (matmul (F := Ideal) (φ₁ := .bf16) (φ₂ := .bf16) dot_S2000x256_S256x256_S2000x256_1_0_0_1_n_n none v0 v2 (constant (F := Ideal) S2000x256 .f32 0x00000000#32) (ix2 p j)
      + broadcastTo S2000x256 v5 broadcasts_S1x256_S2000x256 (ix2 p j)) = _
  rw [mm_k0, broadcastTo_1b_ab_apply]
  rfl

/-- The stage's payload reads, at `(p, j)`, the stage of the block's rows, the weight read transposed. -/
theorem k0_pay2_apply (v0 : Vec Ideal S2000x256 .bf16) (v2 : Vec Ideal S256x256 .bf16) (v5 : Vec Ideal S1x256 .f32)
    (v9 : Vec Ideal S2000x256 .f32) (v29 v33 : Vec Ideal S1x256 .f32) (p : Fin 2000) (j : Fin 256) :
    k0_pay2 (F := Ideal) v0 v2 v5 v9 v29 v33 (ix2 p j)
      = Cert.Spec.stageAt (fun p k => v0 (ix2 p k)) (fun p k => v9 (ix2 p k)) (fun j k => v2 (ix2 k j))
          (fun j => v5 (ix2 (0 : Fin 1) j)) (fun j => v29 (ix2 (0 : Fin 1) j)) (fun j => v33 (ix2 (0 : Fin 1) j)) p j := by
  unfold k0_pay2
  refine (lnVec_apply (a := 2000) _ v29 v33 _ _ _ _ _ _ _ p j).trans ?_
  unfold Spec.stageAt
  exact congrArg (fun X => Spec.layerNorm X _ _ j) (funext fun k => pre_k0 v0 v2 v5 v9 p k)

/-! ## `k1_pay1`: blocks of 4000 rows -/

/-- The left operand's index of the product, on its row axis: the output's row. -/
theorem lhs_k1_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide),
    dif_pos (show (0 : Fin S4000x256.rank) ∈ dot_S4000x256_S256x256_S4000x256_1_0_0_1_n_n.lhsNonContracting by decide)]
  rfl

/-- … on its contracted axis: the contraction's coordinate. -/
theorem lhs_k1_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q

/-- The right operand's index, on its contracted axis: the contraction's coordinate. -/
theorem rhs_k1_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q

/-- … on its column axis: the output's column. -/
theorem rhs_k1_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide),
    dif_pos (show (1 : Fin S256x256.rank) ∈ dot_S4000x256_S256x256_S4000x256_1_0_0_1_n_n.rhsNonContracting by decide)]
  rfl

/-- The product into the zero accumulator reads, at `(p, j)`, row `p` of the left operand against column `j` of the right. -/
theorem mm_k1 (x : FVec Ideal S4000x256 .bf16) (w : FVec Ideal S256x256 .bf16) (p : Fin 4000) (j : Fin 256) :
    matmul (F := Ideal) dot_S4000x256_S256x256_S4000x256_1_0_0_1_n_n none x w (constant (F := Ideal) S4000x256 .f32 0x00000000#32) (ix2 p j)
      = ∑ k : Fin 256, x (ix2 p k) * w (ix2 k j) := by
  refine (Ideal.matmul_constant_zero_apply dot_S4000x256_S256x256_S4000x256_1_0_0_1_n_n none x w (ix2 p j)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p j) ((contrEquiv1 dot_S4000x256_S256x256_S4000x256_1_0_0_1_n_n 256 rfl rfl).symm k) = ix2 p k :=
    funext fun c => Fin.ext (by
      match c with
      | ⟨0, _⟩ => exact lhs_k1_0 _ _
      | ⟨1, _⟩ => exact (lhs_k1_1 _ _).trans hk)
  have er : dot_S4000x256_S256x256_S4000x256_1_0_0_1_n_n.rhsIdx (ix2 p j) ((contrEquiv1 dot_S4000x256_S256x256_S4000x256_1_0_0_1_n_n 256 rfl rfl).symm k) = ix2 k j :=
    funext fun c => Fin.ext (by
      match c with
      | ⟨0, _⟩ => exact (rhs_k1_0 _ _).trans hk
      | ⟨1, _⟩ => exact rhs_k1_1 _ _)
  rw [el, er]

/-- The block before the normalisation reads, at `(p, j)`, the state plus the product plus the bias. -/
theorem pre_k1 (v0 : Vec Ideal S4000x256 .bf16) (v2 : Vec Ideal S256x256 .bf16) (v5 : Vec Ideal S1x256 .f32)
    (v9 : Vec Ideal S4000x256 .f32) (p : Fin 4000) (j : Fin 256) :
    addf (F := Ideal) v9
        (addf (matmul (F := Ideal) (φ₁ := .bf16) (φ₂ := .bf16) dot_S4000x256_S256x256_S4000x256_1_0_0_1_n_n none
            (shapeCast S4000x256 v0 shapeCasts_S4000x256_S4000x256) (shapeCast S256x256 v2 shapeCasts_S256x256_S256x256)
            (constant (F := Ideal) S4000x256 .f32 0x00000000#32))
          (broadcastTo S4000x256 (shapeCast S1x256 v5 shapeCasts_S1x256_S1x256) broadcasts_S1x256_S4000x256)) (ix2 p j)
      = Spec.pre (fun p k => v0 (ix2 p k)) (fun p k => v9 (ix2 p k)) (fun j k => v2 (ix2 k j))
          (fun j => v5 (ix2 (0 : Fin 1) j)) p j := by
  rw [shapeCast_self, shapeCast_self, shapeCast_self]
  show v9 (ix2 p j) + (matmul (F := Ideal) (φ₁ := .bf16) (φ₂ := .bf16) dot_S4000x256_S256x256_S4000x256_1_0_0_1_n_n none v0 v2 (constant (F := Ideal) S4000x256 .f32 0x00000000#32) (ix2 p j)
      + broadcastTo S4000x256 v5 broadcasts_S1x256_S4000x256 (ix2 p j)) = _
  rw [mm_k1, broadcastTo_1b_ab_apply]
  rfl

/-- The stage's payload reads, at `(p, j)`, the stage of the block's rows, the weight read transposed. -/
theorem k1_pay1_apply (v0 : Vec Ideal S4000x256 .bf16) (v2 : Vec Ideal S256x256 .bf16) (v5 : Vec Ideal S1x256 .f32)
    (v9 : Vec Ideal S4000x256 .f32) (v29 v33 : Vec Ideal S1x256 .f32) (p : Fin 4000) (j : Fin 256) :
    k1_pay1 (F := Ideal) v0 v2 v5 v9 v29 v33 (ix2 p j)
      = Cert.Spec.stageAt (fun p k => v0 (ix2 p k)) (fun p k => v9 (ix2 p k)) (fun j k => v2 (ix2 k j))
          (fun j => v5 (ix2 (0 : Fin 1) j)) (fun j => v29 (ix2 (0 : Fin 1) j)) (fun j => v33 (ix2 (0 : Fin 1) j)) p j := by
  unfold k1_pay1
  refine (lnVec_apply (a := 4000) _ v29 v33 _ _ _ _ _ _ _ p j).trans ?_
  unfold Spec.stageAt
  exact congrArg (fun X => Spec.layerNorm X _ _ j) (funext fun k => pre_k1 v0 v2 v5 v9 p k)

/-! ## `k2_pay2`: blocks of 1000 rows -/

/-- The left operand's index of the product, on its row axis: the output's row. -/
theorem lhs_k2_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl

/-- … on its contracted axis: the contraction's coordinate. -/
theorem lhs_k2_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q

/-- The right operand's index, on its contracted axis: the contraction's coordinate. -/
theorem rhs_k2_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q

/-- … on its column axis: the output's column. -/
theorem rhs_k2_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-- The product into the zero accumulator reads, at `(p, j)`, row `p` of the left operand against column `j` of the right. -/
theorem mm_k2 (x : FVec Ideal S1000x256 .bf16) (w : FVec Ideal S256x256 .bf16) (p : Fin 1000) (j : Fin 256) :
    matmul (F := Ideal) dot_S1000x256_S256x256_S1000x256_1_0_0_1_n_n none x w (constant (F := Ideal) S1000x256 .f32 0x00000000#32) (ix2 p j)
      = ∑ k : Fin 256, x (ix2 p k) * w (ix2 k j) := by
  refine (Ideal.matmul_constant_zero_apply dot_S1000x256_S256x256_S1000x256_1_0_0_1_n_n none x w (ix2 p j)).trans ?_
  rw [← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p j) ((contrEquiv1 dot_S1000x256_S256x256_S1000x256_1_0_0_1_n_n 256 rfl rfl).symm k) = ix2 p k :=
    funext fun c => Fin.ext (by
      match c with
      | ⟨0, _⟩ => exact lhs_k2_0 _ _
      | ⟨1, _⟩ => exact (lhs_k2_1 _ _).trans hk)
  have er : dot_S1000x256_S256x256_S1000x256_1_0_0_1_n_n.rhsIdx (ix2 p j) ((contrEquiv1 dot_S1000x256_S256x256_S1000x256_1_0_0_1_n_n 256 rfl rfl).symm k) = ix2 k j :=
    funext fun c => Fin.ext (by
      match c with
      | ⟨0, _⟩ => exact (rhs_k2_0 _ _).trans hk
      | ⟨1, _⟩ => exact rhs_k2_1 _ _)
  rw [el, er]

/-- The block before the normalisation reads, at `(p, j)`, the state plus the product plus the bias. -/
theorem pre_k2 (v0 : Vec Ideal S1000x256 .bf16) (v2 : Vec Ideal S256x256 .bf16) (v5 : Vec Ideal S1x256 .f32)
    (v9 : Vec Ideal S1000x256 .f32) (p : Fin 1000) (j : Fin 256) :
    addf (F := Ideal) v9
        (addf (matmul (F := Ideal) (φ₁ := .bf16) (φ₂ := .bf16) dot_S1000x256_S256x256_S1000x256_1_0_0_1_n_n none
            (shapeCast S1000x256 v0 shapeCasts_S1000x256_S1000x256) (shapeCast S256x256 v2 shapeCasts_S256x256_S256x256)
            (constant (F := Ideal) S1000x256 .f32 0x00000000#32))
          (broadcastTo S1000x256 (shapeCast S1x256 v5 shapeCasts_S1x256_S1x256) broadcasts_S1x256_S1000x256)) (ix2 p j)
      = Spec.pre (fun p k => v0 (ix2 p k)) (fun p k => v9 (ix2 p k)) (fun j k => v2 (ix2 k j))
          (fun j => v5 (ix2 (0 : Fin 1) j)) p j := by
  rw [shapeCast_self, shapeCast_self, shapeCast_self]
  show v9 (ix2 p j) + (matmul (F := Ideal) (φ₁ := .bf16) (φ₂ := .bf16) dot_S1000x256_S256x256_S1000x256_1_0_0_1_n_n none v0 v2 (constant (F := Ideal) S1000x256 .f32 0x00000000#32) (ix2 p j)
      + broadcastTo S1000x256 v5 broadcasts_S1x256_S1000x256 (ix2 p j)) = _
  rw [mm_k2, broadcastTo_1b_ab_apply]
  rfl

/-- The stage's payload reads, at `(p, j)`, the stage of the block's rows, the weight read transposed. -/
theorem k2_pay2_apply (v0 : Vec Ideal S1000x256 .bf16) (v2 : Vec Ideal S256x256 .bf16) (v5 : Vec Ideal S1x256 .f32)
    (v9 : Vec Ideal S1000x256 .f32) (v29 v33 : Vec Ideal S1x256 .f32) (p : Fin 1000) (j : Fin 256) :
    k2_pay2 (F := Ideal) v0 v2 v5 v9 v29 v33 (ix2 p j)
      = Cert.Spec.stageAt (fun p k => v0 (ix2 p k)) (fun p k => v9 (ix2 p k)) (fun j k => v2 (ix2 k j))
          (fun j => v5 (ix2 (0 : Fin 1) j)) (fun j => v29 (ix2 (0 : Fin 1) j)) (fun j => v33 (ix2 (0 : Fin 1) j)) p j := by
  unfold k2_pay2
  refine (lnVec_apply (a := 1000) _ v29 v33 _ _ _ _ _ _ _ p j).trans ?_
  unfold Spec.stageAt
  exact congrArg (fun X => Spec.layerNorm X _ _ j) (funext fun k => pre_k2 v0 v2 v5 v9 p k)

/-! ## `k3_pay1`: blocks of 2000 rows, the state block read through a cast to its own shape -/

/-- The block before the normalisation reads, at `(p, j)`, the state plus the product plus the bias. -/
theorem pre_k3 (v0 : Vec Ideal S2000x256 .bf16) (v2 : Vec Ideal S256x256 .bf16) (v5 : Vec Ideal S1x256 .f32)
    (v9 : Vec Ideal S2000x256 .f32) (p : Fin 2000) (j : Fin 256) :
    addf (F := Ideal) (shapeCast S2000x256 v9 shapeCasts_S2000x256_S2000x256)
        (addf (matmul (F := Ideal) (φ₁ := .bf16) (φ₂ := .bf16) dot_S2000x256_S256x256_S2000x256_1_0_0_1_n_n none
            (shapeCast S2000x256 v0 shapeCasts_S2000x256_S2000x256) (shapeCast S256x256 v2 shapeCasts_S256x256_S256x256)
            (constant (F := Ideal) S2000x256 .f32 0x00000000#32))
          (broadcastTo S2000x256 (shapeCast S1x256 v5 shapeCasts_S1x256_S1x256) broadcasts_S1x256_S2000x256)) (ix2 p j)
      = Spec.pre (fun p k => v0 (ix2 p k)) (fun p k => v9 (ix2 p k)) (fun j k => v2 (ix2 k j))
          (fun j => v5 (ix2 (0 : Fin 1) j)) p j := by
  rw [shapeCast_self, shapeCast_self, shapeCast_self, shapeCast_self]
  show v9 (ix2 p j) + (matmul (F := Ideal) (φ₁ := .bf16) (φ₂ := .bf16) dot_S2000x256_S256x256_S2000x256_1_0_0_1_n_n none v0 v2 (constant (F := Ideal) S2000x256 .f32 0x00000000#32) (ix2 p j)
      + broadcastTo S2000x256 v5 broadcasts_S1x256_S2000x256 (ix2 p j)) = _
  rw [mm_k0, broadcastTo_1b_ab_apply]
  rfl

/-- The stage's payload reads, at `(p, j)`, the stage of the block's rows, the weight read transposed. -/
theorem k3_pay1_apply (v0 : Vec Ideal S2000x256 .bf16) (v2 : Vec Ideal S256x256 .bf16) (v5 : Vec Ideal S1x256 .f32)
    (v9 : Vec Ideal S2000x256 .f32) (v30 v34 : Vec Ideal S1x256 .f32) (p : Fin 2000) (j : Fin 256) :
    k3_pay1 (F := Ideal) v0 v2 v5 v9 v30 v34 (ix2 p j)
      = Cert.Spec.stageAt (fun p k => v0 (ix2 p k)) (fun p k => v9 (ix2 p k)) (fun j k => v2 (ix2 k j))
          (fun j => v5 (ix2 (0 : Fin 1) j)) (fun j => v30 (ix2 (0 : Fin 1) j)) (fun j => v34 (ix2 (0 : Fin 1) j)) p j := by
  unfold k3_pay1
  refine (lnVec_apply (a := 2000) _ v30 v34 _ _ _ _ _ _ _ p j).trans ?_
  unfold Spec.stageAt
  exact congrArg (fun X => Spec.layerNorm X _ _ j) (funext fun k => pre_k3 v0 v2 v5 v9 p k)

/-! ## The change of float format after the stage -/

/-- Rounding the stage's block to the narrower format is the identity on the extended reals. -/
theorem k0_pay1_apply (v : FVec Ideal S2000x256 .f32) (i : S2000x256.Idx) : k0_pay1 (F := Ideal) v i = v i := rfl

/-- The same on blocks of 1000 rows. -/
theorem k2_pay1_apply (v : FVec Ideal S1000x256 .f32) (i : S1000x256.Idx) : k2_pay1 (F := Ideal) v i = v i := rfl

end Cert.PayStage

end
-- ==== Proof.Region0.lean ====
/-
  Region 0 of the kernel (the first bottom-up stage, 20000 rows in 10 blocks of 2000): what its two output arrays hold
  after the region, as ONE function of the six operand arrays as the region finds them.

  Point `t` reads rows `2000 t … 2000 t + 1999` of the message and the state, the whole transposed weight and the three
  one-row operands; the body's value at entry `(p, j)` of the block is the stage at row `2000 t + p` (a row of the result
  depends on that row of the message and state only), so what the point writes back is block `t` of the whole-array
  function `G`; the blocks tile the array, so the array ends at `G`. The bf16 output is the same value narrowed,
  which is the same extended real.
-/
import proofs.«419988_j26946624815680_3_alg».proof.Proof.Gen.KernelIdeal.Frame
import proofs.«419988_j26946624815680_3_alg».proof.Proof.Spec
import proofs.«419988_j26946624815680_3_alg».proof.Proof.PayStage
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The stage over the operands as the kernel holds them: the weight already transposed (entry `(k, j)` of `wt`
    is the weight's `(j, k)`), the bias, scale and shift as one-row arrays. -/
def stageK (msg : S20000x256.Idx → EReal) (h : S20000x256.Idx → EReal) (wt : S256x256.Idx → EReal)
    (b2 g2 be2 : S1x256.Idx → EReal) : S20000x256.Idx → EReal := fun i =>
  Cert.Spec.stageAt (fun r k => msg (ix2 r k)) (fun r k => h (ix2 r k)) (fun j k => wt (ix2 k j))
    (fun j => b2 (ix2 (0 : Fin 1) j)) (fun j => g2 (ix2 (0 : Fin 1) j)) (fun j => be2 (ix2 (0 : Fin 1) j)) (i 0) (i 1)

/-- The region's result array as a function of its six operand arrays at entry. -/
def G (c : Dev nD) : S20000x256.Idx → EReal :=
  stageK (V c main_v24) (V c main_arg1) (V c main_v9) (V c main_v25) (V c main_v26) (V c main_v27)

theorem hz : (![0, 0] : Fin 2 → Nat) = fun _ => 0 := funext fun a => by fin_cases a <;> rfl

/-- The printed index maps over the grid: the message, state and output windows take block row `t`, the weight and
    the three rows are one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem N_eq : cfg0.N = 10 := rfl

/-- Row `p` of point `t`'s block is row `2000 t + p` of the array. -/
def row (t : Fin cfg0.N) (p : Fin 2000) : Fin 20000 := ⟨t.val * 2000 + p.val, by have h : t.val < 10 := t.isLt; omega⟩

/-- The message block read at an entry. -/
theorem msg_blk (c : Dev nD) (t : Fin cfg0.N) (p : Fin 2000) (k : Fin 256) :
    iblk0 V c 0 t (ix2 p k) = V c main_v24 (ix2 (row t p) k) := by
  obtain ⟨e0, e1, -⟩ := idx_facts t
  show V c main_v24 (((cfg0.win 0).blk t).view.emb (ix2 p k)) = _
  refine congrArg (V c main_v24) ?_
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- The state block read at an entry. -/
theorem h_blk (c : Dev nD) (t : Fin cfg0.N) (p : Fin 2000) (k : Fin 256) :
    iblk0 V c 1 t (ix2 p k) = V c main_arg1 (ix2 (row t p) k) := by
  obtain ⟨-, -, e0, e1, -⟩ := idx_facts t
  show V c main_arg1 (((cfg0.win 1).blk t).view.emb (ix2 p k)) = _
  refine congrArg (V c main_arg1) ?_
  funext a; apply Fin.ext
  match a with
  | ⟨0, _⟩ => show win0_1.index t (0 : Fin 2) * 2000 + 1 * p.val = t.val * 2000 + p.val; omega
  | ⟨1, _⟩ => show win0_1.index t (1 : Fin 2) * 256 + 1 * k.val = k.val; omega

/-- The weight's one block is the weight. -/
theorem w_blk (c : Dev nD) (t : Fin cfg0.N) (k j : Fin 256) :
    iblk0 V c 2 t (ix2 k j) = V c main_v9 (ix2 k j) := by
  obtain ⟨-, -, -, -, e0, e1, -⟩ := idx_facts t
  show V c main_v9 (((cfg0.win 2).blk t).view.emb (ix2 k j)) = _
  refine congrArg (V c main_v9) ?_
  funext a; apply Fin.ext
  match a with
  | ⟨0, _⟩ => show win0_2.index t (0 : Fin 2) * 256 + 1 * k.val = k.val; omega
  | ⟨1, _⟩ => show win0_2.index t (1 : Fin 2) * 256 + 1 * j.val = j.val; omega

/-- Each one-row operand's one block is the row. -/
theorem b_blk (c : Dev nD) (t : Fin cfg0.N) (j : Fin 256) :
    iblk0 V c 3 t (ix2 (0 : Fin 1) j) = V c main_v25 (ix2 (0 : Fin 1) j) := by
  obtain ⟨-, -, -, -, -, -, e0, e1, -⟩ := idx_facts t
  show V c main_v25 (((cfg0.win 3).blk t).view.emb (ix2 (0 : Fin 1) j)) = _
  refine congrArg (V c main_v25) ?_
  funext a; apply Fin.ext
  match a with
  | ⟨0, _⟩ => show win0_3.index t (0 : Fin 2) * 1 + 1 * 0 = 0; omega
  | ⟨1, _⟩ => show win0_3.index t (1 : Fin 2) * 256 + 1 * j.val = j.val; omega
theorem g_blk (c : Dev nD) (t : Fin cfg0.N) (j : Fin 256) :
    iblk0 V c 4 t (ix2 (0 : Fin 1) j) = V c main_v26 (ix2 (0 : Fin 1) j) := by
  obtain ⟨-, -, -, -, -, -, -, -, e0, e1, -⟩ := idx_facts t
  show V c main_v26 (((cfg0.win 4).blk t).view.emb (ix2 (0 : Fin 1) j)) = _
  refine congrArg (V c main_v26) ?_
  funext a; apply Fin.ext
  match a with
  | ⟨0, _⟩ => show win0_4.index t (0 : Fin 2) * 1 + 1 * 0 = 0; omega
  | ⟨1, _⟩ => show win0_4.index t (1 : Fin 2) * 256 + 1 * j.val = j.val; omega
theorem be_blk (c : Dev nD) (t : Fin cfg0.N) (j : Fin 256) :
    iblk0 V c 5 t (ix2 (0 : Fin 1) j) = V c main_v27 (ix2 (0 : Fin 1) j) := by
  obtain ⟨-, -, -, -, -, -, -, -, -, -, e0, e1, -⟩ := idx_facts t
  show V c main_v27 (((cfg0.win 5).blk t).view.emb (ix2 (0 : Fin 1) j)) = _
  refine congrArg (V c main_v27) ?_
  funext a; apply Fin.ext
  match a with
  | ⟨0, _⟩ => show win0_5.index t (0 : Fin 2) * 1 + 1 * 0 = 0; omega
  | ⟨1, _⟩ => show win0_5.index t (1 : Fin 2) * 256 + 1 * j.val = j.val; omega

/-- The body's result at entry `(p, j)` of point `t`'s block is the stage at row `2000 t + p` of the arrays. -/
theorem pay_at (c : Dev nD) (t : Fin cfg0.N) (p : Fin 2000) (j : Fin 256) :
    k0_pay2 (F := Ideal) (iblk0 V c 0 t) (iblk0 V c 2 t) (iblk0 V c 3 t) (iblk0 V c 1 t) (iblk0 V c 4 t) (iblk0 V c 5 t) (ix2 p j)
      = G V c (ix2 (row t p) j) := by
  refine (Cert.PayStage.k0_pay2_apply (iblk0 V c 0 t) (iblk0 V c 2 t) (iblk0 V c 3 t) (iblk0 V c 1 t) (iblk0 V c 4 t) (iblk0 V c 5 t) p j).trans ?_
  have hG : G V c (ix2 (row t p) j) = Cert.Spec.stageAt (fun r k => V c main_v24 (ix2 r k)) (fun r k => V c main_arg1 (ix2 r k))
      (fun j k => V c main_v9 (ix2 k j)) (fun j => V c main_v25 (ix2 (0 : Fin 1) j)) (fun j => V c main_v26 (ix2 (0 : Fin 1) j))
      (fun j => V c main_v27 (ix2 (0 : Fin 1) j)) (row t p) j := rfl
  rw [hG]
  have hw : (fun j k : Fin 256 => iblk0 V c 2 t (ix2 k j)) = fun j k => V c main_v9 (ix2 k j) := by
    funext j k; exact w_blk V c t k j
  have hb : (fun j : Fin 256 => iblk0 V c 3 t (ix2 (0 : Fin 1) j)) = fun j => V c main_v25 (ix2 (0 : Fin 1) j) := by
    funext j; exact b_blk V c t j
  have hg : (fun j : Fin 256 => iblk0 V c 4 t (ix2 (0 : Fin 1) j)) = fun j => V c main_v26 (ix2 (0 : Fin 1) j) := by
    funext j; exact g_blk V c t j
  have hbe : (fun j : Fin 256 => iblk0 V c 5 t (ix2 (0 : Fin 1) j)) = fun j => V c main_v27 (ix2 (0 : Fin 1) j) := by
    funext j; exact be_blk V c t j
  rw [hw, hb, hg, hbe]
  exact Cert.Spec.stageAt_congr _ _ _ _ _ _ _ _ p (row t p) (fun k => msg_blk V c t p k) (fun k => h_blk V c t p k) j

/-- What point `t` writes back through the f32 output window is block `t` of `G`. -/
theorem flushed6_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x256) hz, View.ld_unit_zero (S := S256x256) hz, View.ld_unit_zero (S := S1x256) hz]
  funext y
  obtain ⟨-, -, -, -, -, -, -, -, -, -, -, -, e0, e1, -⟩ := idx_facts t
  have hy : y = ix2 (n0 := 2000) (n1 := 256) (y 0) (y 1) := eq_ix2 y
  show k0_pay2 (F := Ideal) (iblk0 V c 0 t) (iblk0 V c 2 t) (iblk0 V c 3 t) (iblk0 V c 1 t) (iblk0 V c 4 t) (iblk0 V c 5 t) y
    = G V c (((cfg0.win 6).blk t).view.emb y)
  rw [hy, pay_at V c t (y 0) (y 1)]
  refine congrArg (G V c) ?_
  funext a; apply Fin.ext
  match a with
  | ⟨0, _⟩ => show t.val * 2000 + (y 0).val = win0_6.index t (0 : Fin 2) * 2000 + 1 * (y 0).val; omega
  | ⟨1, _⟩ => show (y 1).val = win0_6.index t (1 : Fin 2) * 256 + 1 * (y 1).val; omega

/-- An index of the array is in point `t`'s output block iff each coordinate is in the block's range. -/
theorem mem_blk6 (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v28_0).slice (win0_6.rect t)).set ↔ _
  rw [View.set_slice_whole, Rect.mem_set_unit]
  exact Iff.rfl

/-- Every entry of the array lies in the block of the point its row falls in. -/
theorem cover6 (i : S20000x256.Idx) :
    ∃ t : Fin cfg0.N, (cfg0.win 6).flush t = true ∧ i ∈ ((cfg0.win 6).blk t).view.set := by
  have hi0 : (i 0).val < 20000 := (i 0).isLt
  have hi1 : (i 1).val < 256 := (i 1).isLt
  let t : Fin cfg0.N := ⟨(i 0).val / 2000, by show _ < 10; omega⟩
  obtain ⟨-, -, -, -, -, -, -, -, -, -, -, -, e0, e1, -⟩ := idx_facts t
  have ht : t.val = (i 0).val / 2000 := rfl
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The f32 result array after the region is `G` of the operand arrays at entry. -/
theorem final6 (c : Dev nD) : (dat0 V c).arrAt 6 cfg0.N = G V c :=
  (dat0 V c).arrAt_eq_of_cover 6 (G V c) (fun t _ => flushed6_eq V c t) cover6

/-- What point `t` writes back through the bf16 output window is block `t` of the same `G`: the second store narrows
    the first store's value, which changes nothing on the extended reals. -/
theorem flushed7_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S2000x256) hz, View.ld_unit_zero (S := S256x256) hz, View.ld_unit_zero (S := S1x256) hz]
  funext y
  obtain ⟨-, -, -, -, -, -, -, -, -, -, -, -, -, -, e0, e1⟩ := idx_facts t
  have hy : y = ix2 (n0 := 2000) (n1 := 256) (y 0) (y 1) := eq_ix2 y
  show k0_pay1 (F := Ideal) (k0_pay2 (F := Ideal) (iblk0 V c 0 t) (iblk0 V c 2 t) (iblk0 V c 3 t) (iblk0 V c 1 t) (iblk0 V c 4 t) (iblk0 V c 5 t)) y
    = G V c (((cfg0.win 7).blk t).view.emb y)
  rw [Cert.PayStage.k0_pay1_apply, hy, pay_at V c t (y 0) (y 1)]
  refine congrArg (G V c) ?_
  funext a; apply Fin.ext
  match a with
  | ⟨0, _⟩ => show t.val * 2000 + (y 0).val = win0_7.index t (0 : Fin 2) * 2000 + 1 * (y 0).val; omega
  | ⟨1, _⟩ => show (y 1).val = win0_7.index t (1 : Fin 2) * 256 + 1 * (y 1).val; omega

theorem mem_blk7 (t : Fin cfg0.N) (i : S20000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v28_1).slice (win0_7.rect t)).set ↔ _
  rw [View.set_slice_whole, Rect.mem_set_unit]
  exact Iff.rfl

theorem cover7 (i : S20000x256.Idx) :
    ∃ t : Fin cfg0.N, (cfg0.win 7).flush t = true ∧ i ∈ ((cfg0.win 7).blk t).view.set := by
  have hi0 : (i 0).val < 20000 := (i 0).isLt
  have hi1 : (i 1).val < 256 := (i 1).isLt
  let t : Fin cfg0.N := ⟨(i 0).val / 2000, by show _ < 10; omega⟩
  obtain ⟨-, -, -, -, -, -, -, -, -, -, -, -, -, -, e0, e1⟩ := idx_facts t
  have ht : t.val = (i 0).val / 2000 := rfl
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 256 ≤ (i 1).val ∧ (i 1).val < win0_7.index t (1 : Fin 2) * 256 + 256; omega

/-- The bf16 result array after the region is the same `G`. -/
theorem final7 (c : Dev nD) : (dat0 V c).arrAt 7 cfg0.N = G V c :=
  (dat0 V c).arrAt_eq_of_cover 7 (G V c) (fun t _ => flushed7_eq V c t) cover7

end Cert.KernelIdeal.Region0
end
-- ==== Proof.Region1.lean ====
/-
  Region 1 of the kernel (the first top-down stage, 200000 rows in 50 blocks of 4000): what its output array holds
  after the region, as ONE function of the six operand arrays as the region finds them.

  Point `t` reads rows `4000 t … 4000 t + 3999` of the message and the state, the whole transposed weight and the three
  one-row operands; the body's value at entry `(p, j)` of the block is the stage at row `4000 t + p` (a row of the result
  depends on that row of the message and state only), so what the point writes back is block `t` of the whole-array
  function `G`; the blocks tile the array, so the array ends at `G`.
-/
import proofs.«419988_j26946624815680_3_alg».proof.Proof.Gen.KernelIdeal.Frame
import proofs.«419988_j26946624815680_3_alg».proof.Proof.Spec
import proofs.«419988_j26946624815680_3_alg».proof.Proof.PayStage
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The stage over the operands as the kernel holds them: the weight already transposed (entry `(k, j)` of `wt`
    is the weight's `(j, k)`), the bias, scale and shift as one-row arrays. -/
def stageK (msg : S200000x256.Idx → EReal) (h : S200000x256.Idx → EReal) (wt : S256x256.Idx → EReal)
    (b2 g2 be2 : S1x256.Idx → EReal) : S200000x256.Idx → EReal := fun i =>
  Cert.Spec.stageAt (fun r k => msg (ix2 r k)) (fun r k => h (ix2 r k)) (fun j k => wt (ix2 k j))
    (fun j => b2 (ix2 (0 : Fin 1) j)) (fun j => g2 (ix2 (0 : Fin 1) j)) (fun j => be2 (ix2 (0 : Fin 1) j)) (i 0) (i 1)

/-- The region's result array as a function of its six operand arrays at entry. -/
def G (c : Dev nD) : S200000x256.Idx → EReal :=
  stageK (V c main_v29) (V c main_arg0) (V c main_v11) (V c main_v30) (V c main_v31) (V c main_v32)

theorem hz : (![0, 0] : Fin 2 → Nat) = fun _ => 0 := funext fun a => by fin_cases a <;> rfl

/-- The printed index maps over the grid: the message, state and output windows take block row `t`, the weight and
    the three rows are one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem N_eq : cfg1.N = 50 := rfl

/-- Row `p` of point `t`'s block is row `4000 t + p` of the array. -/
def row (t : Fin cfg1.N) (p : Fin 4000) : Fin 200000 := ⟨t.val * 4000 + p.val, by have h : t.val < 50 := t.isLt; omega⟩

/-- The message block read at an entry. -/
theorem msg_blk (c : Dev nD) (t : Fin cfg1.N) (p : Fin 4000) (k : Fin 256) :
    iblk1 V c 0 t (ix2 p k) = V c main_v29 (ix2 (row t p) k) := by
  obtain ⟨e0, e1, -⟩ := idx_facts t
  show V c main_v29 (((cfg1.win 0).blk t).view.emb (ix2 p k)) = _
  refine congrArg (V c main_v29) ?_
  funext a; apply Fin.ext
  match a with
  | ⟨0, _⟩ => show win1_0.index t (0 : Fin 2) * 4000 + 1 * p.val = t.val * 4000 + p.val; omega
  | ⟨1, _⟩ => show win1_0.index t (1 : Fin 2) * 256 + 1 * k.val = k.val; omega

/-- The state block read at an entry. -/
theorem h_blk (c : Dev nD) (t : Fin cfg1.N) (p : Fin 4000) (k : Fin 256) :
    iblk1 V c 1 t (ix2 p k) = V c main_arg0 (ix2 (row t p) k) := by
  obtain ⟨-, -, e0, e1, -⟩ := idx_facts t
  show V c main_arg0 (((cfg1.win 1).blk t).view.emb (ix2 p k)) = _
  refine congrArg (V c main_arg0) ?_
  funext a; apply Fin.ext
  match a with
  | ⟨0, _⟩ => show win1_1.index t (0 : Fin 2) * 4000 + 1 * p.val = t.val * 4000 + p.val; omega
  | ⟨1, _⟩ => show win1_1.index t (1 : Fin 2) * 256 + 1 * k.val = k.val; omega

/-- The weight's one block is the weight. -/
theorem w_blk (c : Dev nD) (t : Fin cfg1.N) (k j : Fin 256) :
    iblk1 V c 2 t (ix2 k j) = V c main_v11 (ix2 k j) := by
  obtain ⟨-, -, -, -, e0, e1, -⟩ := idx_facts t
  show V c main_v11 (((cfg1.win 2).blk t).view.emb (ix2 k j)) = _
  refine congrArg (V c main_v11) ?_
  funext a; apply Fin.ext
  match a with
  | ⟨0, _⟩ => show win1_2.index t (0 : Fin 2) * 256 + 1 * k.val = k.val; omega
  | ⟨1, _⟩ => show win1_2.index t (1 : Fin 2) * 256 + 1 * j.val = j.val; omega

/-- Each one-row operand's one block is the row. -/
theorem b_blk (c : Dev nD) (t : Fin cfg1.N) (j : Fin 256) :
    iblk1 V c 3 t (ix2 (0 : Fin 1) j) = V c main_v30 (ix2 (0 : Fin 1) j) := by
  obtain ⟨-, -, -, -, -, -, e0, e1, -⟩ := idx_facts t
  show V c main_v30 (((cfg1.win 3).blk t).view.emb (ix2 (0 : Fin 1) j)) = _
  refine congrArg (V c main_v30) ?_
  funext a; apply Fin.ext
  match a with
  | ⟨0, _⟩ => show win1_3.index t (0 : Fin 2) * 1 + 1 * 0 = 0; omega
  | ⟨1, _⟩ => show win1_3.index t (1 : Fin 2) * 256 + 1 * j.val = j.val; omega
theorem g_blk (c : Dev nD) (t : Fin cfg1.N) (j : Fin 256) :
    iblk1 V c 4 t (ix2 (0 : Fin 1) j) = V c main_v31 (ix2 (0 : Fin 1) j) := by
  obtain ⟨-, -, -, -, -, -, -, -, e0, e1, -⟩ := idx_facts t
  show V c main_v31 (((cfg1.win 4).blk t).view.emb (ix2 (0 : Fin 1) j)) = _
  refine congrArg (V c main_v31) ?_
  funext a; apply Fin.ext
  match a with
  | ⟨0, _⟩ => show win1_4.index t (0 : Fin 2) * 1 + 1 * 0 = 0; omega
  | ⟨1, _⟩ => show win1_4.index t (1 : Fin 2) * 256 + 1 * j.val = j.val; omega
theorem be_blk (c : Dev nD) (t : Fin cfg1.N) (j : Fin 256) :
    iblk1 V c 5 t (ix2 (0 : Fin 1) j) = V c main_v32 (ix2 (0 : Fin 1) j) := by
  obtain ⟨-, -, -, -, -, -, -, -, -, -, e0, e1, -⟩ := idx_facts t
  show V c main_v32 (((cfg1.win 5).blk t).view.emb (ix2 (0 : Fin 1) j)) = _
  refine congrArg (V c main_v32) ?_
  funext a; apply Fin.ext
  match a with
  | ⟨0, _⟩ => show win1_5.index t (0 : Fin 2) * 1 + 1 * 0 = 0; omega
  | ⟨1, _⟩ => show win1_5.index t (1 : Fin 2) * 256 + 1 * j.val = j.val; omega

/-- The body's result at entry `(p, j)` of point `t`'s block is the stage at row `4000 t + p` of the arrays. -/
theorem pay_at (c : Dev nD) (t : Fin cfg1.N) (p : Fin 4000) (j : Fin 256) :
    k1_pay1 (F := Ideal) (iblk1 V c 0 t) (iblk1 V c 2 t) (iblk1 V c 3 t) (iblk1 V c 1 t) (iblk1 V c 4 t) (iblk1 V c 5 t) (ix2 p j)
      = G V c (ix2 (row t p) j) := by
  refine (Cert.PayStage.k1_pay1_apply (iblk1 V c 0 t) (iblk1 V c 2 t) (iblk1 V c 3 t) (iblk1 V c 1 t) (iblk1 V c 4 t) (iblk1 V c 5 t) p j).trans ?_
  have hG : G V c (ix2 (row t p) j) = Cert.Spec.stageAt (fun r k => V c main_v29 (ix2 r k)) (fun r k => V c main_arg0 (ix2 r k))
      (fun j k => V c main_v11 (ix2 k j)) (fun j => V c main_v30 (ix2 (0 : Fin 1) j)) (fun j => V c main_v31 (ix2 (0 : Fin 1) j))
      (fun j => V c main_v32 (ix2 (0 : Fin 1) j)) (row t p) j := rfl
  rw [hG]
  have hw : (fun j k : Fin 256 => iblk1 V c 2 t (ix2 k j)) = fun j k => V c main_v11 (ix2 k j) := by
    funext j k; exact w_blk V c t k j
  have hb : (fun j : Fin 256 => iblk1 V c 3 t (ix2 (0 : Fin 1) j)) = fun j => V c main_v30 (ix2 (0 : Fin 1) j) := by
    funext j; exact b_blk V c t j
  have hg : (fun j : Fin 256 => iblk1 V c 4 t (ix2 (0 : Fin 1) j)) = fun j => V c main_v31 (ix2 (0 : Fin 1) j) := by
    funext j; exact g_blk V c t j
  have hbe : (fun j : Fin 256 => iblk1 V c 5 t (ix2 (0 : Fin 1) j)) = fun j => V c main_v32 (ix2 (0 : Fin 1) j) := by
    funext j; exact be_blk V c t j
  rw [hw, hb, hg, hbe]
  exact Cert.Spec.stageAt_congr _ _ _ _ _ _ _ _ p (row t p) (fun k => msg_blk V c t p k) (fun k => h_blk V c t p k) j

/-- What point `t` writes back through the f32 output window is block `t` of `G`. -/
theorem flushed6_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x256) hz, View.ld_unit_zero (S := S256x256) hz, View.ld_unit_zero (S := S1x256) hz]
  funext y
  obtain ⟨-, -, -, -, -, -, -, -, -, -, -, -, e0, e1⟩ := idx_facts t
  have hy : y = ix2 (n0 := 4000) (n1 := 256) (y 0) (y 1) := eq_ix2 y
  show k1_pay1 (F := Ideal) (iblk1 V c 0 t) (iblk1 V c 2 t) (iblk1 V c 3 t) (iblk1 V c 1 t) (iblk1 V c 4 t) (iblk1 V c 5 t) y
    = G V c (((cfg1.win 6).blk t).view.emb y)
  rw [hy, pay_at V c t (y 0) (y 1)]
  refine congrArg (G V c) ?_
  funext a; apply Fin.ext
  match a with
  | ⟨0, _⟩ => show t.val * 4000 + (y 0).val = win1_6.index t (0 : Fin 2) * 4000 + 1 * (y 0).val; omega
  | ⟨1, _⟩ => show (y 1).val = win1_6.index t (1 : Fin 2) * 256 + 1 * (y 1).val; omega

/-- An index of the array is in point `t`'s output block iff each coordinate is in the block's range. -/
theorem mem_blk6 (t : Fin cfg1.N) (i : S200000x256.Idx) :
    i ∈ ((cfg1.win 6).blk t).view.set ↔ ∀ a : Fin 2, win1_6.index t a * S4000x256.size a ≤ (i a).val ∧ (i a).val < win1_6.index t a * S4000x256.size a + S4000x256.size a := by
  show i ∈ ((View.whole main_v33).slice (win1_6.rect t)).set ↔ _
  rw [View.set_slice_whole, Rect.mem_set_unit]
  exact Iff.rfl

/-- Every entry of the array lies in the block of the point its row falls in. -/
theorem cover6 (i : S200000x256.Idx) :
    ∃ t : Fin cfg1.N, (cfg1.win 6).flush t = true ∧ i ∈ ((cfg1.win 6).blk t).view.set := by
  have hi0 : (i 0).val < 200000 := (i 0).isLt
  have hi1 : (i 1).val < 256 := (i 1).isLt
  let t : Fin cfg1.N := ⟨(i 0).val / 4000, by show _ < 50; omega⟩
  obtain ⟨-, -, -, -, -, -, -, -, -, -, -, -, e0, e1⟩ := idx_facts t
  have ht : t.val = (i 0).val / 4000 := rfl
  refine ⟨t, flush1_6 t, ?_⟩
  rw [mem_blk6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 256 ≤ (i 1).val ∧ (i 1).val < win1_6.index t (1 : Fin 2) * 256 + 256; omega

/-- The f32 result array after the region is `G` of the operand arrays at entry. -/
theorem final6 (c : Dev nD) : (dat1 V c).arrAt 6 cfg1.N = G V c :=
  (dat1 V c).arrAt_eq_of_cover 6 (G V c) (fun t _ => flushed6_eq V c t) cover6

end Cert.KernelIdeal.Region1
end
-- ==== Proof.Region2.lean ====
/-
  Region 2 of the kernel (the second bottom-up stage, 2000 rows in 2 blocks of 1000): what its two output arrays hold
  after the region, as ONE function of the six operand arrays as the region finds them.

  Point `t` reads rows `1000 t … 1000 t + 999` of the message and the state, the whole transposed weight and the three
  one-row operands; the body's value at entry `(p, j)` of the block is the stage at row `1000 t + p` (a row of the result
  depends on that row of the message and state only), so what the point writes back is block `t` of the whole-array
  function `G`; the blocks tile the array, so the array ends at `G`. The bf16 output is the same value narrowed,
  which is the same extended real.
-/
import proofs.«419988_j26946624815680_3_alg».proof.Proof.Gen.KernelIdeal.Frame
import proofs.«419988_j26946624815680_3_alg».proof.Proof.Spec
import proofs.«419988_j26946624815680_3_alg».proof.Proof.PayStage
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The stage over the operands as the kernel holds them: the weight already transposed (entry `(k, j)` of `wt`
    is the weight's `(j, k)`), the bias, scale and shift as one-row arrays. -/
def stageK (msg : S2000x256.Idx → EReal) (h : S2000x256.Idx → EReal) (wt : S256x256.Idx → EReal)
    (b2 g2 be2 : S1x256.Idx → EReal) : S2000x256.Idx → EReal := fun i =>
  Cert.Spec.stageAt (fun r k => msg (ix2 r k)) (fun r k => h (ix2 r k)) (fun j k => wt (ix2 k j))
    (fun j => b2 (ix2 (0 : Fin 1) j)) (fun j => g2 (ix2 (0 : Fin 1) j)) (fun j => be2 (ix2 (0 : Fin 1) j)) (i 0) (i 1)

/-- The region's result array as a function of its six operand arrays at entry. -/
def G (c : Dev nD) : S2000x256.Idx → EReal :=
  stageK (V c main_v42) (V c main_arg2) (V c main_v13) (V c main_v43) (V c main_v44) (V c main_v45)

theorem hz : (![0, 0] : Fin 2 → Nat) = fun _ => 0 := funext fun a => by fin_cases a <;> rfl

/-- The printed index maps over the grid: the message, state and output windows take block row `t`, the weight and
    the three rows are one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem N_eq : cfg2.N = 2 := rfl

/-- Row `p` of point `t`'s block is row `1000 t + p` of the array. -/
def row (t : Fin cfg2.N) (p : Fin 1000) : Fin 2000 := ⟨t.val * 1000 + p.val, by have h : t.val < 2 := t.isLt; omega⟩

/-- The message block read at an entry. -/
theorem msg_blk (c : Dev nD) (t : Fin cfg2.N) (p : Fin 1000) (k : Fin 256) :
    iblk2 V c 0 t (ix2 p k) = V c main_v42 (ix2 (row t p) k) := by
  obtain ⟨e0, e1, -⟩ := idx_facts t
  show V c main_v42 (((cfg2.win 0).blk t).view.emb (ix2 p k)) = _
  refine congrArg (V c main_v42) ?_
  funext a; apply Fin.ext
  match a with
  | ⟨0, _⟩ => show win2_0.index t (0 : Fin 2) * 1000 + 1 * p.val = t.val * 1000 + p.val; omega
  | ⟨1, _⟩ => show win2_0.index t (1 : Fin 2) * 256 + 1 * k.val = k.val; omega

/-- The state block read at an entry. -/
theorem h_blk (c : Dev nD) (t : Fin cfg2.N) (p : Fin 1000) (k : Fin 256) :
    iblk2 V c 1 t (ix2 p k) = V c main_arg2 (ix2 (row t p) k) := by
  obtain ⟨-, -, e0, e1, -⟩ := idx_facts t
  show V c main_arg2 (((cfg2.win 1).blk t).view.emb (ix2 p k)) = _
  refine congrArg (V c main_arg2) ?_
  funext a; apply Fin.ext
  match a with
  | ⟨0, _⟩ => show win2_1.index t (0 : Fin 2) * 1000 + 1 * p.val = t.val * 1000 + p.val; omega
  | ⟨1, _⟩ => show win2_1.index t (1 : Fin 2) * 256 + 1 * k.val = k.val; omega

/-- The weight's one block is the weight. -/
theorem w_blk (c : Dev nD) (t : Fin cfg2.N) (k j : Fin 256) :
    iblk2 V c 2 t (ix2 k j) = V c main_v13 (ix2 k j) := by
  obtain ⟨-, -, -, -, e0, e1, -⟩ := idx_facts t
  show V c main_v13 (((cfg2.win 2).blk t).view.emb (ix2 k j)) = _
  refine congrArg (V c main_v13) ?_
  funext a; apply Fin.ext
  match a with
  | ⟨0, _⟩ => show win2_2.index t (0 : Fin 2) * 256 + 1 * k.val = k.val; omega
  | ⟨1, _⟩ => show win2_2.index t (1 : Fin 2) * 256 + 1 * j.val = j.val; omega

/-- Each one-row operand's one block is the row. -/
theorem b_blk (c : Dev nD) (t : Fin cfg2.N) (j : Fin 256) :
    iblk2 V c 3 t (ix2 (0 : Fin 1) j) = V c main_v43 (ix2 (0 : Fin 1) j) := by
  obtain ⟨-, -, -, -, -, -, e0, e1, -⟩ := idx_facts t
  show V c main_v43 (((cfg2.win 3).blk t).view.emb (ix2 (0 : Fin 1) j)) = _
  refine congrArg (V c main_v43) ?_
  funext a; apply Fin.ext
  match a with
  | ⟨0, _⟩ => show win2_3.index t (0 : Fin 2) * 1 + 1 * 0 = 0; omega
  | ⟨1, _⟩ => show win2_3.index t (1 : Fin 2) * 256 + 1 * j.val = j.val; omega
theorem g_blk (c : Dev nD) (t : Fin cfg2.N) (j : Fin 256) :
    iblk2 V c 4 t (ix2 (0 : Fin 1) j) = V c main_v44 (ix2 (0 : Fin 1) j) := by
  obtain ⟨-, -, -, -, -, -, -, -, e0, e1, -⟩ := idx_facts t
  show V c main_v44 (((cfg2.win 4).blk t).view.emb (ix2 (0 : Fin 1) j)) = _
  refine congrArg (V c main_v44) ?_
  funext a; apply Fin.ext
  match a with
  | ⟨0, _⟩ => show win2_4.index t (0 : Fin 2) * 1 + 1 * 0 = 0; omega
  | ⟨1, _⟩ => show win2_4.index t (1 : Fin 2) * 256 + 1 * j.val = j.val; omega
theorem be_blk (c : Dev nD) (t : Fin cfg2.N) (j : Fin 256) :
    iblk2 V c 5 t (ix2 (0 : Fin 1) j) = V c main_v45 (ix2 (0 : Fin 1) j) := by
  obtain ⟨-, -, -, -, -, -, -, -, -, -, e0, e1, -⟩ := idx_facts t
  show V c main_v45 (((cfg2.win 5).blk t).view.emb (ix2 (0 : Fin 1) j)) = _
  refine congrArg (V c main_v45) ?_
  funext a; apply Fin.ext
  match a with
  | ⟨0, _⟩ => show win2_5.index t (0 : Fin 2) * 1 + 1 * 0 = 0; omega
  | ⟨1, _⟩ => show win2_5.index t (1 : Fin 2) * 256 + 1 * j.val = j.val; omega

/-- The body's result at entry `(p, j)` of point `t`'s block is the stage at row `1000 t + p` of the arrays. -/
theorem pay_at (c : Dev nD) (t : Fin cfg2.N) (p : Fin 1000) (j : Fin 256) :
    k2_pay2 (F := Ideal) (iblk2 V c 0 t) (iblk2 V c 2 t) (iblk2 V c 3 t) (iblk2 V c 1 t) (iblk2 V c 4 t) (iblk2 V c 5 t) (ix2 p j)
      = G V c (ix2 (row t p) j) := by
  refine (Cert.PayStage.k2_pay2_apply (iblk2 V c 0 t) (iblk2 V c 2 t) (iblk2 V c 3 t) (iblk2 V c 1 t) (iblk2 V c 4 t) (iblk2 V c 5 t) p j).trans ?_
  have hG : G V c (ix2 (row t p) j) = Cert.Spec.stageAt (fun r k => V c main_v42 (ix2 r k)) (fun r k => V c main_arg2 (ix2 r k))
      (fun j k => V c main_v13 (ix2 k j)) (fun j => V c main_v43 (ix2 (0 : Fin 1) j)) (fun j => V c main_v44 (ix2 (0 : Fin 1) j))
      (fun j => V c main_v45 (ix2 (0 : Fin 1) j)) (row t p) j := rfl
  rw [hG]
  have hw : (fun j k : Fin 256 => iblk2 V c 2 t (ix2 k j)) = fun j k => V c main_v13 (ix2 k j) := by
    funext j k; exact w_blk V c t k j
  have hb : (fun j : Fin 256 => iblk2 V c 3 t (ix2 (0 : Fin 1) j)) = fun j => V c main_v43 (ix2 (0 : Fin 1) j) := by
    funext j; exact b_blk V c t j
  have hg : (fun j : Fin 256 => iblk2 V c 4 t (ix2 (0 : Fin 1) j)) = fun j => V c main_v44 (ix2 (0 : Fin 1) j) := by
    funext j; exact g_blk V c t j
  have hbe : (fun j : Fin 256 => iblk2 V c 5 t (ix2 (0 : Fin 1) j)) = fun j => V c main_v45 (ix2 (0 : Fin 1) j) := by
    funext j; exact be_blk V c t j
  rw [hw, hb, hg, hbe]
  exact Cert.Spec.stageAt_congr _ _ _ _ _ _ _ _ p (row t p) (fun k => msg_blk V c t p k) (fun k => h_blk V c t p k) j

/-- What point `t` writes back through the f32 output window is block `t` of `G`. -/
theorem flushed6_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S1000x256) hz, View.ld_unit_zero (S := S256x256) hz, View.ld_unit_zero (S := S1x256) hz]
  funext y
  obtain ⟨-, -, -, -, -, -, -, -, -, -, -, -, e0, e1, -⟩ := idx_facts t
  have hy : y = ix2 (n0 := 1000) (n1 := 256) (y 0) (y 1) := eq_ix2 y
  show k2_pay2 (F := Ideal) (iblk2 V c 0 t) (iblk2 V c 2 t) (iblk2 V c 3 t) (iblk2 V c 1 t) (iblk2 V c 4 t) (iblk2 V c 5 t) y
    = G V c (((cfg2.win 6).blk t).view.emb y)
  rw [hy, pay_at V c t (y 0) (y 1)]
  refine congrArg (G V c) ?_
  funext a; apply Fin.ext
  match a with
  | ⟨0, _⟩ => show t.val * 1000 + (y 0).val = win2_6.index t (0 : Fin 2) * 1000 + 1 * (y 0).val; omega
  | ⟨1, _⟩ => show (y 1).val = win2_6.index t (1 : Fin 2) * 256 + 1 * (y 1).val; omega

/-- An index of the array is in point `t`'s output block iff each coordinate is in the block's range. -/
theorem mem_blk6 (t : Fin cfg2.N) (i : S2000x256.Idx) :
    i ∈ ((cfg2.win 6).blk t).view.set ↔ ∀ a : Fin 2, win2_6.index t a * S1000x256.size a ≤ (i a).val ∧ (i a).val < win2_6.index t a * S1000x256.size a + S1000x256.size a := by
  show i ∈ ((View.whole main_v46_0).slice (win2_6.rect t)).set ↔ _
  rw [View.set_slice_whole, Rect.mem_set_unit]
  exact Iff.rfl

/-- Every entry of the array lies in the block of the point its row falls in. -/
theorem cover6 (i : S2000x256.Idx) :
    ∃ t : Fin cfg2.N, (cfg2.win 6).flush t = true ∧ i ∈ ((cfg2.win 6).blk t).view.set := by
  have hi0 : (i 0).val < 2000 := (i 0).isLt
  have hi1 : (i 1).val < 256 := (i 1).isLt
  let t : Fin cfg2.N := ⟨(i 0).val / 1000, by show _ < 2; omega⟩
  obtain ⟨-, -, -, -, -, -, -, -, -, -, -, -, e0, e1, -⟩ := idx_facts t
  have ht : t.val = (i 0).val / 1000 := rfl
  refine ⟨t, flush2_6 t, ?_⟩
  rw [mem_blk6]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 256 ≤ (i 1).val ∧ (i 1).val < win2_6.index t (1 : Fin 2) * 256 + 256; omega

/-- The f32 result array after the region is `G` of the operand arrays at entry. -/
theorem final6 (c : Dev nD) : (dat2 V c).arrAt 6 cfg2.N = G V c :=
  (dat2 V c).arrAt_eq_of_cover 6 (G V c) (fun t _ => flushed6_eq V c t) cover6

/-- What point `t` writes back through the bf16 output window is block `t` of the same `G`: the second store narrows
    the first store's value, which changes nothing on the extended reals. -/
theorem flushed7_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S1000x256) hz, View.ld_unit_zero (S := S256x256) hz, View.ld_unit_zero (S := S1x256) hz]
  funext y
  obtain ⟨-, -, -, -, -, -, -, -, -, -, -, -, -, -, e0, e1⟩ := idx_facts t
  have hy : y = ix2 (n0 := 1000) (n1 := 256) (y 0) (y 1) := eq_ix2 y
  show k2_pay1 (F := Ideal) (k2_pay2 (F := Ideal) (iblk2 V c 0 t) (iblk2 V c 2 t) (iblk2 V c 3 t) (iblk2 V c 1 t) (iblk2 V c 4 t) (iblk2 V c 5 t)) y
    = G V c (((cfg2.win 7).blk t).view.emb y)
  rw [Cert.PayStage.k2_pay1_apply, hy, pay_at V c t (y 0) (y 1)]
  refine congrArg (G V c) ?_
  funext a; apply Fin.ext
  match a with
  | ⟨0, _⟩ => show t.val * 1000 + (y 0).val = win2_7.index t (0 : Fin 2) * 1000 + 1 * (y 0).val; omega
  | ⟨1, _⟩ => show (y 1).val = win2_7.index t (1 : Fin 2) * 256 + 1 * (y 1).val; omega

theorem mem_blk7 (t : Fin cfg2.N) (i : S2000x256.Idx) :
    i ∈ ((cfg2.win 7).blk t).view.set ↔ ∀ a : Fin 2, win2_7.index t a * S1000x256.size a ≤ (i a).val ∧ (i a).val < win2_7.index t a * S1000x256.size a + S1000x256.size a := by
  show i ∈ ((View.whole main_v46_1).slice (win2_7.rect t)).set ↔ _
  rw [View.set_slice_whole, Rect.mem_set_unit]
  exact Iff.rfl

theorem cover7 (i : S2000x256.Idx) :
    ∃ t : Fin cfg2.N, (cfg2.win 7).flush t = true ∧ i ∈ ((cfg2.win 7).blk t).view.set := by
  have hi0 : (i 0).val < 2000 := (i 0).isLt
  have hi1 : (i 1).val < 256 := (i 1).isLt
  let t : Fin cfg2.N := ⟨(i 0).val / 1000, by show _ < 2; omega⟩
  obtain ⟨-, -, -, -, -, -, -, -, -, -, -, -, -, -, e0, e1⟩ := idx_facts t
  have ht : t.val = (i 0).val / 1000 := rfl
  refine ⟨t, flush2_7 t, ?_⟩
  rw [mem_blk7]
  intro a
  match a with
  | ⟨0, _⟩ => show win2_7.index t (0 : Fin 2) * 1000 ≤ (i 0).val ∧ (i 0).val < win2_7.index t (0 : Fin 2) * 1000 + 1000; omega
  | ⟨1, _⟩ => show win2_7.index t (1 : Fin 2) * 256 ≤ (i 1).val ∧ (i 1).val < win2_7.index t (1 : Fin 2) * 256 + 256; omega

/-- The bf16 result array after the region is the same `G`. -/
theorem final7 (c : Dev nD) : (dat2 V c).arrAt 7 cfg2.N = G V c :=
  (dat2 V c).arrAt_eq_of_cover 7 (G V c) (fun t _ => flushed7_eq V c t) cover7

end Cert.KernelIdeal.Region2
end
-- ==== Proof.Region3.lean ====
/-
  Region 3 of the kernel (the second top-down stage, 20000 rows in 10 blocks of 2000): what its output array holds
  after the region, as ONE function of the six operand arrays as the region finds them.

  Point `t` reads rows `2000 t … 2000 t + 1999` of the message and the state, the whole transposed weight and the three
  one-row operands; the body's value at entry `(p, j)` of the block is the stage at row `2000 t + p` (a row of the result
  depends on that row of the message and state only), so what the point writes back is block `t` of the whole-array
  function `G`; the blocks tile the array, so the array ends at `G`.
-/
import proofs.«419988_j26946624815680_3_alg».proof.Proof.Gen.KernelIdeal.Frame
import proofs.«419988_j26946624815680_3_alg».proof.Proof.Spec
import proofs.«419988_j26946624815680_3_alg».proof.Proof.PayStage
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The stage over the operands as the kernel holds them: the weight already transposed (entry `(k, j)` of `wt`
    is the weight's `(j, k)`), the bias, scale and shift as one-row arrays. -/
def stageK (msg : S20000x256.Idx → EReal) (h : S20000x256.Idx → EReal) (wt : S256x256.Idx → EReal)
    (b2 g2 be2 : S1x256.Idx → EReal) : S20000x256.Idx → EReal := fun i =>
  Cert.Spec.stageAt (fun r k => msg (ix2 r k)) (fun r k => h (ix2 r k)) (fun j k => wt (ix2 k j))
    (fun j => b2 (ix2 (0 : Fin 1) j)) (fun j => g2 (ix2 (0 : Fin 1) j)) (fun j => be2 (ix2 (0 : Fin 1) j)) (i 0) (i 1)

/-- The region's result array as a function of its six operand arrays at entry. -/
def G (c : Dev nD) : S20000x256.Idx → EReal :=
  stageK (V c main_v47) (V c main_v28_0) (V c main_v15) (V c main_v48) (V c main_v49) (V c main_v50)

theorem hz : (![0, 0] : Fin 2 → Nat) = fun _ => 0 := funext fun a => by fin_cases a <;> rfl

/-- The printed index maps over the grid: the message, state and output windows take block row `t`, the weight and
    the three rows are one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem N_eq : cfg3.N = 10 := rfl

/-- Row `p` of point `t`'s block is row `2000 t + p` of the array. -/
def row (t : Fin cfg3.N) (p : Fin 2000) : Fin 20000 := ⟨t.val * 2000 + p.val, by have h : t.val < 10 := t.isLt; omega⟩

/-- The message block read at an entry. -/
theorem msg_blk (c : Dev nD) (t : Fin cfg3.N) (p : Fin 2000) (k : Fin 256) :
    iblk3 V c 0 t (ix2 p k) = V c main_v47 (ix2 (row t p) k) := by
  obtain ⟨e0, e1, -⟩ := idx_facts t
  show V c main_v47 (((cfg3.win 0).blk t).view.emb (ix2 p k)) = _
  refine congrArg (V c main_v47) ?_
  funext a; apply Fin.ext
  match a with
  | ⟨0, _⟩ => show win3_0.index t (0 : Fin 2) * 2000 + 1 * p.val = t.val * 2000 + p.val; omega
  | ⟨1, _⟩ => show win3_0.index t (1 : Fin 2) * 256 + 1 * k.val = k.val; omega

/-- The state block read at an entry. -/
theorem h_blk (c : Dev nD) (t : Fin cfg3.N) (p : Fin 2000) (k : Fin 256) :
    iblk3 V c 1 t (ix2 p k) = V c main_v28_0 (ix2 (row t p) k) := by
  obtain ⟨-, -, e0, e1, -⟩ := idx_facts t
  show V c main_v28_0 (((cfg3.win 1).blk t).view.emb (ix2 p k)) = _
  refine congrArg (V c main_v28_0) ?_
  funext a; apply Fin.ext
  match a with
  | ⟨0, _⟩ => show win3_1.index t (0 : Fin 2) * 2000 + 1 * p.val = t.val * 2000 + p.val; omega
  | ⟨1, _⟩ => show win3_1.index t (1 : Fin 2) * 256 + 1 * k.val = k.val; omega

/-- The weight's one block is the weight. -/
theorem w_blk (c : Dev nD) (t : Fin cfg3.N) (k j : Fin 256) :
    iblk3 V c 2 t (ix2 k j) = V c main_v15 (ix2 k j) := by
  obtain ⟨-, -, -, -, e0, e1, -⟩ := idx_facts t
  show V c main_v15 (((cfg3.win 2).blk t).view.emb (ix2 k j)) = _
  refine congrArg (V c main_v15) ?_
  funext a; apply Fin.ext
  match a with
  | ⟨0, _⟩ => show win3_2.index t (0 : Fin 2) * 256 + 1 * k.val = k.val; omega
  | ⟨1, _⟩ => show win3_2.index t (1 : Fin 2) * 256 + 1 * j.val = j.val; omega

/-- Each one-row operand's one block is the row. -/
theorem b_blk (c : Dev nD) (t : Fin cfg3.N) (j : Fin 256) :
    iblk3 V c 3 t (ix2 (0 : Fin 1) j) = V c main_v48 (ix2 (0 : Fin 1) j) := by
  obtain ⟨-, -, -, -, -, -, e0, e1, -⟩ := idx_facts t
  show V c main_v48 (((cfg3.win 3).blk t).view.emb (ix2 (0 : Fin 1) j)) = _
  refine congrArg (V c main_v48) ?_
  funext a; apply Fin.ext
  match a with
  | ⟨0, _⟩ => show win3_3.index t (0 : Fin 2) * 1 + 1 * 0 = 0; omega
  | ⟨1, _⟩ => show win3_3.index t (1 : Fin 2) * 256 + 1 * j.val = j.val; omega
theorem g_blk (c : Dev nD) (t : Fin cfg3.N) (j : Fin 256) :
    iblk3 V c 4 t (ix2 (0 : Fin 1) j) = V c main_v49 (ix2 (0 : Fin 1) j) := by
  obtain ⟨-, -, -, -, -, -, -, -, e0, e1, -⟩ := idx_facts t
  show V c main_v49 (((cfg3.win 4).blk t).view.emb (ix2 (0 : Fin 1) j)) = _
  refine congrArg (V c main_v49) ?_
  funext a; apply Fin.ext
  match a with
  | ⟨0, _⟩ => show win3_4.index t (0 : Fin 2) * 1 + 1 * 0 = 0; omega
  | ⟨1, _⟩ => show win3_4.index t (1 : Fin 2) * 256 + 1 * j.val = j.val; omega
theorem be_blk (c : Dev nD) (t : Fin cfg3.N) (j : Fin 256) :
    iblk3 V c 5 t (ix2 (0 : Fin 1) j) = V c main_v50 (ix2 (0 : Fin 1) j) := by
  obtain ⟨-, -, -, -, -, -, -, -, -, -, e0, e1, -⟩ := idx_facts t
  show V c main_v50 (((cfg3.win 5).blk t).view.emb (ix2 (0 : Fin 1) j)) = _
  refine congrArg (V c main_v50) ?_
  funext a; apply Fin.ext
  match a with
  | ⟨0, _⟩ => show win3_5.index t (0 : Fin 2) * 1 + 1 * 0 = 0; omega
  | ⟨1, _⟩ => show win3_5.index t (1 : Fin 2) * 256 + 1 * j.val = j.val; omega

/-- The body's result at entry `(p, j)` of point `t`'s block is the stage at row `2000 t + p` of the arrays. -/
theorem pay_at (c : Dev nD) (t : Fin cfg3.N) (p : Fin 2000) (j : Fin 256) :
    k3_pay1 (F := Ideal) (iblk3 V c 0 t) (iblk3 V c 2 t) (iblk3 V c 3 t) (iblk3 V c 1 t) (iblk3 V c 4 t) (iblk3 V c 5 t) (ix2 p j)
      = G V c (ix2 (row t p) j) := by
  refine (Cert.PayStage.k3_pay1_apply (iblk3 V c 0 t) (iblk3 V c 2 t) (iblk3 V c 3 t) (iblk3 V c 1 t) (iblk3 V c 4 t) (iblk3 V c 5 t) p j).trans ?_
  have hG : G V c (ix2 (row t p) j) = Cert.Spec.stageAt (fun r k => V c main_v47 (ix2 r k)) (fun r k => V c main_v28_0 (ix2 r k))
      (fun j k => V c main_v15 (ix2 k j)) (fun j => V c main_v48 (ix2 (0 : Fin 1) j)) (fun j => V c main_v49 (ix2 (0 : Fin 1) j))
      (fun j => V c main_v50 (ix2 (0 : Fin 1) j)) (row t p) j := rfl
  rw [hG]
  have hw : (fun j k : Fin 256 => iblk3 V c 2 t (ix2 k j)) = fun j k => V c main_v15 (ix2 k j) := by
    funext j k; exact w_blk V c t k j
  have hb : (fun j : Fin 256 => iblk3 V c 3 t (ix2 (0 : Fin 1) j)) = fun j => V c main_v48 (ix2 (0 : Fin 1) j) := by
    funext j; exact b_blk V c t j
  have hg : (fun j : Fin 256 => iblk3 V c 4 t (ix2 (0 : Fin 1) j)) = fun j => V c main_v49 (ix2 (0 : Fin 1) j) := by
    funext j; exact g_blk V c t j
  have hbe : (fun j : Fin 256 => iblk3 V c 5 t (ix2 (0 : Fin 1) j)) = fun j => V c main_v50 (ix2 (0 : Fin 1) j) := by
    funext j; exact be_blk V c t j
  rw [hw, hb, hg, hbe]
  exact Cert.Spec.stageAt_congr _ _ _ _ _ _ _ _ p (row t p) (fun k => msg_blk V c t p k) (fun k => h_blk V c t p k) j

/-- What point `t` writes back through the f32 output window is block `t` of `G`. -/
theorem flushed6_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x256) hz, View.ld_unit_zero (S := S1x256) hz]
  funext y
  obtain ⟨-, -, -, -, -, -, -, -, -, -, -, -, e0, e1⟩ := idx_facts t
  have hy : y = ix2 (n0 := 2000) (n1 := 256) (y 0) (y 1) := eq_ix2 y
  show k3_pay1 (F := Ideal) (iblk3 V c 0 t) (iblk3 V c 2 t) (iblk3 V c 3 t) (iblk3 V c 1 t) (iblk3 V c 4 t) (iblk3 V c 5 t) y
    = G V c (((cfg3.win 6).blk t).view.emb y)
  rw [hy, pay_at V c t (y 0) (y 1)]
  refine congrArg (G V c) ?_
  funext a; apply Fin.ext
  match a with
  | ⟨0, _⟩ => show t.val * 2000 + (y 0).val = win3_6.index t (0 : Fin 2) * 2000 + 1 * (y 0).val; omega
  | ⟨1, _⟩ => show (y 1).val = win3_6.index t (1 : Fin 2) * 256 + 1 * (y 1).val; omega

/-- An index of the array is in point `t`'s output block iff each coordinate is in the block's range. -/
theorem mem_blk6 (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v51).slice (win3_6.rect t)).set ↔ _
  rw [View.set_slice_whole, Rect.mem_set_unit]
  exact Iff.rfl

/-- Every entry of the array lies in the block of the point its row falls in. -/
theorem cover6 (i : S20000x256.Idx) :
    ∃ t : Fin cfg3.N, (cfg3.win 6).flush t = true ∧ i ∈ ((cfg3.win 6).blk t).view.set := by
  have hi0 : (i 0).val < 20000 := (i 0).isLt
  have hi1 : (i 1).val < 256 := (i 1).isLt
  let t : Fin cfg3.N := ⟨(i 0).val / 2000, by show _ < 10; omega⟩
  obtain ⟨-, -, -, -, -, -, -, -, -, -, -, -, e0, e1⟩ := idx_facts t
  have ht : t.val = (i 0).val / 2000 := rfl
  refine ⟨t, flush3_6 t, ?_⟩
  rw [mem_blk6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 256 ≤ (i 1).val ∧ (i 1).val < win3_6.index t (1 : Fin 2) * 256 + 256; omega

/-- The f32 result array after the region is `G` of the operand arrays at entry. -/
theorem final6 (c : Dev nD) : (dat3 V c).arrAt 6 cfg3.N = G V c :=
  (dat3 V c).arrAt_eq_of_cover 6 (G V c) (fun t _ => flushed6_eq V c t) cover6

end Cert.KernelIdeal.Region3
end
-- ==== Proof.StageArr.lean ====
/-
  A stage as a function of whole arrays: entry `i` of the result is the row-level stage (Spec.lean) of the rows of
  the message and state arrays, the weight read as the linear map's matrix (`W (j, k)` multiplies input column `k`
  into output column `j`), and the bias, scale and shift vectors.

  The kernel holds the same operands in another layout — the weight transposed, the three vectors as one-row
  arrays —; `stage_of_kernel_layout` says that reading them in that layout gives the same function.
-/
import proofs.«419988_j26946624815680_3_alg».proof.Proof.Spec

noncomputable section

namespace Cert.Spec

open Idealize.ShloMosaic Idealize.ShloMosaic.ValueIdx

/-- The stage over arrays `[M, 256]`, `[256, 256]` and `[256]`. -/
def stageArr {M : ℕ} (msg h : (⟨2, ![M, 256]⟩ : Shape).Idx → EReal) (W : (⟨2, ![256, 256]⟩ : Shape).Idx → EReal)
    (b g be : (⟨1, ![256]⟩ : Shape).Idx → EReal) : (⟨2, ![M, 256]⟩ : Shape).Idx → EReal := fun i =>
  stageAt (fun r k => msg (ix2 r k)) (fun r k => h (ix2 r k)) (fun j k => W (ix2 j k))
    (fun j => b (ix1 j)) (fun j => g (ix1 j)) (fun j => be (ix1 j)) (i 0) (i 1)

theorem stageArr_apply {M : ℕ} (msg h : (⟨2, ![M, 256]⟩ : Shape).Idx → EReal) (W : (⟨2, ![256, 256]⟩ : Shape).Idx → EReal)
    (b g be : (⟨1, ![256]⟩ : Shape).Idx → EReal) (r : Fin M) (j : Fin 256) :
    stageArr msg h W b g be (ix2 r j) = stageAt (fun r k => msg (ix2 r k)) (fun r k => h (ix2 r k)) (fun j k => W (ix2 j k))
      (fun j => b (ix1 j)) (fun j => g (ix1 j)) (fun j => be (ix1 j)) r j := rfl

/-- An array whose every entry is the row-level stage of the same operands is `stageArr` of them. -/
theorem eq_stageArr {M : ℕ} (X msg h : (⟨2, ![M, 256]⟩ : Shape).Idx → EReal) (W : (⟨2, ![256, 256]⟩ : Shape).Idx → EReal)
    (b g be : (⟨1, ![256]⟩ : Shape).Idx → EReal)
    (hX : ∀ (r : Fin M) (j : Fin 256), X (ix2 r j) = stageAt (fun r k => msg (ix2 r k)) (fun r k => h (ix2 r k))
      (fun j k => W (ix2 j k)) (fun j => b (ix1 j)) (fun j => g (ix1 j)) (fun j => be (ix1 j)) r j) :
    X = stageArr msg h W b g be := by
  funext i
  rw [eq_ix2 i]
  exact hX (i 0) (i 1)

/-- The stage read off operands in the kernel's layout: the weight given transposed (`wt (k, j) = W (j, k)`), the three
    vectors as one-row arrays. -/
theorem stage_of_kernel_layout {M : ℕ} (msg h : (⟨2, ![M, 256]⟩ : Shape).Idx → EReal)
    (wt W : (⟨2, ![256, 256]⟩ : Shape).Idx → EReal) (b2 g2 be2 : (⟨2, ![1, 256]⟩ : Shape).Idx → EReal)
    (b g be : (⟨1, ![256]⟩ : Shape).Idx → EReal)
    (hW : ∀ k j : Fin 256, wt (ix2 k j) = W (ix2 j k)) (hb : ∀ j : Fin 256, b2 (ix2 (0 : Fin 1) j) = b (ix1 j))
    (hg : ∀ j : Fin 256, g2 (ix2 (0 : Fin 1) j) = g (ix1 j)) (hbe : ∀ j : Fin 256, be2 (ix2 (0 : Fin 1) j) = be (ix1 j)) :
    (fun i : (⟨2, ![M, 256]⟩ : Shape).Idx => stageAt (fun r k => msg (ix2 r k)) (fun r k => h (ix2 r k)) (fun j k => wt (ix2 k j))
      (fun j => b2 (ix2 (0 : Fin 1) j)) (fun j => g2 (ix2 (0 : Fin 1) j)) (fun j => be2 (ix2 (0 : Fin 1) j)) (i 0) (i 1))
      = stageArr msg h W b g be := by
  have e1 : (fun j k : Fin 256 => wt (ix2 k j)) = fun j k => W (ix2 j k) := by funext j k; exact hW k j
  have e2 : (fun j : Fin 256 => b2 (ix2 (0 : Fin 1) j)) = fun j => b (ix1 j) := by funext j; exact hb j
  have e3 : (fun j : Fin 256 => g2 (ix2 (0 : Fin 1) j)) = fun j => g (ix1 j) := by funext j; exact hg j
  have e4 : (fun j : Fin 256 => be2 (ix2 (0 : Fin 1) j)) = fun j => be (ix1 j) := by funext j; exact hbe j
  unfold stageArr
  rw [e1, e2, e3, e4]

end Cert.Spec

end
-- ==== Proof.KernelValue.lean ====
/-
  The kernel program's buffers at the boundaries between its host stretches and its four regions, read back to the
  launch memory.

  A host stretch's result is its operations' term of what the stretch found; a buffer a stretch or a region does not
  write holds what it held before; a region's output array is the stage of its operand arrays at entry
  (Region0 … Region3). Chained from the launch to the return, each of the three results is a composition of four
  stages and the scatter-mean and row-gather between them, of the argument arrays alone.
-/
import proofs.«419988_j26946624815680_3_alg».proof.Proof.Gen.KernelIdeal.Frame
import proofs.«419988_j26946624815680_3_alg».proof.Proof.KernelKeep
import proofs.«419988_j26946624815680_3_alg».proof.Proof.Region0
import proofs.«419988_j26946624815680_3_alg».proof.Proof.Region1
import proofs.«419988_j26946624815680_3_alg».proof.Proof.Region2
import proofs.«419988_j26946624815680_3_alg».proof.Proof.Region3
import proofs.«419988_j26946624815680_3_alg».proof.Proof.StageArr
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Value

open Cert.KernelIdeal Cert.KernelIdeal.Gen Cert.KernelIdeal.Keep
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-! ## The glue between the stages, as functions of arrays -/

/-- The mean of the 200000 source rows over each of 20000 segments: the rows summed into their segment's row, divided
    by the segment's count, a count of zero read as one. -/
def segMean0 (src : FVec Ideal S200000x256 .f32) (idx : IVec S200000 32) : FVec Ideal S20000x256 .f32 :=
  Host.divf (Host.scatterAdd scatter_S20000x256_S200000x1_S200000x256_1_0_0_1 (broadcastInDim S20000x256 ![] bcast_S_S20000x256 (constant S_ .f32 0x00000000#32)) (broadcastInDim S200000x1 ![0] bcast_S200000_S200000x1_0 idx) src) (broadcastInDim S20000x256 ![0, 1] bcast_S20000x1_S20000x256_0_1 (broadcastInDim S20000x1 ![0] bcast_S20000_S20000x1_0 (maximumf (Host.scatterAdd scatter_S20000_S200000x1_S200000_n_0_0_1 (broadcastInDim S20000 ![] bcast_S_S20000 (constant S_ .f32 0x00000000#32)) (broadcastInDim S200000x1 ![0] bcast_S200000_S200000x1_0 idx) (broadcastInDim S200000 ![] bcast_S_S200000 (constant S_ .f32 0x3F800000#32))) (broadcastInDim S20000 ![] bcast_S_S20000 (constant S_ .f32 0x3F800000#32)))))

/-- The count of the 20000 rows falling in each of 2000 segments. -/
def segCount1 (idx : IVec S20000 32) : FVec Ideal S2000 .f32 :=
  Host.scatterAdd scatter_S2000_S20000x1_S20000_n_0_0_1 (broadcastInDim S2000 ![] bcast_S_S2000 (constant S_ .f32 0x00000000#32)) (broadcastInDim S20000x1 ![0] bcast_S20000_S20000x1_0 idx) (broadcastInDim S20000 ![] bcast_S_S20000 (constant S_ .f32 0x3F800000#32))

/-- The 20000 source rows summed into their segment's row and divided by a given count per segment, a count of zero
    read as one. -/
def segMeanWith (src : FVec Ideal S20000x256 .f32) (idx : IVec S20000 32) (cnt : FVec Ideal S2000 .f32) : FVec Ideal S2000x256 .f32 :=
  Host.divf (Host.scatterAdd scatter_S2000x256_S20000x1_S20000x256_1_0_0_1 (broadcastInDim S2000x256 ![] bcast_S_S2000x256 (constant S_ .f32 0x00000000#32)) (broadcastInDim S20000x1 ![0] bcast_S20000_S20000x1_0 idx) src) (broadcastInDim S2000x256 ![0, 1] bcast_S2000x1_S2000x256_0_1 (broadcastInDim S2000x1 ![0] bcast_S2000_S2000x1_0 (maximumf cnt (broadcastInDim S2000 ![] bcast_S_S2000 (constant S_ .f32 0x3F800000#32)))))

/-- The mean of the 20000 source rows over each of 2000 segments. -/
def segMean1 (src : FVec Ideal S20000x256 .f32) (idx : IVec S20000 32) : FVec Ideal S2000x256 .f32 :=
  segMeanWith src idx (segCount1 idx)

/-- Row `idx r` of a 20000-row table for each of 200000 positions `r` (the position clamped into the table). -/
def takeRows0 (tbl : S20000x256.Idx → EReal) (idx : IVec S200000 32) : S200000x256.Idx → EReal :=
  Host.gather gather_S20000x256_S200000x1_S200000x256_1_0_n_n_0_1_1256 tbl (broadcastInDim S200000x1 ![0] bcast_S200000_S200000x1_0 idx)

/-- Row `idx r` of a 2000-row table for each of 20000 positions `r`. -/
def takeRows1 (tbl : S2000x256.Idx → EReal) (idx : IVec S20000 32) : S20000x256.Idx → EReal :=
  Host.gather gather_S2000x256_S20000x1_S20000x256_1_0_n_n_0_1_1256 tbl (broadcastInDim S20000x1 ![0] bcast_S20000_S20000x1_0 idx)

/-- An argument array at launch. -/
abbrev arg (c : Dev nD) (r : Ref sig .tc) : Buf (Elt Ideal) ((c : Thread nD τ).loc r) := m ((c : Thread nD τ).loc r)

/-! ## The first stretch: everything before region 0 -/

theorem W1_keep (c : Dev nD) (r : Ref sig .tc) (h : r ∉ written0) : W1 m ρ c (Proc.devRef .tc r) = arg m c r :=
  keep0 (W0 m ρ c) r h

set_option maxHeartbeats 2000000 in
theorem W1_v24 (c : Dev nD) : W1 m ρ c (Proc.devRef .tc main_v24) = segMean0 (arg m c main_arg0) (arg m c main_arg3) := by
  show StableHlo.after hostOps0 (W0 m ρ c) (Proc.devRef .tc main_v24) = _
  simp only [hostOps0]
  after_results_simp
  rfl

theorem W1_v7 (c : Dev nD) : W1 m ρ c (Proc.devRef .tc main_v7) = segCount1 (arg m c main_arg4) := by
  show StableHlo.after hostOps0 (W0 m ρ c) (Proc.devRef .tc main_v7) = _
  after_results
  rfl
theorem W1_v9 (c : Dev nD) : W1 m ρ c (Proc.devRef .tc main_v9) = transpose S256x256 [1, 0] (arg m c main_arg5) transposes_S256x256_S256x256_1_0 := by
  show StableHlo.after hostOps0 (W0 m ρ c) (Proc.devRef .tc main_v9) = _
  after_results
  rfl
theorem W1_v11 (c : Dev nD) : W1 m ρ c (Proc.devRef .tc main_v11) = transpose S256x256 [1, 0] (arg m c main_arg7) transposes_S256x256_S256x256_1_0 := by
  show StableHlo.after hostOps0 (W0 m ρ c) (Proc.devRef .tc main_v11) = _
  after_results
  rfl
theorem W1_v13 (c : Dev nD) : W1 m ρ c (Proc.devRef .tc main_v13) = transpose S256x256 [1, 0] (arg m c main_arg9) transposes_S256x256_S256x256_1_0 := by
  show StableHlo.after hostOps0 (W0 m ρ c) (Proc.devRef .tc main_v13) = _
  after_results
  rfl
theorem W1_v15 (c : Dev nD) : W1 m ρ c (Proc.devRef .tc main_v15) = transpose S256x256 [1, 0] (arg m c main_arg11) transposes_S256x256_S256x256_1_0 := by
  show StableHlo.after hostOps0 (W0 m ρ c) (Proc.devRef .tc main_v15) = _
  after_results
  rfl
theorem W1_v25 (c : Dev nD) : W1 m ρ c (Proc.devRef .tc main_v25) = shapeCast S1x256 (arg m c main_arg6) shapeCasts_S256_S1x256 := by
  show StableHlo.after hostOps0 (W0 m ρ c) (Proc.devRef .tc main_v25) = _
  after_results
  rfl
theorem W1_v26 (c : Dev nD) : W1 m ρ c (Proc.devRef .tc main_v26) = shapeCast S1x256 (arg m c main_arg15) shapeCasts_S256_S1x256 := by
  show StableHlo.after hostOps0 (W0 m ρ c) (Proc.devRef .tc main_v26) = _
  after_results
  rfl
theorem W1_v27 (c : Dev nD) : W1 m ρ c (Proc.devRef .tc main_v27) = shapeCast S1x256 (arg m c main_arg16) shapeCasts_S256_S1x256 := by
  show StableHlo.after hostOps0 (W0 m ρ c) (Proc.devRef .tc main_v27) = _
  after_results
  rfl

/-! ## Operands in the kernel's layout -/

/-- The transposed weight at `(k, j)` is the weight at `(j, k)`. -/
theorem wt_apply (W : FVec Ideal S256x256 .f32) (k j : Fin 256) :
    transpose S256x256 [1, 0] W transposes_S256x256_S256x256_1_0 (ix2 k j) = W (ix2 j k) :=
  transpose_ix2_apply W _ k j
/-- A vector laid out as one row, at `(0, j)`, is the vector at `j`. -/
theorem row_apply (x : FVec Ideal S256 .f32) (j : Fin 256) :
    shapeCast S1x256 x shapeCasts_S256_S1x256 (ix2 (0 : Fin 1) j) = x (ix1 j) :=
  shapeCast_a_1a_apply x _ 0 j

/-! ## One step at a time: a buffer a region or a stretch leaves alone -/

theorem s2 (c : Dev nD) (r : Ref sig .tc) (h : ∀ w, Pipeline.arrRef spec0 w ≠ r) : W2 m ρ c (Proc.devRef .tc r) = W1 m ρ c (Proc.devRef .tc r) := W2_of_ne m ρ c r h
theorem s3 (c : Dev nD) (r : Ref sig .tc) (h : r ∉ written1) : W3 m ρ c (Proc.devRef .tc r) = W2 m ρ c (Proc.devRef .tc r) := keep1 (W2 m ρ c) r h
theorem s4 (c : Dev nD) (r : Ref sig .tc) (h : r ∉ written1_1) : W4 m ρ c (Proc.devRef .tc r) = W3 m ρ c (Proc.devRef .tc r) := keep1_1 (W3 m ρ c) r h
theorem s5 (c : Dev nD) (r : Ref sig .tc) (h : ∀ w, Pipeline.arrRef spec1 w ≠ r) : W5 m ρ c (Proc.devRef .tc r) = W4 m ρ c (Proc.devRef .tc r) := W5_of_ne m ρ c r h
theorem s6 (c : Dev nD) (r : Ref sig .tc) (h : r ∉ written2) : W6 m ρ c (Proc.devRef .tc r) = W5 m ρ c (Proc.devRef .tc r) := keep2 (W5 m ρ c) r h
theorem s7 (c : Dev nD) (r : Ref sig .tc) (h : ∀ w, Pipeline.arrRef spec2 w ≠ r) : W7 m ρ c (Proc.devRef .tc r) = W6 m ρ c (Proc.devRef .tc r) := W7_of_ne m ρ c r h
theorem s8 (c : Dev nD) (r : Ref sig .tc) (h : r ∉ written3) : W8 m ρ c (Proc.devRef .tc r) = W7 m ρ c (Proc.devRef .tc r) := keep3 (W7 m ρ c) r h
theorem s9 (c : Dev nD) (r : Ref sig .tc) (h : r ∉ written3_1) : W9 m ρ c (Proc.devRef .tc r) = W8 m ρ c (Proc.devRef .tc r) := keep3_1 (W8 m ρ c) r h
theorem s10 (c : Dev nD) (r : Ref sig .tc) (h : ∀ w, Pipeline.arrRef spec3 w ≠ r) : W10 m ρ c (Proc.devRef .tc r) = W9 m ρ c (Proc.devRef .tc r) := W10_of_ne m ρ c r h

/-- Nothing from the end of the first stretch to region 1's entry touches the buffer. -/
def Upto4 (r : Ref sig .tc) : Prop := (∀ w, Pipeline.arrRef spec0 w ≠ r) ∧ r ∉ written1 ∧ r ∉ written1_1
/-- Nor anything from there to region 2's entry. -/
def Upto6 (r : Ref sig .tc) : Prop := Upto4 r ∧ (∀ w, Pipeline.arrRef spec1 w ≠ r) ∧ r ∉ written2
/-- Nor anything from there to region 3's entry. -/
def Upto9 (r : Ref sig .tc) : Prop := Upto6 r ∧ (∀ w, Pipeline.arrRef spec2 w ≠ r) ∧ r ∉ written3 ∧ r ∉ written3_1
instance (r : Ref sig .tc) : Decidable (Upto4 r) := by unfold Upto4; infer_instance
instance (r : Ref sig .tc) : Decidable (Upto6 r) := by unfold Upto6; infer_instance
instance (r : Ref sig .tc) : Decidable (Upto9 r) := by unfold Upto9; infer_instance

theorem W3_W1 (c : Dev nD) (r : Ref sig .tc) (h : Upto4 r) : W3 m ρ c (Proc.devRef .tc r) = W1 m ρ c (Proc.devRef .tc r) :=
  (s3 m ρ c r h.2.1).trans (s2 m ρ c r h.1)
theorem W4_W1 (c : Dev nD) (r : Ref sig .tc) (h : Upto4 r) : W4 m ρ c (Proc.devRef .tc r) = W1 m ρ c (Proc.devRef .tc r) :=
  (s4 m ρ c r h.2.2).trans (W3_W1 m ρ c r h)
theorem W5_W1 (c : Dev nD) (r : Ref sig .tc) (h : Upto6 r) : W5 m ρ c (Proc.devRef .tc r) = W1 m ρ c (Proc.devRef .tc r) :=
  (s5 m ρ c r h.2.1).trans (W4_W1 m ρ c r h.1)
theorem W6_W1 (c : Dev nD) (r : Ref sig .tc) (h : Upto6 r) : W6 m ρ c (Proc.devRef .tc r) = W1 m ρ c (Proc.devRef .tc r) :=
  (s6 m ρ c r h.2.2).trans (W5_W1 m ρ c r h)
theorem W7_W1 (c : Dev nD) (r : Ref sig .tc) (h : Upto9 r) : W7 m ρ c (Proc.devRef .tc r) = W1 m ρ c (Proc.devRef .tc r) :=
  (s7 m ρ c r h.2.1).trans (W6_W1 m ρ c r h.1)
theorem W8_W1 (c : Dev nD) (r : Ref sig .tc) (h : Upto9 r) : W8 m ρ c (Proc.devRef .tc r) = W1 m ρ c (Proc.devRef .tc r) :=
  (s8 m ρ c r h.2.2.1).trans (W7_W1 m ρ c r h)
theorem W9_W1 (c : Dev nD) (r : Ref sig .tc) (h : Upto9 r) : W9 m ρ c (Proc.devRef .tc r) = W1 m ρ c (Proc.devRef .tc r) :=
  (s9 m ρ c r h.2.2.2).trans (W8_W1 m ρ c r h)

/-! ## Region 0: the first bottom-up stage -/

/-- The 20000-row state after the first bottom-up stage. -/
def K1 (c : Dev nD) : S20000x256.Idx → EReal :=
  Cert.Spec.stageArr (segMean0 (arg m c main_arg0) (arg m c main_arg3)) (arg m c main_arg1) (arg m c main_arg5) (arg m c main_arg6) (arg m c main_arg15) (arg m c main_arg16)

theorem G0_eq (c : Dev nD) : Region0.G (V1 m ρ) c = K1 m c := by
  show Region0.stageK (W1 m ρ c (Proc.devRef .tc main_v24)) (W1 m ρ c (Proc.devRef .tc main_arg1)) (W1 m ρ c (Proc.devRef .tc main_v9)) (W1 m ρ c (Proc.devRef .tc main_v25)) (W1 m ρ c (Proc.devRef .tc main_v26)) (W1 m ρ c (Proc.devRef .tc main_v27)) = _
  rw [W1_v24, W1_keep m ρ c main_arg1 (by decide), W1_v9, W1_v25, W1_v26, W1_v27]
  unfold Region0.stageK
  exact Cert.Spec.stage_of_kernel_layout _ _ _ _ _ _ _ _ _ _ (wt_apply _) (row_apply _) (row_apply _) (row_apply _)

theorem W2_v28_0 (c : Dev nD) : W2 m ρ c (Proc.devRef .tc main_v28_0) = K1 m c := by
  show W2 m ρ c (Proc.devRef .tc (Pipeline.arrRef spec0 6)) = _
  exact (W2_arr m ρ c 6).trans ((Region0.final6 (V1 m ρ) c).trans (G0_eq m ρ c))
theorem W2_v28_1 (c : Dev nD) : W2 m ρ c (Proc.devRef .tc main_v28_1) = K1 m c := by
  show W2 m ρ c (Proc.devRef .tc (Pipeline.arrRef spec0 7)) = _
  exact (W2_arr m ρ c 7).trans ((Region0.final7 (V1 m ρ) c).trans (G0_eq m ρ c))

/-! ## Region 1: the first top-down stage -/

theorem W3_v29 (c : Dev nD) : W3 m ρ c (Proc.devRef .tc main_v29) = takeRows0 (K1 m c) (arg m c main_arg3) := by
  have e : W3 m ρ c (Proc.devRef .tc main_v29) = takeRows0 (W2 m ρ c (Proc.devRef .tc main_v28_1)) (W2 m ρ c (Proc.devRef .tc main_arg3)) := by
    show StableHlo.after hostOps1 (W2 m ρ c) (Proc.devRef .tc main_v29) = _
    after_results
    rfl
  rw [e, W2_v28_1, s2 m ρ c main_arg3 (by decide), W1_keep m ρ c main_arg3 (by decide)]
theorem W4_v30 (c : Dev nD) : W4 m ρ c (Proc.devRef .tc main_v30) = shapeCast S1x256 (arg m c main_arg8) shapeCasts_S256_S1x256 := by
  have e : W4 m ρ c (Proc.devRef .tc main_v30) = shapeCast S1x256 (W3 m ρ c (Proc.devRef .tc main_arg8)) shapeCasts_S256_S1x256 := by
    show StableHlo.after hostOps1_1 (W3 m ρ c) (Proc.devRef .tc main_v30) = _
    after_results
    rfl
  rw [e, W3_W1 m ρ c main_arg8 (by decide), W1_keep m ρ c main_arg8 (by decide)]
theorem W4_v31 (c : Dev nD) : W4 m ρ c (Proc.devRef .tc main_v31) = shapeCast S1x256 (arg m c main_arg13) shapeCasts_S256_S1x256 := by
  have e : W4 m ρ c (Proc.devRef .tc main_v31) = shapeCast S1x256 (W3 m ρ c (Proc.devRef .tc main_arg13)) shapeCasts_S256_S1x256 := by
    show StableHlo.after hostOps1_1 (W3 m ρ c) (Proc.devRef .tc main_v31) = _
    after_results
    rfl
  rw [e, W3_W1 m ρ c main_arg13 (by decide), W1_keep m ρ c main_arg13 (by decide)]
theorem W4_v32 (c : Dev nD) : W4 m ρ c (Proc.devRef .tc main_v32) = shapeCast S1x256 (arg m c main_arg14) shapeCasts_S256_S1x256 := by
  have e : W4 m ρ c (Proc.devRef .tc main_v32) = shapeCast S1x256 (W3 m ρ c (Proc.devRef .tc main_arg14)) shapeCasts_S256_S1x256 := by
    show StableHlo.after hostOps1_1 (W3 m ρ c) (Proc.devRef .tc main_v32) = _
    after_results
    rfl
  rw [e, W3_W1 m ρ c main_arg14 (by decide), W1_keep m ρ c main_arg14 (by decide)]

/-- The 200000-row result: the first top-down stage. -/
def K2 (c : Dev nD) : S200000x256.Idx → EReal :=
  Cert.Spec.stageArr (takeRows0 (K1 m c) (arg m c main_arg3)) (arg m c main_arg0) (arg m c main_arg7) (arg m c main_arg8) (arg m c main_arg13) (arg m c main_arg14)

theorem G1_eq (c : Dev nD) : Region1.G (V4 m ρ) c = K2 m c := by
  show Region1.stageK (W4 m ρ c (Proc.devRef .tc main_v29)) (W4 m ρ c (Proc.devRef .tc main_arg0)) (W4 m ρ c (Proc.devRef .tc main_v11)) (W4 m ρ c (Proc.devRef .tc main_v30)) (W4 m ρ c (Proc.devRef .tc main_v31)) (W4 m ρ c (Proc.devRef .tc main_v32)) = _
  rw [s4 m ρ c main_v29 (by decide), W3_v29, W4_W1 m ρ c main_arg0 (by decide), W1_keep m ρ c main_arg0 (by decide),
    W4_W1 m ρ c main_v11 (by decide), W1_v11, W4_v30, W4_v31, W4_v32]
  unfold Region1.stageK
  exact Cert.Spec.stage_of_kernel_layout _ _ _ _ _ _ _ _ _ _ (wt_apply _) (row_apply _) (row_apply _) (row_apply _)

theorem W5_v33 (c : Dev nD) : W5 m ρ c (Proc.devRef .tc main_v33) = K2 m c := by
  show W5 m ρ c (Proc.devRef .tc (Pipeline.arrRef spec1 6)) = _
  exact (W5_arr m ρ c 6).trans ((Region1.final6 (V4 m ρ) c).trans (G1_eq m ρ c))

/-! ## Region 2: the second bottom-up stage -/

/-- The first stage's state reaches the later stretches unchanged. -/
theorem W5_v28_0 (c : Dev nD) : W5 m ρ c (Proc.devRef .tc main_v28_0) = K1 m c :=
  (s5 m ρ c main_v28_0 (by decide)).trans ((s4 m ρ c main_v28_0 (by decide)).trans ((s3 m ρ c main_v28_0 (by decide)).trans (W2_v28_0 m ρ c)))

theorem W6_v42 (c : Dev nD) : W6 m ρ c (Proc.devRef .tc main_v42) = segMean1 (K1 m c) (arg m c main_arg4) := by
  have e : W6 m ρ c (Proc.devRef .tc main_v42) = segMeanWith (W5 m ρ c (Proc.devRef .tc main_v28_0)) (W5 m ρ c (Proc.devRef .tc main_arg4)) (W5 m ρ c (Proc.devRef .tc main_v7)) := by
    show StableHlo.after hostOps2 (W5 m ρ c) (Proc.devRef .tc main_v42) = _
    after_results
    rfl
  rw [e, W5_v28_0, W5_W1 m ρ c main_arg4 (by decide), W1_keep m ρ c main_arg4 (by decide), W5_W1 m ρ c main_v7 (by decide), W1_v7]
  rfl
theorem W6_v43 (c : Dev nD) : W6 m ρ c (Proc.devRef .tc main_v43) = shapeCast S1x256 (arg m c main_arg10) shapeCasts_S256_S1x256 := by
  have e : W6 m ρ c (Proc.devRef .tc main_v43) = shapeCast S1x256 (W5 m ρ c (Proc.devRef .tc main_arg10)) shapeCasts_S256_S1x256 := by
    show StableHlo.after hostOps2 (W5 m ρ c) (Proc.devRef .tc main_v43) = _
    after_results
    rfl
  rw [e, W5_W1 m ρ c main_arg10 (by decide), W1_keep m ρ c main_arg10 (by decide)]
theorem W6_v44 (c : Dev nD) : W6 m ρ c (Proc.devRef .tc main_v44) = shapeCast S1x256 (arg m c main_arg17) shapeCasts_S256_S1x256 := by
  have e : W6 m ρ c (Proc.devRef .tc main_v44) = shapeCast S1x256 (W5 m ρ c (Proc.devRef .tc main_arg17)) shapeCasts_S256_S1x256 := by
    show StableHlo.after hostOps2 (W5 m ρ c) (Proc.devRef .tc main_v44) = _
    after_results
    rfl
  rw [e, W5_W1 m ρ c main_arg17 (by decide), W1_keep m ρ c main_arg17 (by decide)]
theorem W6_v45 (c : Dev nD) : W6 m ρ c (Proc.devRef .tc main_v45) = shapeCast S1x256 (arg m c main_arg18) shapeCasts_S256_S1x256 := by
  have e : W6 m ρ c (Proc.devRef .tc main_v45) = shapeCast S1x256 (W5 m ρ c (Proc.devRef .tc main_arg18)) shapeCasts_S256_S1x256 := by
    show StableHlo.after hostOps2 (W5 m ρ c) (Proc.devRef .tc main_v45) = _
    after_results
    rfl
  rw [e, W5_W1 m ρ c main_arg18 (by decide), W1_keep m ρ c main_arg18 (by decide)]

/-- The 2000-row result: the second bottom-up stage. -/
def K3 (c : Dev nD) : S2000x256.Idx → EReal :=
  Cert.Spec.stageArr (segMean1 (K1 m c) (arg m c main_arg4)) (arg m c main_arg2) (arg m c main_arg9) (arg m c main_arg10) (arg m c main_arg17) (arg m c main_arg18)

theorem G2_eq (c : Dev nD) : Region2.G (V6 m ρ) c = K3 m c := by
  show Region2.stageK (W6 m ρ c (Proc.devRef .tc main_v42)) (W6 m ρ c (Proc.devRef .tc main_arg2)) (W6 m ρ c (Proc.devRef .tc main_v13)) (W6 m ρ c (Proc.devRef .tc main_v43)) (W6 m ρ c (Proc.devRef .tc main_v44)) (W6 m ρ c (Proc.devRef .tc main_v45)) = _
  rw [W6_v42, W6_W1 m ρ c main_arg2 (by decide), W1_keep m ρ c main_arg2 (by decide),
    W6_W1 m ρ c main_v13 (by decide), W1_v13, W6_v43, W6_v44, W6_v45]
  unfold Region2.stageK
  exact Cert.Spec.stage_of_kernel_layout _ _ _ _ _ _ _ _ _ _ (wt_apply _) (row_apply _) (row_apply _) (row_apply _)

theorem W7_v46_0 (c : Dev nD) : W7 m ρ c (Proc.devRef .tc main_v46_0) = K3 m c := by
  show W7 m ρ c (Proc.devRef .tc (Pipeline.arrRef spec2 6)) = _
  exact (W7_arr m ρ c 6).trans ((Region2.final6 (V6 m ρ) c).trans (G2_eq m ρ c))
theorem W7_v46_1 (c : Dev nD) : W7 m ρ c (Proc.devRef .tc main_v46_1) = K3 m c := by
  show W7 m ρ c (Proc.devRef .tc (Pipeline.arrRef spec2 7)) = _
  exact (W7_arr m ρ c 7).trans ((Region2.final7 (V6 m ρ) c).trans (G2_eq m ρ c))

/-! ## Region 3: the second top-down stage -/

theorem W8_v47 (c : Dev nD) : W8 m ρ c (Proc.devRef .tc main_v47) = takeRows1 (K3 m c) (arg m c main_arg4) := by
  have e : W8 m ρ c (Proc.devRef .tc main_v47) = takeRows1 (W7 m ρ c (Proc.devRef .tc main_v46_1)) (W7 m ρ c (Proc.devRef .tc main_arg4)) := by
    show StableHlo.after hostOps3 (W7 m ρ c) (Proc.devRef .tc main_v47) = _
    after_results
    rfl
  rw [e, W7_v46_1, W7_W1 m ρ c main_arg4 (by decide), W1_keep m ρ c main_arg4 (by decide)]

theorem W9_v28_0 (c : Dev nD) : W9 m ρ c (Proc.devRef .tc main_v28_0) = K1 m c :=
  (s9 m ρ c main_v28_0 (by decide)).trans ((s8 m ρ c main_v28_0 (by decide)).trans ((s7 m ρ c main_v28_0 (by decide)).trans
    ((s6 m ρ c main_v28_0 (by decide)).trans (W5_v28_0 m ρ c))))
theorem W9_v48 (c : Dev nD) : W9 m ρ c (Proc.devRef .tc main_v48) = shapeCast S1x256 (arg m c main_arg12) shapeCasts_S256_S1x256 := by
  have e : W9 m ρ c (Proc.devRef .tc main_v48) = shapeCast S1x256 (W8 m ρ c (Proc.devRef .tc main_arg12)) shapeCasts_S256_S1x256 := by
    show StableHlo.after hostOps3_1 (W8 m ρ c) (Proc.devRef .tc main_v48) = _
    after_results
    rfl
  rw [e, W8_W1 m ρ c main_arg12 (by decide), W1_keep m ρ c main_arg12 (by decide)]
theorem W9_v49 (c : Dev nD) : W9 m ρ c (Proc.devRef .tc main_v49) = shapeCast S1x256 (arg m c main_arg15) shapeCasts_S256_S1x256 := by
  have e : W9 m ρ c (Proc.devRef .tc main_v49) = shapeCast S1x256 (W8 m ρ c (Proc.devRef .tc main_arg15)) shapeCasts_S256_S1x256 := by
    show StableHlo.after hostOps3_1 (W8 m ρ c) (Proc.devRef .tc main_v49) = _
    after_results
    rfl
  rw [e, W8_W1 m ρ c main_arg15 (by decide), W1_keep m ρ c main_arg15 (by decide)]
theorem W9_v50 (c : Dev nD) : W9 m ρ c (Proc.devRef .tc main_v50) = shapeCast S1x256 (arg m c main_arg16) shapeCasts_S256_S1x256 := by
  have e : W9 m ρ c (Proc.devRef .tc main_v50) = shapeCast S1x256 (W8 m ρ c (Proc.devRef .tc main_arg16)) shapeCasts_S256_S1x256 := by
    show StableHlo.after hostOps3_1 (W8 m ρ c) (Proc.devRef .tc main_v50) = _
    after_results
    rfl
  rw [e, W8_W1 m ρ c main_arg16 (by decide), W1_keep m ρ c main_arg16 (by decide)]

/-- The 20000-row result: the second top-down stage. -/
def K4 (c : Dev nD) : S20000x256.Idx → EReal :=
  Cert.Spec.stageArr (takeRows1 (K3 m c) (arg m c main_arg4)) (K1 m c) (arg m c main_arg11) (arg m c main_arg12) (arg m c main_arg15) (arg m c main_arg16)

theorem G3_eq (c : Dev nD) : Region3.G (V9 m ρ) c = K4 m c := by
  show Region3.stageK (W9 m ρ c (Proc.devRef .tc main_v47)) (W9 m ρ c (Proc.devRef .tc main_v28_0)) (W9 m ρ c (Proc.devRef .tc main_v15)) (W9 m ρ c (Proc.devRef .tc main_v48)) (W9 m ρ c (Proc.devRef .tc main_v49)) (W9 m ρ c (Proc.devRef .tc main_v50)) = _
  rw [s9 m ρ c main_v47 (by decide), W8_v47, W9_v28_0, W9_W1 m ρ c main_v15 (by decide), W1_v15, W9_v48, W9_v49, W9_v50]
  unfold Region3.stageK
  exact Cert.Spec.stage_of_kernel_layout _ _ _ _ _ _ _ _ _ _ (wt_apply _) (row_apply _) (row_apply _) (row_apply _)

/-! ## The three results at the return -/

theorem W10_v51 (c : Dev nD) : W10 m ρ c (Proc.devRef .tc main_v51) = K4 m c := by
  show W10 m ρ c (Proc.devRef .tc (Pipeline.arrRef spec3 6)) = _
  exact (W10_arr m ρ c 6).trans ((Region3.final6 (V9 m ρ) c).trans (G3_eq m ρ c))

theorem W10_v33 (c : Dev nD) : W10 m ρ c (Proc.devRef .tc main_v33) = K2 m c :=
  (s10 m ρ c main_v33 (by decide)).trans ((s9 m ρ c main_v33 (by decide)).trans ((s8 m ρ c main_v33 (by decide)).trans
    ((s7 m ρ c main_v33 (by decide)).trans ((s6 m ρ c main_v33 (by decide)).trans (W5_v33 m ρ c)))))

theorem W10_v46_0 (c : Dev nD) : W10 m ρ c (Proc.devRef .tc main_v46_0) = K3 m c :=
  (s10 m ρ c main_v46_0 (by decide)).trans ((s9 m ρ c main_v46_0 (by decide)).trans ((s8 m ρ c main_v46_0 (by decide)).trans (W7_v46_0 m ρ c)))

end Cert.KernelIdeal.Value

end
-- ==== Proof.RefStage.lean ====
/-
  The reference's message-passing stage read at an index.

  The reference writes one stage over `M` rows (`M` = 20000, 200000, 2000) as
  `h + (msg · wᵀ + b)` followed by the LayerNorm of every row, through broadcasts of the bias, of the
  rows' means and of the scale and shift, and two sums over axis 1. Here that text is read at one
  entry `(r, j)`: the product is the sum over `k` of `msg (r, k) · w (j, k)`, a row's sum is the
  `Fin 256`-indexed sum of its entries, every broadcast reads its operand at the matching coordinate,
  and the whole is the specification's `stageAt`. The argument is written once for any number of rows
  `M` over the shape relations it cites (`StageFacts`); the three stages of the program are its
  instances, their texts the reference's own.
-/
import proofs.«419988_j26946624815680_3_alg».proof.ReferenceIdeal
import proofs.«419988_j26946624815680_3_alg».proof.Proof.Spec
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

noncomputable section

namespace Cert.RefStage

open Idealize.ShloMosaic Idealize.ShloMosaic.ValueIdx Cert.ReferenceIdeal
open scoped BigOperators

/-! ## The shapes of a stage over `M` rows -/

/-- `[M, 256]`: the rows of a stage. -/
abbrev Rows (M : ℕ) : Shape := ⟨2, ![M, 256]⟩
/-- `[M, 1]`: one value per row, kept as a column. -/
abbrev Col (M : ℕ) : Shape := ⟨2, ![M, 1]⟩
/-- `[M]`: one value per row. -/
abbrev Line (M : ℕ) : Shape := ⟨1, ![M]⟩

/-! ## The product with the transposed weight, at an index -/

/-- The dimension numbers of `[M, 256] · [256, 256]` contracting axis 1 with axis 0. -/
abbrev dotRows (M : ℕ) (wf : DotDims.WF (Rows M) S256x256 (Rows M) [1] [0] [0] [1] [] []) :
    DotDims (Rows M) S256x256 (Rows M) where
  lhsContracting := [1]
  rhsContracting := [0]
  lhsNonContracting := [0]
  rhsNonContracting := [1]
  lhsBatch := []
  rhsBatch := []
  wf := wf

variable {M : ℕ}

/-- The left operand's row is the result's row … -/
theorem lhs_axis0 (wf : DotDims.WF (Rows M) S256x256 (Rows M) [1] [0] [0] [1] [] [])
    (y : (Rows M).Idx) (k : (dotRows M wf).contr.Idx) :
    ((dotRows M wf).lhsIdx y k 0).val = (y 0).val := rfl

/-- … its column the contraction's coordinate; -/
theorem lhs_axis1 (wf : DotDims.WF (Rows M) S256x256 (Rows M) [1] [0] [0] [1] [] [])
    (y : (Rows M).Idx) (k : (dotRows M wf).contr.Idx) :
    ((dotRows M wf).lhsIdx y k 1).val = (k ⟨0, Nat.one_pos⟩).val :=
  DotDims.lhsIdx_val_of_single (dotRows M wf) rfl y k

/-- the right operand's row is the contraction's coordinate … -/
theorem rhs_axis0 (wf : DotDims.WF (Rows M) S256x256 (Rows M) [1] [0] [0] [1] [] [])
    (y : (Rows M).Idx) (k : (dotRows M wf).contr.Idx) :
    ((dotRows M wf).rhsIdx y k 0).val = (k ⟨0, Nat.one_pos⟩).val :=
  DotDims.rhsIdx_val_of_single (dotRows M wf) rfl y k

/-- … and its column the result's column. -/
theorem rhs_axis1 (wf : DotDims.WF (Rows M) S256x256 (Rows M) [1] [0] [0] [1] [] [])
    (y : (Rows M).Idx) (k : (dotRows M wf).contr.Idx) :
    ((dotRows M wf).rhsIdx y k 1).val = (y 1).val := rfl

/-- The contraction index of a coordinate `k` of the contracted axis. -/
abbrev atK (wf : DotDims.WF (Rows M) S256x256 (Rows M) [1] [0] [0] [1] [] []) (k : Fin 256) :
    (dotRows M wf).contr.Idx :=
  (contrEquiv1 (dotRows M wf) 256 rfl rfl).symm k

/-- At result `(r, j)` and contraction coordinate `k` the left operand is read at `(r, k)` … -/
theorem lhsIdx_atK (wf : DotDims.WF (Rows M) S256x256 (Rows M) [1] [0] [0] [1] [] [])
    (r : Fin M) (j k : Fin 256) :
    (dotRows M wf).lhsIdx (ix2 r j) (atK wf k) = ix2 r k := by
  funext a
  refine Fin.ext ?_
  match a with
  | ⟨0, _⟩ => exact lhs_axis0 wf _ _
  | ⟨1, _⟩ => exact (lhs_axis1 wf _ _).trans (contrEquiv1_symm_val (dotRows M wf) 256 rfl rfl k)

/-- … and the right operand at `(k, j)`. -/
theorem rhsIdx_atK (wf : DotDims.WF (Rows M) S256x256 (Rows M) [1] [0] [0] [1] [] [])
    (r : Fin M) (j k : Fin 256) :
    (dotRows M wf).rhsIdx (ix2 r j) (atK wf k) = ix2 k j := by
  funext a
  refine Fin.ext ?_
  match a with
  | ⟨0, _⟩ => exact (rhs_axis0 wf _ _).trans (contrEquiv1_symm_val (dotRows M wf) 256 rfl rfl k)
  | ⟨1, _⟩ => exact rhs_axis1 wf _ _

/-- The product of the rows with the transposed weight, at `(r, j)`: row `r` against the weight's row `j`. -/
theorem dot_apply (wf : DotDims.WF (Rows M) S256x256 (Rows M) [1] [0] [0] [1] [] [])
    (ht : S256x256.Transposes [1, 0] S256x256)
    (X : FVec Ideal (Rows M) .f32) (W : FVec Ideal S256x256 .f32) (r : Fin M) (j : Fin 256) :
    Host.dotGeneral (F := Ideal) (dotRows M wf) none X (transpose S256x256 [1, 0] W ht) (ix2 r j)
      = ∑ k : Fin 256, X (ix2 r k) * W (ix2 j k) := by
  refine (Ideal.dotGeneral_apply (dotRows M wf) none .single X _ (ix2 r j)).trans ?_
  rw [← Equiv.sum_comp (contrEquiv1 (dotRows M wf) 256 rfl rfl).symm]
  refine Finset.sum_congr rfl fun k _ => ?_
  show X ((dotRows M wf).lhsIdx (ix2 r j) (atK wf k)) * transpose S256x256 [1, 0] W ht ((dotRows M wf).rhsIdx (ix2 r j) (atK wf k)) = _
  rw [lhsIdx_atK, rhsIdx_atK]
  exact congrArg (X (ix2 r k) * ·) (transpose_ix2_apply W ht k j)

/-! ## The broadcasts of a stage, at an index -/

section Broadcasts
variable {α : Type}

/-- One row `[1, 256]` copied down the `M` rows reads, at `(r, j)`, the row at `(0, j)`. -/
theorem rowDown_apply (hb : S1x256.BroadcastsInDim (Rows M) ![0, 1]) (y : S1x256.Idx → α) (r : Fin M) (j : Fin 256) :
    broadcastInDim (Rows M) ![0, 1] hb y (ix2 r j) = y (ix2 (0 : Fin 1) j) := by
  refine broadcastInDim_apply ![0, 1] hb y (ix2 r j) (ix2 (0 : Fin 1) j) ?_
  intro a
  match a with
  | ⟨0, _⟩ => rfl
  | ⟨1, _⟩ => rfl

/-- A vector `[256]` laid as the one row `[1, 256]` reads, at `(0, j)`, its entry `j`. -/
theorem asRow_apply (hb : S256.BroadcastsInDim S1x256 ![1]) (v : S256.Idx → α) (u : Fin 1) (j : Fin 256) :
    broadcastInDim S1x256 ![1] hb v (ix2 u j) = v (ix1 j) := by
  refine broadcastInDim_apply ![1] hb v (ix2 u j) (ix1 j) ?_
  intro a
  match a with
  | ⟨0, _⟩ => rfl

/-- So a vector `[256]` copied to every row reads, at `(r, j)`, its entry `j`. -/
theorem perColumn_apply (hb : S1x256.BroadcastsInDim (Rows M) ![0, 1]) (hv : S256.BroadcastsInDim S1x256 ![1])
    (v : S256.Idx → α) (r : Fin M) (j : Fin 256) :
    broadcastInDim (Rows M) ![0, 1] hb (broadcastInDim S1x256 ![1] hv v) (ix2 r j) = v (ix1 j) :=
  (rowDown_apply hb _ r j).trans (asRow_apply hv v 0 j)

/-- One value per row `[M]` kept as a column `[M, 1]` reads, at `(r, 0)`, the value of row `r`. -/
theorem asCol_apply (hb : (Line M).BroadcastsInDim (Col M) ![0]) (v : (Line M).Idx → α) (r : Fin M) (u : Fin 1) :
    broadcastInDim (Col M) ![0] hb v (ix2 r u) = v (ix1 r) := by
  refine broadcastInDim_apply ![0] hb v (ix2 r u) (ix1 r) ?_
  intro a
  match a with
  | ⟨0, _⟩ =>
    show r.val = if M = 1 then 0 else r.val
    split
    · have := r.isLt; omega
    · rfl

/-- A column `[M, 1]` copied along the 256 entries of each row reads, at `(r, j)`, the column at `(r, 0)`. -/
theorem colAcross_apply (hb : (Col M).BroadcastsInDim (Rows M) ![0, 1]) (c : (Col M).Idx → α) (r : Fin M) (j : Fin 256) :
    broadcastInDim (Rows M) ![0, 1] hb c (ix2 r j) = c (ix2 r (0 : Fin 1)) := by
  refine broadcastInDim_apply ![0, 1] hb c (ix2 r j) (ix2 r (0 : Fin 1)) ?_
  intro a
  match a with
  | ⟨0, _⟩ =>
    show r.val = if M = 1 then 0 else r.val
    split
    · have := r.isLt; omega
    · rfl
  | ⟨1, _⟩ => rfl

end Broadcasts

/-- A scalar word copied to a column reads, everywhere, the extended real of the word. -/
theorem wordCol_apply (hb : S_.BroadcastsInDim (Col M) ![]) (w : BitVec 32) (i : (Col M).Idx) :
    broadcastInDim (Col M) ![] hb (constant (F := Ideal) S_ .f32 w) i = Ideal.ofBits .f32 w :=
  broadcastInDim_scalar_apply hb _ i

/-! ## A row's sum -/

/-- The sum over axis 1 from the zero word, at row `r`: the sum of the row's 256 entries. -/
theorem rowSum_apply (hred : (Rows M).ReducesTo [1] (Line M)) (hS : 0 < S_.numel)
    (P : FVec Ideal (Rows M) .f32) (r : Fin M) :
    Host.reduceAdd (F := Ideal) P (constant (F := Ideal) S_ .f32 0x00000000#32) hred hS (ix1 r)
      = ∑ k : Fin 256, P (ix2 r k) := by
  have h : (Rows M).Reduces [1] (Line M) := ⟨hred.1, Nat.one_pos, hred.2⟩
  refine (hostReduceAdd_apply P _ hred hS (ix1 r)).trans ?_
  refine (Ideal.hostReduceAdd_single hred h P _ (ix1 r)).trans ?_
  show Ideal.ofBits .f32 0x00000000#32 + ∑ k : Fin 256, P (h.lift (ix1 r) k) = _
  rw [Ideal.ofBits_zero_f32, zero_add]
  refine Finset.sum_congr rfl fun k _ => congrArg P ?_
  funext a
  refine Fin.ext ?_
  match a with
  | ⟨0, _⟩ => rfl
  | ⟨1, _⟩ => rfl

/-! ## A stage over `M` rows -/

/-- The shape relations the text of a stage over `M` rows cites. -/
structure StageFacts (M : ℕ) : Prop where
  dot : DotDims.WF (Rows M) S256x256 (Rows M) [1] [0] [0] [1] [] []
  tr : S256x256.Transposes [1, 0] S256x256
  rowDown : S1x256.BroadcastsInDim (Rows M) ![0, 1]
  asRow : S256.BroadcastsInDim S1x256 ![1]
  asCol : (Line M).BroadcastsInDim (Col M) ![0]
  word : S_.BroadcastsInDim (Col M) ![]
  across : (Col M).BroadcastsInDim (Rows M) ![0, 1]
  red : (Rows M).ReducesTo [1] (Line M)
  pos : 0 < S_.numel

/-- `h + (msg · wᵀ + b)`, as the reference writes it. -/
def preG (f : StageFacts M) (MSG H : FVec Ideal (Rows M) .f32) (W : FVec Ideal S256x256 .f32) (B : FVec Ideal S256 .f32) :
    FVec Ideal (Rows M) .f32 :=
  addf H (addf (Host.dotGeneral (dotRows M f.dot) none MSG (transpose S256x256 [1, 0] W f.tr)) (broadcastInDim (Rows M) ![0, 1] f.rowDown (broadcastInDim S1x256 ![1] f.asRow B)))

/-- The rows' means, kept as a column: each row's sum over the word of 256. -/
def muG (f : StageFacts M) (P : FVec Ideal (Rows M) .f32) : FVec Ideal (Col M) .f32 :=
  Host.divf (broadcastInDim (Col M) ![0] f.asCol (Host.reduceAdd P (constant S_ .f32 0x00000000#32) f.red f.pos)) (broadcastInDim (Col M) ![] f.word (constant S_ .f32 0x43800000#32))

/-- The rows less their means. -/
def cenG (f : StageFacts M) (P : FVec Ideal (Rows M) .f32) : FVec Ideal (Rows M) .f32 :=
  subf P (broadcastInDim (Rows M) ![0, 1] f.across (muG f P))

/-- The LayerNorm of every row, as the reference writes it. -/
def lnG (f : StageFacts M) (P : FVec Ideal (Rows M) .f32) (G BE : FVec Ideal S256 .f32) : FVec Ideal (Rows M) .f32 :=
  addf (mulf (mulf (subf P (broadcastInDim (Rows M) ![0, 1] f.across (muG f P))) (broadcastInDim (Rows M) ![0, 1] f.across (Host.rsqrt (addf (Host.divf (broadcastInDim (Col M) ![0] f.asCol (Host.reduceAdd (mulf (cenG f P) (cenG f P)) (constant S_ .f32 0x00000000#32) f.red f.pos)) (broadcastInDim (Col M) ![] f.word (constant S_ .f32 0x43800000#32))) (broadcastInDim (Col M) ![] f.word (constant S_ .f32 0x3727C5AC#32)))))) (broadcastInDim (Rows M) ![0, 1] f.rowDown (broadcastInDim S1x256 ![1] f.asRow G))) (broadcastInDim (Rows M) ![0, 1] f.rowDown (broadcastInDim S1x256 ![1] f.asRow BE))

/-- Before the normalisation, entry `(r, j)` is the specification's. -/
theorem preG_apply (f : StageFacts M) (MSG H : FVec Ideal (Rows M) .f32) (W : FVec Ideal S256x256 .f32) (B : FVec Ideal S256 .f32)
    (r : Fin M) (j : Fin 256) :
    preG f MSG H W B (ix2 r j)
      = Cert.Spec.pre (fun r k => MSG (ix2 r k)) (fun r k => H (ix2 r k)) (fun j k => W (ix2 j k)) (fun j => B (ix1 j)) r j := by
  unfold preG Cert.Spec.pre
  rw [addf_apply, addf_apply, dot_apply, perColumn_apply]

/-- The column of means holds, at row `r`, the mean of row `r`. -/
theorem muG_apply (f : StageFacts M) (P : FVec Ideal (Rows M) .f32) (r : Fin M) (u : Fin 1) :
    muG f P (ix2 r u) = Cert.Spec.mean (fun k => P (ix2 r k)) := by
  unfold muG Cert.Spec.mean
  rw [hostDivf_apply, asCol_apply, rowSum_apply, wordCol_apply]
  rfl

/-- A centred entry is the entry less its row's mean. -/
theorem cenG_apply (f : StageFacts M) (P : FVec Ideal (Rows M) .f32) (r : Fin M) (k : Fin 256) :
    cenG f P (ix2 r k) = P (ix2 r k) - Cert.Spec.mean (fun k => P (ix2 r k)) := by
  unfold cenG
  rw [subf_apply, colAcross_apply, muG_apply]

/-- The host's reciprocal square root at an index is the extended reals'. -/
theorem hostRsqrt_apply {s : Shape} (x : FVec Ideal s .f32) (i : s.Idx) : Host.rsqrt x i = Ideal.rsqrt (x i) := rfl

/-- The reference's LayerNorm, at `(r, j)`, is the specification's LayerNorm of row `r` at entry `j`. -/
theorem lnG_apply (f : StageFacts M) (P : FVec Ideal (Rows M) .f32) (G BE : FVec Ideal S256 .f32) (r : Fin M) (j : Fin 256) :
    lnG f P G BE (ix2 r j)
      = Cert.Spec.layerNorm (fun k => P (ix2 r k)) (fun j => G (ix1 j)) (fun j => BE (ix1 j)) j := by
  unfold lnG Cert.Spec.layerNorm Cert.Spec.var
  rw [addf_apply, mulf_apply, mulf_apply, subf_apply, colAcross_apply, muG_apply, colAcross_apply, hostRsqrt_apply,
    addf_apply, hostDivf_apply, asCol_apply, rowSum_apply, wordCol_apply, wordCol_apply, perColumn_apply, perColumn_apply]
  simp only [mulf_apply, cenG_apply]
  rfl

/-- One stage of the reference at `(r, j)` is the specification's stage. -/
theorem stageG_apply (f : StageFacts M) (MSG H : FVec Ideal (Rows M) .f32) (W : FVec Ideal S256x256 .f32) (B G BE : FVec Ideal S256 .f32)
    (r : Fin M) (j : Fin 256) :
    lnG f (preG f MSG H W B) G BE (ix2 r j)
      = Cert.Spec.stageAt (fun r k => MSG (ix2 r k)) (fun r k => H (ix2 r k)) (fun j k => W (ix2 j k)) (fun j => B (ix1 j))
          (fun j => G (ix1 j)) (fun j => BE (ix1 j)) r j := by
  rw [lnG_apply]
  unfold Cert.Spec.stageAt
  exact congrArg (fun x => Cert.Spec.layerNorm x (fun j => G (ix1 j)) (fun j => BE (ix1 j)) j)
    (funext fun k => preG_apply f MSG H W B r k)

/-! ## The reference's three stages -/

section Instances
variable [Facts₀]
open Facts₀

/-! ### 20000 rows -/

/-- The shape relations of the stage over 20000 rows. -/
theorem facts20000 : StageFacts 20000 :=
  ⟨dot_S20000x256_S256x256_S20000x256_1_0_0_1_n_n_wf, transposes_S256x256_S256x256_1_0, bcast_S1x256_S20000x256_0_1,
    bcast_S256_S1x256_1, bcast_S20000_S20000x1_0, bcast_S_S20000x1, bcast_S20000x1_S20000x256_0_1,
    reducesTo_S20000x256_S20000_d1, h_S_⟩

/-- `h + (msg · wᵀ + b)` over 20000 rows. -/
def pre20000 (MSG H : FVec Ideal S20000x256 .f32) (W : FVec Ideal S256x256 .f32) (B : FVec Ideal S256 .f32) : FVec Ideal S20000x256 .f32 :=
  addf H (addf (Host.dotGeneral dot_S20000x256_S256x256_S20000x256_1_0_0_1_n_n none MSG (transpose S256x256 [1, 0] W transposes_S256x256_S256x256_1_0)) (broadcastInDim S20000x256 ![0, 1] bcast_S1x256_S20000x256_0_1 (broadcastInDim S1x256 ![1] bcast_S256_S1x256_1 B)))

/-- The 20000 rows' means, as a column. -/
def mu20000 (P : FVec Ideal S20000x256 .f32) : FVec Ideal S20000x1 .f32 :=
  Host.divf (broadcastInDim S20000x1 ![0] bcast_S20000_S20000x1_0 (Host.reduceAdd P (constant S_ .f32 0x00000000#32) reducesTo_S20000x256_S20000_d1 h_S_)) (broadcastInDim S20000x1 ![] bcast_S_S20000x1 (constant S_ .f32 0x43800000#32))

/-- The 20000 rows less their means. -/
def cen20000 (P : FVec Ideal S20000x256 .f32) : FVec Ideal S20000x256 .f32 :=
  subf P (broadcastInDim S20000x256 ![0, 1] bcast_S20000x1_S20000x256_0_1 (mu20000 P))

/-- The LayerNorm of the 20000 rows. -/
def ln20000 (P : FVec Ideal S20000x256 .f32) (G BE : FVec Ideal S256 .f32) : FVec Ideal S20000x256 .f32 :=
  addf (mulf (mulf (subf P (broadcastInDim S20000x256 ![0, 1] bcast_S20000x1_S20000x256_0_1 (mu20000 P))) (broadcastInDim S20000x256 ![0, 1] bcast_S20000x1_S20000x256_0_1 (Host.rsqrt (addf (Host.divf (broadcastInDim S20000x1 ![0] bcast_S20000_S20000x1_0 (Host.reduceAdd (mulf (cen20000 P) (cen20000 P)) (constant S_ .f32 0x00000000#32) reducesTo_S20000x256_S20000_d1 h_S_)) (broadcastInDim S20000x1 ![] bcast_S_S20000x1 (constant S_ .f32 0x43800000#32))) (broadcastInDim S20000x1 ![] bcast_S_S20000x1 (constant S_ .f32 0x3727C5AC#32)))))) (broadcastInDim S20000x256 ![0, 1] bcast_S1x256_S20000x256_0_1 (broadcastInDim S1x256 ![1] bcast_S256_S1x256_1 G))) (broadcastInDim S20000x256 ![0, 1] bcast_S1x256_S20000x256_0_1 (broadcastInDim S1x256 ![1] bcast_S256_S1x256_1 BE))

theorem pre20000_eq (MSG H : FVec Ideal S20000x256 .f32) (W : FVec Ideal S256x256 .f32) (B : FVec Ideal S256 .f32) :
    pre20000 MSG H W B = preG facts20000 MSG H W B := rfl
theorem mu20000_eq (P : FVec Ideal S20000x256 .f32) : mu20000 P = muG facts20000 P := rfl
theorem cen20000_eq (P : FVec Ideal S20000x256 .f32) : cen20000 P = cenG facts20000 P := rfl
theorem ln20000_eq (P : FVec Ideal S20000x256 .f32) (G BE : FVec Ideal S256 .f32) : ln20000 P G BE = lnG facts20000 P G BE := rfl

/-- The reference's stage over 20000 rows, at `(r, j)`, is the specification's stage. -/
theorem stage20000_apply (MSG H : FVec Ideal S20000x256 .f32) (W : FVec Ideal S256x256 .f32) (B G BE : FVec Ideal S256 .f32)
    (r : Fin 20000) (j : Fin 256) :
    ln20000 (pre20000 MSG H W B) G BE (ix2 r j)
      = Cert.Spec.stageAt (fun r k => MSG (ix2 r k)) (fun r k => H (ix2 r k)) (fun j k => W (ix2 j k)) (fun j => B (ix1 j))
          (fun j => G (ix1 j)) (fun j => BE (ix1 j)) r j := by
  rw [ln20000_eq, pre20000_eq]
  exact stageG_apply facts20000 MSG H W B G BE r j

/-! ### 200000 rows -/

/-- The shape relations of the stage over 200000 rows. -/
theorem facts200000 : StageFacts 200000 :=
  ⟨dot_S200000x256_S256x256_S200000x256_1_0_0_1_n_n_wf, transposes_S256x256_S256x256_1_0, bcast_S1x256_S200000x256_0_1,
    bcast_S256_S1x256_1, bcast_S200000_S200000x1_0, bcast_S_S200000x1, bcast_S200000x1_S200000x256_0_1,
    reducesTo_S200000x256_S200000_d1, h_S_⟩

/-- `h + (msg · wᵀ + b)` over 200000 rows. -/
def pre200000 (MSG H : FVec Ideal S200000x256 .f32) (W : FVec Ideal S256x256 .f32) (B : FVec Ideal S256 .f32) : FVec Ideal S200000x256 .f32 :=
  addf H (addf (Host.dotGeneral dot_S200000x256_S256x256_S200000x256_1_0_0_1_n_n none MSG (transpose S256x256 [1, 0] W transposes_S256x256_S256x256_1_0)) (broadcastInDim S200000x256 ![0, 1] bcast_S1x256_S200000x256_0_1 (broadcastInDim S1x256 ![1] bcast_S256_S1x256_1 B)))

/-- The 200000 rows' means, as a column. -/
def mu200000 (P : FVec Ideal S200000x256 .f32) : FVec Ideal S200000x1 .f32 :=
  Host.divf (broadcastInDim S200000x1 ![0] bcast_S200000_S200000x1_0 (Host.reduceAdd P (constant S_ .f32 0x00000000#32) reducesTo_S200000x256_S200000_d1 h_S_)) (broadcastInDim S200000x1 ![] bcast_S_S200000x1 (constant S_ .f32 0x43800000#32))

/-- The 200000 rows less their means. -/
def cen200000 (P : FVec Ideal S200000x256 .f32) : FVec Ideal S200000x256 .f32 :=
  subf P (broadcastInDim S200000x256 ![0, 1] bcast_S200000x1_S200000x256_0_1 (mu200000 P))

/-- The LayerNorm of the 200000 rows. -/
def ln200000 (P : FVec Ideal S200000x256 .f32) (G BE : FVec Ideal S256 .f32) : FVec Ideal S200000x256 .f32 :=
  addf (mulf (mulf (subf P (broadcastInDim S200000x256 ![0, 1] bcast_S200000x1_S200000x256_0_1 (mu200000 P))) (broadcastInDim S200000x256 ![0, 1] bcast_S200000x1_S200000x256_0_1 (Host.rsqrt (addf (Host.divf (broadcastInDim S200000x1 ![0] bcast_S200000_S200000x1_0 (Host.reduceAdd (mulf (cen200000 P) (cen200000 P)) (constant S_ .f32 0x00000000#32) reducesTo_S200000x256_S200000_d1 h_S_)) (broadcastInDim S200000x1 ![] bcast_S_S200000x1 (constant S_ .f32 0x43800000#32))) (broadcastInDim S200000x1 ![] bcast_S_S200000x1 (constant S_ .f32 0x3727C5AC#32)))))) (broadcastInDim S200000x256 ![0, 1] bcast_S1x256_S200000x256_0_1 (broadcastInDim S1x256 ![1] bcast_S256_S1x256_1 G))) (broadcastInDim S200000x256 ![0, 1] bcast_S1x256_S200000x256_0_1 (broadcastInDim S1x256 ![1] bcast_S256_S1x256_1 BE))

theorem pre200000_eq (MSG H : FVec Ideal S200000x256 .f32) (W : FVec Ideal S256x256 .f32) (B : FVec Ideal S256 .f32) :
    pre200000 MSG H W B = preG facts200000 MSG H W B := rfl
theorem mu200000_eq (P : FVec Ideal S200000x256 .f32) : mu200000 P = muG facts200000 P := rfl
theorem cen200000_eq (P : FVec Ideal S200000x256 .f32) : cen200000 P = cenG facts200000 P := rfl
theorem ln200000_eq (P : FVec Ideal S200000x256 .f32) (G BE : FVec Ideal S256 .f32) : ln200000 P G BE = lnG facts200000 P G BE := rfl

/-- The reference's stage over 200000 rows, at `(r, j)`, is the specification's stage. -/
theorem stage200000_apply (MSG H : FVec Ideal S200000x256 .f32) (W : FVec Ideal S256x256 .f32) (B G BE : FVec Ideal S256 .f32)
    (r : Fin 200000) (j : Fin 256) :
    ln200000 (pre200000 MSG H W B) G BE (ix2 r j)
      = Cert.Spec.stageAt (fun r k => MSG (ix2 r k)) (fun r k => H (ix2 r k)) (fun j k => W (ix2 j k)) (fun j => B (ix1 j))
          (fun j => G (ix1 j)) (fun j => BE (ix1 j)) r j := by
  rw [ln200000_eq, pre200000_eq]
  exact stageG_apply facts200000 MSG H W B G BE r j

/-! ### 2000 rows -/

/-- The shape relations of the stage over 2000 rows. -/
theorem facts2000 : StageFacts 2000 :=
  ⟨dot_S2000x256_S256x256_S2000x256_1_0_0_1_n_n_wf, transposes_S256x256_S256x256_1_0, bcast_S1x256_S2000x256_0_1,
    bcast_S256_S1x256_1, bcast_S2000_S2000x1_0, bcast_S_S2000x1, bcast_S2000x1_S2000x256_0_1,
    reducesTo_S2000x256_S2000_d1, h_S_⟩

/-- `h + (msg · wᵀ + b)` over 2000 rows. -/
def pre2000 (MSG H : FVec Ideal S2000x256 .f32) (W : FVec Ideal S256x256 .f32) (B : FVec Ideal S256 .f32) : FVec Ideal S2000x256 .f32 :=
  addf H (addf (Host.dotGeneral dot_S2000x256_S256x256_S2000x256_1_0_0_1_n_n none MSG (transpose S256x256 [1, 0] W transposes_S256x256_S256x256_1_0)) (broadcastInDim S2000x256 ![0, 1] bcast_S1x256_S2000x256_0_1 (broadcastInDim S1x256 ![1] bcast_S256_S1x256_1 B)))

/-- The 2000 rows' means, as a column. -/
def mu2000 (P : FVec Ideal S2000x256 .f32) : FVec Ideal S2000x1 .f32 :=
  Host.divf (broadcastInDim S2000x1 ![0] bcast_S2000_S2000x1_0 (Host.reduceAdd P (constant S_ .f32 0x00000000#32) reducesTo_S2000x256_S2000_d1 h_S_)) (broadcastInDim S2000x1 ![] bcast_S_S2000x1 (constant S_ .f32 0x43800000#32))

/-- The 2000 rows less their means. -/
def cen2000 (P : FVec Ideal S2000x256 .f32) : FVec Ideal S2000x256 .f32 :=
  subf P (broadcastInDim S2000x256 ![0, 1] bcast_S2000x1_S2000x256_0_1 (mu2000 P))

/-- The LayerNorm of the 2000 rows. -/
def ln2000 (P : FVec Ideal S2000x256 .f32) (G BE : FVec Ideal S256 .f32) : FVec Ideal S2000x256 .f32 :=
  addf (mulf (mulf (subf P (broadcastInDim S2000x256 ![0, 1] bcast_S2000x1_S2000x256_0_1 (mu2000 P))) (broadcastInDim S2000x256 ![0, 1] bcast_S2000x1_S2000x256_0_1 (Host.rsqrt (addf (Host.divf (broadcastInDim S2000x1 ![0] bcast_S2000_S2000x1_0 (Host.reduceAdd (mulf (cen2000 P) (cen2000 P)) (constant S_ .f32 0x00000000#32) reducesTo_S2000x256_S2000_d1 h_S_)) (broadcastInDim S2000x1 ![] bcast_S_S2000x1 (constant S_ .f32 0x43800000#32))) (broadcastInDim S2000x1 ![] bcast_S_S2000x1 (constant S_ .f32 0x3727C5AC#32)))))) (broadcastInDim S2000x256 ![0, 1] bcast_S1x256_S2000x256_0_1 (broadcastInDim S1x256 ![1] bcast_S256_S1x256_1 G))) (broadcastInDim S2000x256 ![0, 1] bcast_S1x256_S2000x256_0_1 (broadcastInDim S1x256 ![1] bcast_S256_S1x256_1 BE))

theorem pre2000_eq (MSG H : FVec Ideal S2000x256 .f32) (W : FVec Ideal S256x256 .f32) (B : FVec Ideal S256 .f32) :
    pre2000 MSG H W B = preG facts2000 MSG H W B := rfl
theorem mu2000_eq (P : FVec Ideal S2000x256 .f32) : mu2000 P = muG facts2000 P := rfl
theorem cen2000_eq (P : FVec Ideal S2000x256 .f32) : cen2000 P = cenG facts2000 P := rfl
theorem ln2000_eq (P : FVec Ideal S2000x256 .f32) (G BE : FVec Ideal S256 .f32) : ln2000 P G BE = lnG facts2000 P G BE := rfl

/-- The reference's stage over 2000 rows, at `(r, j)`, is the specification's stage. -/
theorem stage2000_apply (MSG H : FVec Ideal S2000x256 .f32) (W : FVec Ideal S256x256 .f32) (B G BE : FVec Ideal S256 .f32)
    (r : Fin 2000) (j : Fin 256) :
    ln2000 (pre2000 MSG H W B) G BE (ix2 r j)
      = Cert.Spec.stageAt (fun r k => MSG (ix2 r k)) (fun r k => H (ix2 r k)) (fun j k => W (ix2 j k)) (fun j => B (ix1 j))
          (fun j => G (ix1 j)) (fun j => BE (ix1 j)) r j := by
  rw [ln2000_eq, pre2000_eq]
  exact stageG_apply facts2000 MSG H W B G BE r j

end Instances

end Cert.RefStage

end
-- ==== Proof.RefValue.lean ====
/-
  The reference program's three results as compositions of the stage.

  The generated run gives each result as the host operations' term of the launch memory. That term is four
  LayerNorm stages — each `h + (msg · Wᵀ + b)` normalised row by row — joined by a scatter-mean (rows summed into
  their segment and divided by the segment's count) and a row gather; each stage's term at an entry is the
  row-level stage (RefStage), so each result is `Spec.stageArr` of the glue's result and the argument arrays.
-/
import proofs.«419988_j26946624815680_3_alg».proof.Proof.Gen.ReferenceIdeal.Run
import proofs.«419988_j26946624815680_3_alg».proof.Proof.RefStage
import proofs.«419988_j26946624815680_3_alg».proof.Proof.StageArr

set_option maxRecDepth 16384

noncomputable section

namespace Cert.ReferenceIdeal.RefValue

open Cert.ReferenceIdeal Cert.ReferenceIdeal.Gen Cert.ReferenceIdeal.Value Cert.RefStage Cert.Spec
open Idealize.ShloMosaic Idealize.ShloMosaic.TcCoe Idealize.SL.Sem Idealize.ShloMosaic.StableHlo Idealize.ShloMosaic.ValueIdx

/-! ## The glue between the stages, as functions of arrays -/

/-- The mean of the 200000 source rows over each of 20000 segments, a count of zero read as one. -/
def segMean0 (src : FVec Ideal S200000x256 .f32) (idx : IVec S200000 32) : FVec Ideal S20000x256 .f32 :=
  Host.divf (Host.scatterAdd scatter_S20000x256_S200000x1_S200000x256_1_0_0_1 (broadcastInDim S20000x256 ![] bcast_S_S20000x256 (constant S_ .f32 0x00000000#32)) (broadcastInDim S200000x1 ![0] bcast_S200000_S200000x1_0 idx) src) (broadcastInDim S20000x256 ![0, 1] bcast_S20000x1_S20000x256_0_1 (broadcastInDim S20000x1 ![0] bcast_S20000_S20000x1_0 (maximumf (Host.scatterAdd scatter_S20000_S200000x1_S200000_n_0_0_1 (broadcastInDim S20000 ![] bcast_S_S20000 (constant S_ .f32 0x00000000#32)) (broadcastInDim S200000x1 ![0] bcast_S200000_S200000x1_0 idx) (broadcastInDim S200000 ![] bcast_S_S200000 (constant S_ .f32 0x3F800000#32))) (broadcastInDim S20000 ![] bcast_S_S20000 (constant S_ .f32 0x3F800000#32)))))

/-- The mean of the 20000 source rows over each of 2000 segments. -/
def segMean1 (src : FVec Ideal S20000x256 .f32) (idx : IVec S20000 32) : FVec Ideal S2000x256 .f32 :=
  Host.divf (Host.scatterAdd scatter_S2000x256_S20000x1_S20000x256_1_0_0_1 (broadcastInDim S2000x256 ![] bcast_S_S2000x256 (constant S_ .f32 0x00000000#32)) (broadcastInDim S20000x1 ![0] bcast_S20000_S20000x1_0 idx) src) (broadcastInDim S2000x256 ![0, 1] bcast_S2000x1_S2000x256_0_1 (broadcastInDim S2000x1 ![0] bcast_S2000_S2000x1_0 (maximumf (Host.scatterAdd scatter_S2000_S20000x1_S20000_n_0_0_1 (broadcastInDim S2000 ![] bcast_S_S2000 (constant S_ .f32 0x00000000#32)) (broadcastInDim S20000x1 ![0] bcast_S20000_S20000x1_0 idx) (broadcastInDim S20000 ![] bcast_S_S20000 (constant S_ .f32 0x3F800000#32))) (broadcastInDim S2000 ![] bcast_S_S2000 (constant S_ .f32 0x3F800000#32)))))

/-- A position as numpy indexing reads it: a negative one counted back from the table's 20000 rows. -/
def wrap0 (idx : IVec S200000 32) : IVec S200000 32 :=
  select (cmpi .slt idx (broadcastInDim S200000 ![] bcast_S_S200000 (constantI S_ 32 0#32))) (addi idx (broadcastInDim S200000 ![] bcast_S_S200000 (constantI S_ 32 20000#32))) idx

/-- The same for the 2000-row table. -/
def wrap1 (idx : IVec S20000 32) : IVec S20000 32 :=
  select (cmpi .slt idx (broadcastInDim S20000 ![] bcast_S_S20000 (constantI S_ 32 0#32))) (addi idx (broadcastInDim S20000 ![] bcast_S_S20000 (constantI S_ 32 2000#32))) idx

/-- Row `idx r` of a 20000-row table for each of 200000 positions `r` (the position clamped into the table). -/
def takeRows0 (tbl : FVec Ideal S20000x256 .f32) (idx : IVec S200000 32) : FVec Ideal S200000x256 .f32 :=
  Host.gather gather_S20000x256_S200000x1_S200000x256_1_0_n_n_0_1_1256 tbl (broadcastInDim S200000x1 ![0] bcast_S200000_S200000x1_0 idx)

/-- Row `idx r` of a 2000-row table for each of 20000 positions `r`. -/
def takeRows1 (tbl : FVec Ideal S2000x256 .f32) (idx : IVec S20000 32) : FVec Ideal S20000x256 .f32 :=
  Host.gather gather_S2000x256_S20000x1_S20000x256_1_0_n_n_0_1_1256 tbl (broadcastInDim S20000x1 ![0] bcast_S20000_S20000x1_0 idx)

/-! ## Each stage's term is the stage -/

theorem stage20000_eq (MSG H : FVec Ideal S20000x256 .f32) (W : FVec Ideal S256x256 .f32) (B G BE : FVec Ideal S256 .f32) :
    ln20000 (pre20000 MSG H W B) G BE = stageArr MSG H W B G BE :=
  eq_stageArr _ _ _ _ _ _ _ (fun r j => stage20000_apply MSG H W B G BE r j)

theorem stage200000_eq (MSG H : FVec Ideal S200000x256 .f32) (W : FVec Ideal S256x256 .f32) (B G BE : FVec Ideal S256 .f32) :
    ln200000 (pre200000 MSG H W B) G BE = stageArr MSG H W B G BE :=
  eq_stageArr _ _ _ _ _ _ _ (fun r j => stage200000_apply MSG H W B G BE r j)

theorem stage2000_eq (MSG H : FVec Ideal S2000x256 .f32) (W : FVec Ideal S256x256 .f32) (B G BE : FVec Ideal S256 .f32) :
    ln2000 (pre2000 MSG H W B) G BE = stageArr MSG H W B G BE :=
  eq_stageArr _ _ _ _ _ _ _ (fun r j => stage2000_apply MSG H W B G BE r j)

/-! ## The results -/

variable (V0 : Valuation τ sig (Elt Ideal))

/-- The 20000-row state after the first bottom-up stage. -/
def R1 : FVec Ideal S20000x256 .f32 :=
  stageArr (segMean0 (V0 (Proc.devRef .tc main_arg0)) (V0 (Proc.devRef .tc main_arg3))) (V0 (Proc.devRef .tc main_arg1))
    (V0 (Proc.devRef .tc main_arg5)) (V0 (Proc.devRef .tc main_arg6)) (V0 (Proc.devRef .tc main_arg15)) (V0 (Proc.devRef .tc main_arg16))
/-- The 200000-row result: the first top-down stage. -/
def R2 : FVec Ideal S200000x256 .f32 :=
  stageArr (takeRows0 (R1 V0) (wrap0 (V0 (Proc.devRef .tc main_arg3)))) (V0 (Proc.devRef .tc main_arg0))
    (V0 (Proc.devRef .tc main_arg7)) (V0 (Proc.devRef .tc main_arg8)) (V0 (Proc.devRef .tc main_arg13)) (V0 (Proc.devRef .tc main_arg14))
/-- The 2000-row result: the second bottom-up stage. -/
def R3 : FVec Ideal S2000x256 .f32 :=
  stageArr (segMean1 (R1 V0) (V0 (Proc.devRef .tc main_arg4))) (V0 (Proc.devRef .tc main_arg2))
    (V0 (Proc.devRef .tc main_arg9)) (V0 (Proc.devRef .tc main_arg10)) (V0 (Proc.devRef .tc main_arg17)) (V0 (Proc.devRef .tc main_arg18))
/-- The 20000-row result: the second top-down stage. -/
def R4 : FVec Ideal S20000x256 .f32 :=
  stageArr (takeRows1 (R3 V0) (wrap1 (V0 (Proc.devRef .tc main_arg4)))) (R1 V0)
    (V0 (Proc.devRef .tc main_arg11)) (V0 (Proc.devRef .tc main_arg12)) (V0 (Proc.devRef .tc main_arg15)) (V0 (Proc.devRef .tc main_arg16))

theorem res41_eq : res_main_v41 V0 = R1 V0 := by
  have e : res_main_v41 V0 = ln20000 (pre20000 (segMean0 (V0 (Proc.devRef .tc main_arg0)) (V0 (Proc.devRef .tc main_arg3))) (V0 (Proc.devRef .tc main_arg1))
      (V0 (Proc.devRef .tc main_arg5)) (V0 (Proc.devRef .tc main_arg6))) (V0 (Proc.devRef .tc main_arg15)) (V0 (Proc.devRef .tc main_arg16)) := rfl
  rw [e, stage20000_eq]; rfl

theorem res54_eq : res_main_v54 V0 = pre200000 (takeRows0 (res_main_v41 V0) (wrap0 (V0 (Proc.devRef .tc main_arg3)))) (V0 (Proc.devRef .tc main_arg0)) (V0 (Proc.devRef .tc main_arg7)) (V0 (Proc.devRef .tc main_arg8)) := rfl

theorem out78_eq : ln200000 (res_main_v54 V0) (V0 (Proc.devRef .tc main_arg13)) (V0 (Proc.devRef .tc main_arg14)) = R2 V0 := by
  rw [res54_eq, res41_eq, stage200000_eq]; rfl

theorem res96_eq : res_main_v96 V0 = pre2000 (segMean1 (res_main_v41 V0) (V0 (Proc.devRef .tc main_arg4))) (V0 (Proc.devRef .tc main_arg2)) (V0 (Proc.devRef .tc main_arg9)) (V0 (Proc.devRef .tc main_arg10)) := rfl

theorem out120_eq : ln2000 (res_main_v96 V0) (V0 (Proc.devRef .tc main_arg17)) (V0 (Proc.devRef .tc main_arg18)) = R3 V0 := by
  rw [res96_eq, res41_eq, stage2000_eq]; rfl

theorem res133_eq : res_main_v133 V0 = pre20000 (takeRows1 (ln2000 (res_main_v96 V0) (V0 (Proc.devRef .tc main_arg17)) (V0 (Proc.devRef .tc main_arg18))) (wrap1 (V0 (Proc.devRef .tc main_arg4)))) (res_main_v41 V0) (V0 (Proc.devRef .tc main_arg11)) (V0 (Proc.devRef .tc main_arg12)) := rfl

theorem out157_eq : ln20000 (res_main_v133 V0) (V0 (Proc.devRef .tc main_arg15)) (V0 (Proc.devRef .tc main_arg16)) = R4 V0 := by
  rw [res133_eq, out120_eq, res41_eq, stage20000_eq]; rfl

/-- The reference's run with its three results as the compositions `R2`, `R4`, `R3` of the launch memory. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = R2 (launchContents m c)
      ∧ r.2.mem ((c.tc : Thread nD τ).loc main_v157) = R4 (launchContents m c)
      ∧ r.2.mem ((c.tc : Thread nD τ).loc main_v120) = R3 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c =>
    ⟨(h c).1.trans ((show _ = ln200000 (res_main_v54 (launchContents m c)) _ _ from rfl).trans (out78_eq _)),
     (h c).2.1.trans ((show _ = ln20000 (res_main_v133 (launchContents m c)) _ _ from rfl).trans (out157_eq _)),
     (h c).2.2.1.trans ((show _ = ln2000 (res_main_v96 (launchContents m c)) _ _ from rfl).trans (out120_eq _)),
     (h c).2.2.2⟩)
    (Cert.ReferenceIdeal.Value.run (F := Ideal) m ρ)

end Cert.ReferenceIdeal.RefValue

end
-- ==== Proof.Bridge.lean ====
/-
  The two programs compute the same three arrays.

  Both are the same composition of four stages (Spec.stageArr) with a scatter-mean or a row gather between them.
  The scatter-means are the same functions in both programs. The gathers differ in one step: the reference first
  reads a negative position as counted back from the table's end; on a non-negative position that step is the
  identity, so under the precondition (every index non-negative) the gathers agree too.
-/
import proofs.«419988_j26946624815680_3_alg».proof.Proof.KernelValue
import proofs.«419988_j26946624815680_3_alg».proof.Proof.RefValue
import Idealize.ShloMosaic.Lib.Affine

set_option maxRecDepth 16384

noncomputable section

namespace Cert.Bridge

open Idealize.ShloMosaic Idealize.ShloMosaic.TcCoe Idealize.SL.Sem Idealize.ShloMosaic.StableHlo
open Cert.ReferenceIdeal.RefValue (R1 R2 R3 R4 wrap0 wrap1)
open Cert.KernelIdeal.Value (K1 K2 K3 K4)

/-- A non-negative word is not signed-less-than zero. -/
theorem not_slt_zero (x : BitVec 32) (h : (0 : Int) ≤ x.toInt) : IntOp.cmpi .slt x 0#32 ≠ 1#1 := by
  intro hc
  have := IntOp.cmpi_slt.1 hc
  rw [show (0#32 : BitVec 32).toInt = 0 from by decide] at this
  omega

/-- Counting a negative position back from the end leaves a non-negative position as it is. -/
theorem wrap0_of_nonneg (idx : IVec Cert.ReferenceIdeal.S200000 32) (h : ∀ i, (0 : Int) ≤ (idx i).toInt) : wrap0 idx = idx := by
  funext i
  show (if IntOp.cmpi .slt (idx i) 0#32 = 1 then _ else idx i) = idx i
  exact if_neg (not_slt_zero _ (h i))

theorem wrap1_of_nonneg (idx : IVec Cert.ReferenceIdeal.S20000 32) (h : ∀ i, (0 : Int) ≤ (idx i).toInt) : wrap1 idx = idx := by
  funext i
  show (if IntOp.cmpi .slt (idx i) 0#32 = 1 then _ else idx i) = idx i
  exact if_neg (not_slt_zero _ (h i))

/-- The reference's three results are the kernel's, from memories that agree on the arguments, when both index
    arrays are non-negative. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h3 : ∀ i, (0 : Int) ≤ ((m ((c.tc : Thread Cert.KernelIdeal.nD Cert.KernelIdeal.τ).loc Cert.KernelIdeal.main_arg3) : IVec Cert.KernelIdeal.S200000 32) i).toInt)
    (h4 : ∀ i, (0 : Int) ≤ ((m ((c.tc : Thread Cert.KernelIdeal.nD Cert.KernelIdeal.τ).loc Cert.KernelIdeal.main_arg4) : IVec Cert.KernelIdeal.S20000 32) i).toInt) :
    R2 (launchContents m' c) = K2 m c ∧ R4 (launchContents m' c) = K4 m c ∧ R3 (launchContents m' c) = K3 m c := by
  obtain ⟨e0, e1, e2, e3, e4, e5, e6, e7, e8, e9, e10, e11, e12, e13, e14, e15, e16, e17, e18⟩ := hagree
  have r1 : R1 (launchContents m' c) = K1 m c := by
    show Cert.Spec.stageArr (Cert.ReferenceIdeal.RefValue.segMean0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [e0, e3, e1, e5, e6, e15, e16]
    rfl
  have r3 : R3 (launchContents m' c) = K3 m c := by
    show Cert.Spec.stageArr (Cert.ReferenceIdeal.RefValue.segMean1 (R1 (launchContents m' c)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [r1, e4, e2, e9, e10, e17, e18]
    rfl
  refine ⟨?_, ?_, r3⟩
  · show Cert.Spec.stageArr (Cert.ReferenceIdeal.RefValue.takeRows0 (R1 (launchContents m' c)) (wrap0 (m' ((c.tc : Thread Cert.ReferenceIdeal.nD Cert.ReferenceIdeal.τ).loc Cert.ReferenceIdeal.main_arg3)))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
    rw [r1, e3, e0, e7, e8, e13, e14, wrap0_of_nonneg _ h3]
    rfl
  · show Cert.Spec.stageArr (Cert.ReferenceIdeal.RefValue.takeRows1 (R3 (launchContents m' c)) (wrap1 (m' ((c.tc : Thread Cert.ReferenceIdeal.nD Cert.ReferenceIdeal.τ).loc Cert.ReferenceIdeal.main_arg4)))) (R1 (launchContents m' c)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [r3, r1, e4, e11, e12, e15, e16, wrap1_of_nonneg _ h4]
    rfl

end Cert.Bridge

end
-- ==== Proof.PreDecode.lean ====
/-
  What the precondition says of the two index arrays: every segment index is non-negative as a signed 32-bit integer.

  The printed precondition is a conjunction of `jnp.all` tests, reduced by `and` into one bit; its last two conjuncts
  compare each index word with zero (signed, greater or equal). The bit being one gives each conjunct, each
  `jnp.all` gives its test at every position, and the test at a position is `0 ≤` the word's signed value.
-/
import proofs.«419988_j26946624815680_3_alg».proof.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable [Facts]
open Facts

instance : Subsingleton S_.Idx := ⟨fun a b => funext fun d => d.elim0⟩

/-- The last part of the predicate: its bit is one only if both index arrays pass their test at every position. -/
theorem part5 {F : FTy → Type} [FloatOps F] (a3 : IVec S200000 32) (a4 : IVec S20000 32) (v83 : IVec S_ 1) (v84 : IVec S200000 32)
    (h : fn_part5 (F := F) a3 a4 v83 v84 ix0 = 1#1) :
    (∀ i, cmpi .sge a3 v84 i = 1#1)
      ∧ (∀ i, cmpi .sge a4 (broadcastInDim S20000 ![] bcast_S_S20000 (constantI S_ 32 0#32)) i = 1#1) := by
  unfold fn_part5 at h
  dsimp only at h
  obtain ⟨h87, h90⟩ := IntOp.andi_eq_one.1 h
  obtain ⟨-, h86⟩ := IntOp.andi_eq_one.1 h87
  exact ⟨fun i => Host.reduce_andi_all _ _ _ _ _ h86 i, fun i => Host.reduce_andi_all _ _ _ _ _ h90 i⟩

/-- A word that is signed-greater-or-equal to the zero word is non-negative. -/
theorem nonneg_of_sge (x : BitVec 32) (h : IntOp.cmpi .sge x 0#32 = 1#1) : (0 : Int) ≤ x.toInt := by
  have := IntOp.cmpi_sge.1 h
  rwa [show (0#32 : BitVec 32).toInt = 0 from by decide] at this

/-- The whole predicate: if it holds, both index arrays are non-negative everywhere. -/
theorem nonneg_of_pre {F : FTy → Type} [FloatOps F] (a0 : FVec F S200000x256 .f32) (a1 : FVec F S20000x256 .f32) (a2 : FVec F S2000x256 .f32)
    (a3 : IVec S200000 32) (a4 : IVec S20000 32) (a5 : FVec F S256x256 .f32) (a6 : FVec F S256 .f32) (a7 : FVec F S256x256 .f32)
    (a8 : FVec F S256 .f32) (a9 : FVec F S256x256 .f32) (a10 : FVec F S256 .f32) (a11 : FVec F S256x256 .f32) (a12 : FVec F S256 .f32)
    (a13 a14 a15 a16 a17 a18 : FVec F S256 .f32)
    (h : fn (F := F) a0 a1 a2 a3 a4 a5 a6 a7 a8 a9 a10 a11 a12 a13 a14 a15 a16 a17 a18 = fun _ => 1#1) :
    (∀ i, (0 : Int) ≤ (a3 i).toInt) ∧ (∀ i, (0 : Int) ≤ (a4 i).toInt) := by
  have e := congrFun h ix0
  obtain ⟨v83, hv⟩ : ∃ v83, fn (F := F) a0 a1 a2 a3 a4 a5 a6 a7 a8 a9 a10 a11 a12 a13 a14 a15 a16 a17 a18
      = fn_part5 (F := F) a3 a4 v83 (broadcastInDim S200000 ![] bcast_S_S200000 (constantI S_ 32 0#32)) := ⟨_, rfl⟩
  rw [hv] at e
  obtain ⟨h3, h4⟩ := part5 a3 a4 v83 _ e
  exact ⟨fun i => nonneg_of_sge _ (h3 i), fun i => nonneg_of_sge _ (h4 i)⟩

end Cert.Pre_finite_inputs.Decode

end
-- ==== Proof.lean ====
/-
  The kernel — four fused stages of a three-level message-passing block, each a bf16 matrix product with a bias, a
  residual add and a LayerNorm, run as four pipelined regions with a scatter-mean or a row gather on the host between
  them — computes, on the extended reals, what the plain reference computes, wherever both index arrays are
  non-negative.

  Both programs are the same composition. With `stage msg h W b g be` the array whose row `r` is the LayerNorm of
  `h r + (msg r · Wᵀ + b)` (mean and variance over the 256 columns, the same `ε` word, scale `g`, shift `be`):
      h1' = stage (mean of h0's rows over assign0's segments) h1 W_up01 b_up01 g1 be1
      h0' = stage (rows of h1' at assign0) h0 W_down10 b_down10 g0 be0
      h2' = stage (mean of h1''s rows over assign1's segments) h2 W_up12 b_up12 g2 be2
      h1'' = stage (rows of h2' at assign1) h1' W_down21 b_down21 g1 be1
  and the results are (h0', h1'', h2').

  * The kernel's side. Each region's blocks are rows of its operands, and a row of a stage depends on that row of the
    message and state only, so point `t` writes block `t` of the whole-array stage and the blocks tile the array
    (Region0 … Region3, over the body's value at an index, PayStage). The weight reaches the body transposed and the
    vectors as one-row arrays; a change of float format is the identity. The buffers between the regions are read
    back through the host stretches to the launch memory (KernelValue), under the run of the whole program with its
    result buffers named (KernelResults).
  * The reference's side. The generated run gives each result as the host operations' term; each stage's term at an
    index is the same row-level stage (RefStage), so the results are the same compositions (RefValue).
  * The one difference. The reference's indexing reads a negative position as counted back from the table's end before
    it gathers; the kernel gathers at the position itself (both clamp a position past the end, and both drop a row whose
    segment is out of range when they sum). On a non-negative position the two agree, and the precondition says every
    position is non-negative (PreDecode); that is the only use of the precondition (Bridge).

  No law of the extended reals beyond what is written in the row-level stage is used: both sides spell the same
  sums, products and quotients in the same order.
-/
import proofs.«419988_j26946624815680_3_alg».proof.Defs
import proofs.«419988_j26946624815680_3_alg».proof.Proof.Gen.Kernel
import proofs.«419988_j26946624815680_3_alg».proof.Proof.Gen.Kernel.Skeleton
import proofs.«419988_j26946624815680_3_alg».proof.Proof.Gen.Kernel.Launch
import proofs.«419988_j26946624815680_3_alg».proof.Proof.Gen.Kernel.Points
import proofs.«419988_j26946624815680_3_alg».proof.Proof.Gen.Kernel.Frame
import proofs.«419988_j26946624815680_3_alg».proof.Proof.Gen.KernelIdeal
import proofs.«419988_j26946624815680_3_alg».proof.Proof.Gen.KernelIdeal.Skeleton
import proofs.«419988_j26946624815680_3_alg».proof.Proof.Gen.KernelIdeal.Launch
import proofs.«419988_j26946624815680_3_alg».proof.Proof.Gen.KernelIdeal.Points
import proofs.«419988_j26946624815680_3_alg».proof.Proof.Gen.KernelIdeal.Frame
import proofs.«419988_j26946624815680_3_alg».proof.Proof.Gen.ReferenceIdeal
import proofs.«419988_j26946624815680_3_alg».proof.Proof.Gen.ReferenceIdeal.Run
import proofs.«419988_j26946624815680_3_alg».proof.Proof.Gen.Pre_finite_inputs
import proofs.«419988_j26946624815680_3_alg».proof.Proof.KernelResults
import proofs.«419988_j26946624815680_3_alg».proof.Proof.Bridge
import proofs.«419988_j26946624815680_3_alg».proof.Proof.PreDecode
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments, with every index non-negative, both programs end with the same three
    arrays: the kernel's run ends at `K2`, `K4`, `K3` of its memory, the reference's at `R2`, `R4`, `R3` of its own,
    and those are equal. -/
theorem algebraic : Cert.algebraic_KernelIdeal_ReferenceIdeal := by
  intro m ρ m' ρ' hpre hagree
  refine ⟨fun c => Cert.KernelIdeal.Value.K2 m c, fun c => Cert.KernelIdeal.Value.K4 m c, fun c => Cert.KernelIdeal.Value.K3 m c, ?_, ?_⟩
  · exact (θ_run Cert.KernelIdeal.defs _ _).mono
      (fun r h c => ⟨(h c).1.trans (Cert.KernelIdeal.Value.W10_v33 m ρ c), (h c).2.1.trans (Cert.KernelIdeal.Value.W10_v51 m ρ c),
        (h c).2.2.1.trans (Cert.KernelIdeal.Value.W10_v46_0 m ρ c), (h c).2.2.2⟩)
      (Cert.KernelIdeal.Results.run_results (F := Ideal) m ρ)
  · refine (θ_run Cert.ReferenceIdeal.defs _ _).mono (fun r h c => ?_) (Cert.ReferenceIdeal.RefValue.run_stages m' ρ')
    obtain ⟨h3, h4⟩ := Cert.Pre_finite_inputs.Decode.nonneg_of_pre _ _ _ _ _ _ _ _ _ _ _ _ _ _ _ _ _ _ _ (hpre c)
    obtain ⟨q2, q4, q3⟩ := Cert.Bridge.results_eq m m' c (hagree c) h3 h4
    exact ⟨(h c).1.trans q2, (h c).2.1.trans q4, (h c).2.2.1.trans q3, (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
